-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S1x2048 : Shape := ⟨2, ![1, 2048]⟩
abbrev S25x2048 : Shape := ⟨2, ![25, 2048]⟩
abbrev S50257x2048 : Shape := ⟨2, ![50257, 2048]⟩
abbrev S25x4096 : Shape := ⟨2, ![25, 4096]⟩
abbrev S25 : Shape := ⟨1, ![25]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S25x2048 : S_.BroadcastsInDim S25x2048 (![] : Fin 0 → Fin S25x2048.rank)
  reducesTo_S25x2048_S_d0_1 : S25x2048.ReducesTo [0, 1] S_
  bcast_S_S50257x2048 : S_.BroadcastsInDim S50257x2048 (![] : Fin 0 → Fin S50257x2048.rank)
  reducesTo_S50257x2048_S_d0_1 : S50257x2048.ReducesTo [0, 1] S_
  bcast_S_S25x4096 : S_.BroadcastsInDim S25x4096 (![] : Fin 0 → Fin S25x4096.rank)
  reducesTo_S25x4096_S_d0_1 : S25x4096.ReducesTo [0, 1] S_
  bcast_S_S25 : S_.BroadcastsInDim S25 (![] : Fin 0 → Fin S25.rank)
  reducesTo_S25_S_d0 : S25.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S50257 : S_.BroadcastsInDim S50257 (![] : Fin 0 → Fin S50257.rank)
  reducesTo_S50257_S_d0 : S50257.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S6144 .f32) (main_arg13 : FVec F S50257x2048 .f32) (main_arg14 : FVec F S50257 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg12
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S50257x2048 .f32 := Host.absf main_arg13
  let main_cst_22 : FVec F S_ .f32 := constant S_ .f32 0x7F800000#32
  let main_v60 : FVec F S50257x2048 .f32 := broadcastInDim S50257x2048 ![] bcast_S_S50257x2048 main_cst_22
  let main_v61 : IVec S50257x2048 1 := cmpf .olt main_v59 main_v60
  let main_c_23 : IVec S_ 1 := constantI S_ 1 1#1
  let main_v62 : IVec S_ 1 := (fun x v => Host.reduce IntOp.andi x v reducesTo_S50257x2048_S_d0_1 h_S_) main_v61 main_c_23
  let main_v63 : IVec S_ 1 := andi main_v58 main_v62
  let main_v64 : FVec F S50257 .f32 := Host.absf main_arg14
  let main_cst_24 : FVec F S_ .f32 := constant S_ .f32 0x7F800000#32
  let main_v65 : FVec F S50257 .f32 := broadcastInDim S50257 ![] bcast_S_S50257 main_cst_24
  let main_v66 : IVec S50257 1 := cmpf .olt main_v64 main_v65
  let main_c_25 : IVec S_ 1 := constantI S_ 1 1#1
  let main_v67 : IVec S_ 1 := (fun x v => Host.reduce IntOp.andi x v reducesTo_S50257_S_d0 h_S_) main_v66 main_c_25
  fn_part4 (F := F) main_v63 main_v67

def fn_part2 {F : FTy → Type} [FloatOps F] (main_arg8 : FVec F S2048 .f32) (main_arg9 : FVec F S6144x2048 .f32) (main_arg10 : FVec F S6144x2048 .f32) (main_arg11 : FVec F S6144 .f32) (main_arg12 : FVec F S6144 .f32) (main_arg13 : FVec F S50257x2048 .f32) (main_arg14 : FVec F S50257 .f32) (main_v33 : IVec S_ 1) : IVec S_ 1 :=
  let main_v34 : FVec F S2048 .f32 := Host.absf main_arg8
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144x2048 .f32 := Host.absf main_arg10
  let main_cst_16 : FVec F S_ .f32 := constant S_ .f32 0x7F800000#32
  let main_v45 : FVec F S6144x2048 .f32 := broadcastInDim S6144x2048 ![] bcast_S_S6144x2048 main_cst_16
  let main_v46 : IVec S6144x2048 1 := cmpf .olt main_v44 main_v45
  let main_c_17 : IVec S_ 1 := constantI S_ 1 1#1
  let main_v47 : IVec S_ 1 := (fun x v => Host.reduce IntOp.andi x v reducesTo_S6144x2048_S_d0_1 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_arg14 main_v48 main_v49 main_v50

def fn_part1 {F : FTy → Type} [FloatOps F] (main_arg5 : FVec F S25x4096 .f32) (main_arg6 : FVec F S25 .f32) (main_arg7 : FVec F S2048x4096 .f32) (main_arg8 : FVec F S2048 .f32) (main_arg9 : FVec F S6144x2048 .f32) (main_arg10 : FVec F S6144x2048 .f32) (main_arg11 : FVec F S6144 .f32) (main_arg12 : FVec F S6144 .f32) (main_arg13 : FVec F S50257x2048 .f32) (main_arg14 : FVec F S50257 .f32) (main_v13 : IVec S_ 1) (main_v16 : IVec S50257x2048 1) : IVec S_ 1 :=
  let main_c_5 : IVec S_ 1 := constantI S_ 1 1#1
  let main_v17 : IVec S_ 1 := (fun x v => Host.reduce IntOp.andi x v reducesTo_S50257x2048_S_d0_1 h_S_) main_v16 main_c_5
  let main_v18 : IVec S_ 1 := andi main_v13 main_v17
  let main_v19 : FVec F S25x4096 .f32 := Host.absf main_arg5
  let main_cst_6 : FVec F S_ .f32 := constant S_ .f32 0x7F800000#32
  let main_v20 : FVec F S25x4096 .f32 := broadcastInDim S25x4096 ![] bcast_S_S25x4096 main_cst_6
  let main_v21 : IVec S25x4096 1 := cmpf .olt main_v19 main_v20
  let main_c_7 : IVec S_ 1 := constantI S_ 1 1#1
  let main_v22 : IVec S_ 1 := (fun x v => Host.reduce IntOp.andi x v reducesTo_S25x4096_S_d0_1 h_S_) main_v21 main_c_7
  let main_v23 : IVec S_ 1 := andi main_v18 main_v22
  let main_v24 : FVec F S25 .f32 := Host.absf main_arg6
  let main_cst_8 : FVec F S_ .f32 := constant S_ .f32 0x7F800000#32
  let main_v25 : FVec F S25 .f32 := broadcastInDim S25 ![] bcast_S_S25 main_cst_8
  let main_v26 : IVec S25 1 := cmpf .olt main_v24 main_v25
  let main_c_9 : IVec S_ 1 := constantI S_ 1 1#1
  let main_v27 : IVec S_ 1 := (fun x v => Host.reduce IntOp.andi x v reducesTo_S25_S_d0 h_S_) main_v26 main_c_9
  let main_v28 : IVec S_ 1 := andi main_v23 main_v27
  let main_v29 : FVec F S2048x4096 .f32 := Host.absf main_arg7
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S1 32) (main_arg1 : FVec F S1x1x2048 .f32) (main_arg2 : FVec F S1x2048 .f32) (main_arg3 : FVec F S25x2048 .f32) (main_arg4 : FVec F S50257x2048 .f32) (main_arg5 : FVec F S25x4096 .f32) (main_arg6 : FVec F S25 .f32) (main_arg7 : FVec F S2048x4096 .f32) (main_arg8 : FVec F S2048 .f32) (main_arg9 : FVec F S6144x2048 .f32) (main_arg10 : FVec F S6144x2048 .f32) (main_arg11 : FVec F S6144 .f32) (main_arg12 : FVec F S6144 .f32) (main_arg13 : FVec F S50257x2048 .f32) (main_arg14 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S25x2048 .f32 := Host.absf main_arg3
  let main_cst_2 : FVec F S_ .f32 := constant S_ .f32 0x7F800000#32
  let main_v10 : FVec F S25x2048 .f32 := broadcastInDim S25x2048 ![] bcast_S_S25x2048 main_cst_2
  let main_v11 : IVec S25x2048 1 := cmpf .olt main_v9 main_v10
  let main_c_3 : IVec S_ 1 := constantI S_ 1 1#1
  let main_v12 : IVec S_ 1 := (fun x v => Host.reduce IntOp.andi x v reducesTo_S25x2048_S_d0_1 h_S_) main_v11 main_c_3
  let main_v13 : IVec S_ 1 := andi main_v8 main_v12
  let main_v14 : FVec F S50257x2048 .f32 := Host.absf main_arg4
  let main_cst_4 : FVec F S_ .f32 := constant S_ .f32 0x7F800000#32
  let main_v15 : FVec F S50257x2048 .f32 := broadcastInDim S50257x2048 ![] bcast_S_S50257x2048 main_cst_4
  let main_v16 : IVec S50257x2048 1 := cmpf .olt main_v14 main_v15
  fn_part1 (F := F) main_arg5 main_arg6 main_arg7 main_arg8 main_arg9 main_arg10 main_arg11 main_arg12 main_arg13 main_arg14 main_v13 main_v16
-- ==== Kernel.lean ====
abbrev S1 : Shape := ⟨1, ![1]⟩
abbrev S1x1x2048 : Shape := ⟨3, ![1, 1, 2048]⟩
abbrev S1x2048 : Shape := ⟨2, ![1, 2048]⟩
abbrev S25x2048 : Shape := ⟨2, ![25, 2048]⟩
abbrev S50257x2048 : Shape := ⟨2, ![50257, 2048]⟩
abbrev S25x4096 : Shape := ⟨2, ![25, 4096]⟩
abbrev S25 : Shape := ⟨1, ![25]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩
abbrev S1x1 : Shape := ⟨2, ![1, 1]⟩
abbrev S1x4096 : Shape := ⟨2, ![1, 4096]⟩
abbrev S4096x25 : Shape := ⟨2, ![4096, 25]⟩
abbrev S1x25 : Shape := ⟨2, ![1, 25]⟩
abbrev S512x4096 : Shape := ⟨2, ![512, 4096]⟩
abbrev S1x512 : Shape := ⟨2, ![1, 512]⟩
abbrev S4096x512 : Shape := ⟨2, ![4096, 512]⟩
abbrev S3x2048x2048 : Shape := ⟨3, ![3, 2048, 2048]⟩
abbrev S3x1x2048 : Shape := ⟨3, ![3, 1, 2048]⟩
abbrev S1x256 : Shape := ⟨2, ![1, 256]⟩
abbrev S3x256x2048 : Shape := ⟨3, ![3, 256, 2048]⟩
abbrev S3x1x256 : Shape := ⟨3, ![3, 1, 256]⟩
abbrev S1x256x2048 : Shape := ⟨3, ![1, 256, 2048]⟩
abbrev S256x2048 : Shape := ⟨2, ![256, 2048]⟩
abbrev S2048x256 : Shape := ⟨2, ![2048, 256]⟩
abbrev S1x1x256 : Shape := ⟨3, ![1, 1, 256]⟩
abbrev S1x50257 : Shape := ⟨2, ![1, 50257]⟩
abbrev S2048x2048 : Shape := ⟨2, ![2048, 2048]⟩

abbrev nBuf : Space → Nat
  | .hbm => 71
  | .vmem => 28
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x2048, .f32⟩
  | .hbm, ⟨3, _⟩ => ⟨S25x2048, .f32⟩
  | .hbm, ⟨4, _⟩ => ⟨S50257x2048, .f32⟩
  | .hbm, ⟨5, _⟩ => ⟨S25x4096, .f32⟩
  | .hbm, ⟨6, _⟩ => ⟨S25, .f32⟩
  | .hbm, ⟨7, _⟩ => ⟨S2048x4096, .f32⟩
  | .hbm, ⟨8, _⟩ => ⟨S2048, .f32⟩
  | .hbm, ⟨9, _⟩ => ⟨S6144x2048, .f32⟩
  | .hbm, ⟨10, _⟩ => ⟨S6144x2048, .f32⟩
  | .hbm, ⟨11, _⟩ => ⟨S6144, .f32⟩
  | .hbm, ⟨12, _⟩ => ⟨S6144, .f32⟩
  | .hbm, ⟨13, _⟩ => ⟨S50257x2048, .f32⟩
  | .hbm, ⟨14, _⟩ => ⟨S50257, .f32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1x2048, .f32⟩
  | .hbm, ⟨24, _⟩ => ⟨S1x2048, .f32⟩
  | .hbm, ⟨25, _⟩ => ⟨S1x4096, .f32⟩
  | .hbm, ⟨26, _⟩ => ⟨S4096x25, .f32⟩
  | .hbm, ⟨27, _⟩ => ⟨S1x25, .f32⟩
  | .hbm, ⟨28, _⟩ => ⟨S1x25, .f32⟩
  | .hbm, ⟨29, _⟩ => ⟨S1x25, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x25, .f32⟩
  | .hbm, ⟨37, _⟩ => ⟨S1x25, .f32⟩
  | .hbm, ⟨38, _⟩ => ⟨S1x25, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x25, .f32⟩
  | .hbm, ⟨43, _⟩ => ⟨S1x25, .f32⟩
  | .hbm, ⟨44, _⟩ => ⟨S1x2048, .f32⟩
  | .hbm, ⟨45, _⟩ => ⟨S1x4096, .f32⟩
  | .hbm, ⟨46, _⟩ => ⟨S1x2048, .f32⟩
  | .hbm, ⟨47, _⟩ => ⟨S1x2048, .f32⟩
  | .hbm, ⟨48, _⟩ => ⟨S3x2048x2048, .f32⟩
  | .hbm, ⟨49, _⟩ => ⟨S3x2048x2048, .f32⟩
  | .hbm, ⟨50, _⟩ => ⟨S3x1x2048, .f32⟩
  | .hbm, ⟨51, _⟩ => ⟨S3x1x2048, .f32⟩
  | .hbm, ⟨52, _⟩ => ⟨S1x2048, .f32⟩
  | .hbm, ⟨53, _⟩ => ⟨S1x50257, .f32⟩
  | .hbm, ⟨54, _⟩ => ⟨S1x50257, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S1, .f32⟩
  | .hbm, ⟨60, _⟩ => ⟨S1x1, .f32⟩
  | .hbm, ⟨61, _⟩ => ⟨S1x50257, .f32⟩
  | .hbm, ⟨62, _⟩ => ⟨S1x50257, .f32⟩
  | .hbm, ⟨63, _⟩ => ⟨S1x50257, .f32⟩
  | .hbm, ⟨64, _⟩ => ⟨S_, .f32⟩
  | .hbm, ⟨65, _⟩ => ⟨S1, .f32⟩
  | .hbm, ⟨66, _⟩ => ⟨S1x1, .f32⟩
  | .hbm, ⟨67, _⟩ => ⟨S1x1, .f32⟩
  | .hbm, ⟨68, _⟩ => ⟨S1x50257, .f32⟩
  | .hbm, ⟨69, _⟩ => ⟨S1x50257, .f32⟩
  | .hbm, ⟨70, _⟩ => ⟨S1x1x2048, .f32⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x2048, .f32⟩
  | .local _ .vmem, ⟨8, _⟩ => ⟨S1x2048, .f32⟩
  | .local _ .vmem, ⟨9, _⟩ => ⟨S1x256, .f32⟩
  | .local _ .vmem, ⟨10, _⟩ => ⟨S1x256, .f32⟩
  | .local _ .vmem, ⟨11, _⟩ => ⟨S3x256x2048, .f32⟩
  | .local _ .vmem, ⟨12, _⟩ => ⟨S3x256x2048, .f32⟩
  | .local _ .vmem, ⟨13, _⟩ => ⟨S3x256x2048, .f32⟩
  | .local _ .vmem, ⟨14, _⟩ => ⟨S3x256x2048, .f32⟩
  | .local _ .vmem, ⟨15, _⟩ => ⟨S3x1x256, .f32⟩
  | .local _ .vmem, ⟨16, _⟩ => ⟨S3x1x256, .f32⟩
  | .local _ .vmem, ⟨17, _⟩ => ⟨S3x1x256, .f32⟩
  | .local _ .vmem, ⟨18, _⟩ => ⟨S3x1x256, .f32⟩
  | .local _ .vmem, ⟨19, _⟩ => ⟨S1x256, .f32⟩
  | .local _ .vmem, ⟨20, _⟩ => ⟨S1x256, .f32⟩
  | .local _ .vmem, ⟨21, _⟩ => ⟨S1x2048, .f32⟩
  | .local _ .vmem, ⟨22, _⟩ => ⟨S2048x2048, .f32⟩
  | .local _ .vmem, ⟨23, _⟩ => ⟨S2048x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_call0_cst_0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_cst_1 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_v35 : Ref sig .tc := ⟨.hbm, 69, rfl⟩
abbrev main_v36 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x2048_S1x2048_S1x4096_d1 : Shape.Concatenates [S1x2048, S1x2048] S1x4096 1
  transposes_S25x4096_S4096x25_1_0 : S25x4096.Transposes [1, 0] S4096x25
  bcast_S25_S1x25_1 : S25.BroadcastsInDim S1x25 (![1] : Fin 1 → Fin S1x25.rank)
  reducesTo_S1x25_S1_d1 : S1x25.ReducesTo [1] S1
  h_S_ : 0 < S_.numel
  bcast_S1x1_S1x25_0_1 : S1x1.BroadcastsInDim S1x25 (![0, 1] : Fin 2 → Fin S1x25.rank)
  shapeCasts_S2048_S1x2048 : S2048.ShapeCasts S1x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S6144x2048_S3x2048x2048 : S6144x2048.ShapeCasts S3x2048x2048
  shapeCasts_S6144_S3x1x2048 : S6144.ShapeCasts S3x1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S3x256x2048_S3x256x2048_0_0_0 : ∀ a, (![0, 0, 0] : Fin 3 → Nat) a + S3x256x2048.size a ≤ S3x256x2048.size a
  h_S3x256x2048 : 0 < S3x256x2048.numel
  shapeCasts_S3x256x2048_S3x256x2048 : S3x256x2048.ShapeCasts S3x256x2048
  inb_S3x1x256_S3x1x256_0_0_0 : ∀ a, (![0, 0, 0] : Fin 3 → Nat) a + S3x1x256.size a ≤ S3x1x256.size a
  h_S3x1x256 : 0 < S3x1x256.numel
  shapeCasts_S3x1x256_S3x1x256 : S3x1x256.ShapeCasts S3x1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S3x256x2048_o0_0_0_S1x256x2048 : S3x256x2048.Slices ![0, 0, 0] S1x256x2048
  shapeCasts_S1x256x2048_S256x2048 : S1x256x2048.ShapeCasts S256x2048
  transposes_S256x2048_p1_0_S2048x256 : S256x2048.Transposes [1, 0] S2048x256
  slices_S3x1x256_o0_0_0_S1x1x256 : S3x1x256.Slices ![0, 0, 0] S1x1x256
  shapeCasts_S1x1x256_S1x256 : S1x1x256.ShapeCasts S1x256
  slices_S3x256x2048_o1_0_0_S1x256x2048 : S3x256x2048.Slices ![1, 0, 0] S1x256x2048
  slices_S3x1x256_o1_0_0_S1x1x256 : S3x1x256.Slices ![1, 0, 0] S1x1x256
  slices_S3x256x2048_o2_0_0_S1x256x2048 : S3x256x2048.Slices ![2, 0, 0] S1x256x2048
  slices_S3x1x256_o2_0_0_S1x1x256 : S3x1x256.Slices ![2, 0, 0] S1x1x256
  shapeCasts_S50257_S1x50257 : S50257.ShapeCasts S1x50257
  inb_S2048x2048_S2048x2048_0_0 : ∀ a, (![0, 0] : Fin 2 → Nat) a + S2048x2048.size a ≤ S2048x2048.size a
  h_S2048x2048 : 0 < S2048x2048.numel
  transposes_S2048x2048_p1_0_S2048x2048 : S2048x2048.Transposes [1, 0] S2048x2048
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x25_S1x25_1_0_0_1_n_n_wf : DotDims.WF S1x4096 S4096x25 S1x25 [1] [0] [0] [1] [] []
  dot_S1x25_S25x2048_S1x2048_1_0_0_1_n_n_wf : DotDims.WF S1x25 S25x2048 S1x2048 [1] [0] [0] [1] [] []
  dot_S1x4096_S4096x512_S1x512_1_0_0_1_n_n_wf : DotDims.WF S1x4096 S4096x512 S1x512 [1] [0] [0] [1] [] []
  dot_S1x2048_S2048x256_S1x256_1_0_0_1_n_n_wf : DotDims.WF S1x2048 S2048x256 S1x256 [1] [0] [0] [1] [] []
  dot_S1x2048_S2048x2048_S1x2048_1_0_0_1_n_n_wf : DotDims.WF S1x2048 S2048x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .f32 = 32 ∨ (Rect.block (s := S2048x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x256x2048.size a ≤ S3x2048x2048.size a
  hwx1_3 : ∀ i : grid1.Coords, EltTy.bits .f32 = 32 ∨ (Rect.block (s := S3x2048x2048) S3x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x256x2048.size a ≤ S3x2048x2048.size a
  hwx1_4 : ∀ i : grid1.Coords, EltTy.bits .f32 = 32 ∨ (Rect.block (s := S3x2048x2048) S3x256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x1x256.size a ≤ S3x1x2048.size a
  hwx1_5 : ∀ i : grid1.Coords, EltTy.bits .f32 = 32 ∨ (Rect.block (s := S3x1x2048) S3x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3x1x256.size a ≤ S3x1x2048.size a
  hwx1_6 : ∀ i : grid1.Coords, EltTy.bits .f32 = 32 ∨ (Rect.block (s := S3x1x2048) S3x1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x2048.size a
  hwx1_7 : ∀ i : grid1.Coords, EltTy.bits .f32 = 32 ∨ (Rect.block (s := S1x2048) S1x256.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x2048.size a < S50257x2048.size a
  hwx2_1 : ∀ i : grid2.Coords, EltTy.bits .f32 = 32 ∨ (Rect.unit (s := S50257x2048) (fun a => cc2_transform_1 i a * S2048x2048.size a) (fun a => (Pipeline.Clip.of (cc2_transform_1 i a) (S2048x2048.size a) (S50257x2048.size a)).extent (S2048x2048.size a)) fun a => Pipeline.Clip.inb (Pipeline.Clip.ok_of (hstart2_1 i a))).WholeWords (EltTy.packing .f32)
  hwxs2_1 : ∀ i : grid2.Coords, EltTy.bits .f32 = 32 ∨ (Rect.unit (s := S2048x2048) (fun _ => 0) (fun a => (Pipeline.Clip.of (cc2_transform_1 i a) (S2048x2048.size a) (S50257x2048.size a)).extent (S2048x2048.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2048.size a < S1x50257.size a
  hwx2_3 : ∀ i : grid2.Coords, EltTy.bits .f32 = 32 ∨ (Rect.unit (s := S1x50257) (fun a => cc2_transform_3 i a * S1x2048.size a) (fun a => (Pipeline.Clip.of (cc2_transform_3 i a) (S1x2048.size a) (S1x50257.size a)).extent (S1x2048.size a)) fun a => Pipeline.Clip.inb (Pipeline.Clip.ok_of (hstart2_3 i a))).WholeWords (EltTy.packing .f32)
  hwxs2_3 : ∀ i : grid2.Coords, EltTy.bits .f32 = 32 ∨ (Rect.unit (s := S1x2048) (fun _ => 0) (fun a => (Pipeline.Clip.of (cc2_transform_3 i a) (S1x2048.size a) (S1x50257.size a)).extent (S1x2048.size a)) fun a => (Nat.zero_add _).trans_le (Pipeline.Clip.extent_le (Pipeline.Clip.ok_of (hstart2_3 i a)))).WholeWords (EltTy.packing .f32)

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x25_S1x25_1_0_0_1_n_n : DotDims S1x4096 S4096x25 S1x25 where
  lhsContracting := [1]
  rhsContracting := [0]
  lhsNonContracting := [0]
  rhsNonContracting := [1]
  lhsBatch := []
  rhsBatch := []
  wf := dot_S1x4096_S4096x25_S1x25_1_0_0_1_n_n_wf
def dot_S1x25_S25x2048_S1x2048_1_0_0_1_n_n : DotDims S1x25 S25x2048 S1x2048 where
  lhsContracting := [1]
  rhsContracting := [0]
  lhsNonContracting := [0]
  rhsNonContracting := [1]
  lhsBatch := []
  rhsBatch := []
  wf := dot_S1x25_S25x2048_S1x2048_1_0_0_1_n_n_wf
def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf

abbrev win0_0 : Pipeline.Window sig grid0 :=
  Pipeline.Window.ofSpec (Memref.whole main_v25) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S3x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S3x256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30) S3x1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31) S3x1x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg13) S2048x2048.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v33) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v34) S1x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x2048 : Shape := ⟨3, ![1, 1, 2048]⟩
abbrev S1x2048 : Shape := ⟨2, ![1, 2048]⟩
abbrev S25x2048 : Shape := ⟨2, ![25, 2048]⟩
abbrev S50257x2048 : Shape := ⟨2, ![50257, 2048]⟩
abbrev S25x4096 : Shape := ⟨2, ![25, 4096]⟩
abbrev S25 : Shape := ⟨1, ![25]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩
abbrev S1x1 : Shape := ⟨2, ![1, 1]⟩
abbrev S1x4096 : Shape := ⟨2, ![1, 4096]⟩
abbrev S4096x25 : Shape := ⟨2, ![4096, 25]⟩
abbrev S1x25 : Shape := ⟨2, ![1, 25]⟩
abbrev S4096x2048 : Shape := ⟨2, ![4096, 2048]⟩
abbrev S2048x6144 : Shape := ⟨2, ![2048, 6144]⟩
abbrev S1x6144 : Shape := ⟨2, ![1, 6144]⟩
abbrev S2048x50257 : Shape := ⟨2, ![2048, 50257]⟩
abbrev S1x50257 : Shape := ⟨2, ![1, 50257]⟩

abbrev nBuf : Space → Nat
  | .hbm => 114
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x2048, .f32⟩
  | .hbm, ⟨3, _⟩ => ⟨S25x2048, .f32⟩
  | .hbm, ⟨4, _⟩ => ⟨S50257x2048, .f32⟩
  | .hbm, ⟨5, _⟩ => ⟨S25x4096, .f32⟩
  | .hbm, ⟨6, _⟩ => ⟨S25, .f32⟩
  | .hbm, ⟨7, _⟩ => ⟨S2048x4096, .f32⟩
  | .hbm, ⟨8, _⟩ => ⟨S2048, .f32⟩
  | .hbm, ⟨9, _⟩ => ⟨S6144x2048, .f32⟩
  | .hbm, ⟨10, _⟩ => ⟨S6144x2048, .f32⟩
  | .hbm, ⟨11, _⟩ => ⟨S6144, .f32⟩
  | .hbm, ⟨12, _⟩ => ⟨S6144, .f32⟩
  | .hbm, ⟨13, _⟩ => ⟨S50257x2048, .f32⟩
  | .hbm, ⟨14, _⟩ => ⟨S50257, .f32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1x2048, .f32⟩
  | .hbm, ⟨24, _⟩ => ⟨S1x2048, .f32⟩
  | .hbm, ⟨25, _⟩ => ⟨S1x4096, .f32⟩
  | .hbm, ⟨26, _⟩ => ⟨S4096x25, .f32⟩
  | .hbm, ⟨27, _⟩ => ⟨S1x25, .f32⟩
  | .hbm, ⟨28, _⟩ => ⟨S1x25, .f32⟩
  | .hbm, ⟨29, _⟩ => ⟨S1x25, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x25, .f32⟩
  | .hbm, ⟨37, _⟩ => ⟨S1x25, .f32⟩
  | .hbm, ⟨38, _⟩ => ⟨S1x25, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x25, .f32⟩
  | .hbm, ⟨43, _⟩ => ⟨S1x25, .f32⟩
  | .hbm, ⟨44, _⟩ => ⟨S1x2048, .f32⟩
  | .hbm, ⟨45, _⟩ => ⟨S1x4096, .f32⟩
  | .hbm, ⟨46, _⟩ => ⟨S4096x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S2048x6144, .f32⟩
  | .hbm, ⟨54, _⟩ => ⟨S1x6144, .f32⟩
  | .hbm, ⟨55, _⟩ => ⟨S1x6144, .f32⟩
  | .hbm, ⟨56, _⟩ => ⟨S1x6144, .f32⟩
  | .hbm, ⟨57, _⟩ => ⟨S2048x6144, .f32⟩
  | .hbm, ⟨58, _⟩ => ⟨S1x6144, .f32⟩
  | .hbm, ⟨59, _⟩ => ⟨S1x6144, .f32⟩
  | .hbm, ⟨60, _⟩ => ⟨S1x6144, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S_, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S_, .f32⟩
  | .hbm, ⟨80, _⟩ => ⟨S1x2048, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S1x2048, .f32⟩
  | .hbm, ⟨88, _⟩ => ⟨S_, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S1x2048, .f32⟩
  | .hbm, ⟨94, _⟩ => ⟨S2048x50257, .f32⟩
  | .hbm, ⟨95, _⟩ => ⟨S1x50257, .f32⟩
  | .hbm, ⟨96, _⟩ => ⟨S1x50257, .f32⟩
  | .hbm, ⟨97, _⟩ => ⟨S1x50257, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S1, .f32⟩
  | .hbm, ⟨102, _⟩ => ⟨S1, .f32⟩
  | .hbm, ⟨103, _⟩ => ⟨S1x1, .f32⟩
  | .hbm, ⟨104, _⟩ => ⟨S1x50257, .f32⟩
  | .hbm, ⟨105, _⟩ => ⟨S1x50257, .f32⟩
  | .hbm, ⟨106, _⟩ => ⟨S1x50257, .f32⟩
  | .hbm, ⟨107, _⟩ => ⟨S_, .f32⟩
  | .hbm, ⟨108, _⟩ => ⟨S1, .f32⟩
  | .hbm, ⟨109, _⟩ => ⟨S1x1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_7 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v71 : Ref sig .tc := ⟨.hbm, 112, rfl⟩
abbrev main_v72 : Ref sig .tc := ⟨.hbm, 113, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x2048_S1x2048_S1x4096_d1 : Shape.Concatenates [S1x2048, S1x2048] S1x4096 1
  transposes_S25x4096_S4096x25_1_0 : S25x4096.Transposes [1, 0] S4096x25
  bcast_S25_S1x25_1 : S25.BroadcastsInDim S1x25 (![1] : Fin 1 → Fin S1x25.rank)
  reducesTo_S1x25_S1_d1 : S1x25.ReducesTo [1] S1
  h_S_ : 0 < S_.numel
  bcast_S1x1_S1x25_0_1 : S1x1.BroadcastsInDim S1x25 (![0, 1] : Fin 2 → Fin S1x25.rank)
  transposes_S2048x4096_S4096x2048_1_0 : S2048x4096.Transposes [1, 0] S4096x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x25_S1x25_1_0_0_1_n_n_wf : DotDims.WF S1x4096 S4096x25 S1x25 [1] [0] [0] [1] [] []
  dot_S1x25_S25x2048_S1x2048_1_0_0_1_n_n_wf : DotDims.WF S1x25 S25x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x25_S1x25_1_0_0_1_n_n : DotDims S1x4096 S4096x25 S1x25 where
  lhsContracting := [1]
  rhsContracting := [0]
  lhsNonContracting := [0]
  rhsNonContracting := [1]
  lhsBatch := []
  rhsBatch := []
  wf := dot_S1x4096_S4096x25_S1x25_1_0_0_1_n_n_wf
def dot_S1x25_S25x2048_S1x2048_1_0_0_1_n_n : DotDims S1x25 S25x2048 S1x2048 where
  lhsContracting := [1]
  rhsContracting := [0]
  lhsNonContracting := [0]
  rhsNonContracting := [1]
  lhsBatch := []
  rhsBatch := []
  wf := dot_S1x25_S25x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.Halves.lean ====
/- The two complementary half shares of a buffer: an array read through two input windows is held half by each, and the
   two halves compose to the whole. -/
import Idealize.ShloMosaic.Lib.Pipeline.Launch

noncomputable section

namespace Cert.Shares

open Idealize.SL Idealize.SL.RA Idealize.ShloMosaic
open Idealize.SL.RA.PCS

/-- The left half of the full share. -/
def lh : PosShare TreeShare := (fullShare : PosShare TreeShare).left
/-- The right half of the full share. -/
def rh : PosShare TreeShare := (fullShare : PosShare TreeShare).right

/-- The halves compose to the full share. -/
theorem lh_op_rh : (lh ·? rh) = Part.some (fullShare : PosShare TreeShare) := PosShare.left_op_right fullShare

/-- So the full share is among their compositions. -/
theorem full_mem : (fullShare : PosShare TreeShare) ∈ lh ·? rh := by rw [lh_op_rh]; exact Part.mem_some _

end Cert.Shares

end
-- ==== Proof.Kernel.Reg0.lean ====
/-
  The first pallas_call: a row vector x (1 × 4096) against a 2048 × 4096 weight matrix, tiled over the output in
  four blocks of 512 columns. At grid point t the body sees all of x, rows 512·t … 512·t+511 of the weights and the
  matching 512 bias entries, and stores max(x · Wᵗ + b, 0) for those 512 columns. Stated here at any buffer contents V
  the region is entered from and at any float instance: what each staging buffer holds before and after the body at
  a point, the body's Hoare triple, and the pipeline's body obligation.
-/
import proofs.«420902_j59081570124588_3_alg».proof.Proof.Gen.Kernel.Launch
import proofs.«420902_j59081570124588_3_alg».proof.Proof.Gen.Kernel.Skeleton
import proofs.«420902_j59081570124588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether that point fetched it or an
    earlier one did and the block index has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S1x4096 := Rect.unit (s := S1x4096) ![0, 0] S1x4096.size inb_S1x4096_S1x4096_0_0
abbrev r0_1 : Rect S512x4096 := Rect.unit (s := S512x4096) ![0, 0] S512x4096.size inb_S512x4096_S512x4096_0_0
abbrev r0_2 : Rect S1x512 := Rect.unit (s := S1x512) ![0, 0] S1x512.size inb_S1x512_S1x512_0_0

/-! ## What the body leaves in the output window's buffer -/

/-- The output buffer after the body, from the three input blocks: one whole store of the payload. -/
def out0_3 (x0 : Vec F S1x4096 .f32) (x1 : Vec F S512x4096 .f32) (x2 : Vec F S1x512 .f32) : Vec F S1x512 .f32 :=
  View.canon [⟨r0_2, k0_pay1 (View.ld x0 r0_0) (View.ld x1 r0_1) (View.ld x2 r0_2)⟩]

/-- The one store covers the buffer. -/
theorem cover0_3 (p0 : Vec F S1x512 .f32) (y : S1x512.Idx) :
    ∃ pc ∈ ([⟨r0_2, p0⟩] : List (View.Piece (Elt F) S1x512 .f32)), y ∈ pc.1.set :=
  View.cover_of_tiled [⟨r0_2, p0⟩] S1x512.size (by rfl) y

/-! ## The body's triple -/

set_option maxHeartbeats 1000000 in
/-- The body on whole staging memrefs, the inputs' at known contents and the output's at anything, runs to the
    continuation holding the inputs' as they were and the output's at out0_3 of the inputs'. -/
theorem sound_kernel0 (c : Dev nD) (E : Set ℕ) (i : grid0.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__vecmat_kernel i arg1 harg1 arg2 harg2 arg3 harg3 arg4 harg4) K := by
  simp only [cc0__vecmat_kernel_eq_skeleton]; unfold cc0__vecmat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pallas_call on core c: the arrays as the region finds them; after the body at point t
    each input's buffer at its block and the output's at out0_3 of the input blocks; the scoped rest and the generator
    register ride through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.Kernel.Reg1Defs.lean ====
/-
  The second pallas_call, the fused GRU cell, tiled over the hidden dimension in eight blocks of 256. At grid point t
  the body sees all of x (the combine layer's output) and all of h, the 256 entries of h for its tile, rows
  256·t … 256·t+255 of each of the three gate planes of W_ih and of W_hh, and the matching bias entries, and stores
  (1 − z)·n + z·h for its 256 entries. The vector h reaches the body twice, whole and by tile, through two windows on
  one array; each holds half of it. Here: the blocks, the body's accesses, what the body leaves in the output's
  buffer, and the pipeline's proof data, at any buffer contents V and any float instance.
-/
import proofs.«420902_j59081570124588_3_alg».proof.Proof.Gen.Kernel.Launch
import proofs.«420902_j59081570124588_3_alg».proof.Proof.Gen.Kernel.Skeleton
import proofs.«420902_j59081570124588_3_alg».proof.Proof.Gen.Kernel.Points
import proofs.«420902_j59081570124588_3_alg».proof.Proof.Halves
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Cert.Shares

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer is read or written whole -/

abbrev r1_a : Rect S1x2048 := Rect.unit (s := S1x2048) ![0, 0] S1x2048.size inb_S1x2048_S1x2048_0_0
abbrev r1_b : Rect S1x256 := Rect.unit (s := S1x256) ![0, 0] S1x256.size inb_S1x256_S1x256_0_0
abbrev r1_w : Rect S3x256x2048 := Rect.unit (s := S3x256x2048) ![0, 0, 0] S3x256x2048.size inb_S3x256x2048_S3x256x2048_0_0_0
abbrev r1_s : Rect S3x1x256 := Rect.unit (s := S3x1x256) ![0, 0, 0] S3x1x256.size inb_S3x1x256_S3x1x256_0_0_0

/-- The output buffer after the body, from the seven input blocks (x, h, h's tile, the W_ih and W_hh tiles, the two bias
    tiles): one whole store of the gate arithmetic. -/
def out1_7 (x0 x1 : Vec F S1x2048 .f32) (x2 : Vec F S1x256 .f32) (x3 x4 : Vec F S3x256x2048 .f32) (x5 x6 : Vec F S3x1x256 .f32) :
    Vec F S1x256 .f32 :=
  View.canon [⟨r1_b, k1_pay1 (k1_pay3 (View.ld x1 r1_a)) (k1_pay5 (View.ld x4 r1_w)) (k1_pay7 (View.ld x6 r1_s)) (k1_pay8 (View.ld x2 r1_b))
    (k1_pay9 (View.ld x0 r1_a) (View.ld x3 r1_w) (View.ld x5 r1_s)) (k1_pay10 (View.ld x0 r1_a) (View.ld x3 r1_w) (View.ld x5 r1_s))
    (k1_pay11 (View.ld x0 r1_a) (View.ld x3 r1_w)) (k1_pay12 (View.ld x5 r1_s))⟩]

/-- The proof data of the second pallas_call on core c: the arrays as the region finds them; after the body at point t each
    input's buffer at its block and the output's at out1_7 of the input blocks; the two windows on h hold half of it each,
    every other array is held whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => lh
    | ⟨2, _⟩ => rh
    | _ => fullShare
  owed _ := 0

end Cert.Kernel.Reg

end
-- ==== Proof.Kernel.Reg1.lean ====
/-
  The second pallas_call, the fused GRU cell, tiled over the hidden dimension in eight blocks of 256. At grid point t
  the body sees all of x and all of h, the 256 entries of h for its tile, rows 256·t … 256·t+255 of each of the three
  gate planes of W_ih and of W_hh and the matching bias entries, and stores (1 − z)·n + z·h for its 256 entries.
  Stated here at any buffer contents V the region is entered from and at any float instance: what each staging buffer
  holds before and after the body at a point, the body's Hoare triple, and the pipeline's body obligation.
-/
import proofs.«420902_j59081570124588_3_alg».proof.Proof.Kernel.Reg1Defs
import proofs.«420902_j59081570124588_3_alg».proof.Proof.Gen.Kernel.Launch
import proofs.«420902_j59081570124588_3_alg».proof.Proof.Gen.Kernel.Skeleton
import proofs.«420902_j59081570124588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- An input window's current staging buffer holds its block at every point, whether that point fetched it or an
    earlier one did and the block index has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one store covers the buffer. -/
theorem cover1_7 (p0 : Vec F S1x256 .f32) (y : S1x256.Idx) :
    ∃ pc ∈ ([⟨r1_b, p0⟩] : List (View.Piece (Elt F) S1x256 .f32)), y ∈ pc.1.set :=
  View.cover_of_tiled [⟨r1_b, p0⟩] S1x256.size (by rfl) y

/-! ## The body's triple -/

set_option maxHeartbeats 4000000 in
/-- The body on whole staging memrefs, the inputs' at known contents and the output's at anything, runs to the
    continuation holding the inputs' as they were and the output's at out1_7 of the inputs'. -/
theorem sound_kernel1 (c : Dev nD) (E : Set ℕ) (i : grid1.Coords)
    (arg1 : Memref sig .tc .vmem S1x2048 .f32) (harg1 : arg1.IsWhole) (arg2 : Memref sig .tc .vmem S1x2048 .f32) (harg2 : arg2.IsWhole)
    (arg3 : Memref sig .tc .vmem S1x256 .f32) (harg3 : arg3.IsWhole) (arg4 : Memref sig .tc .vmem S3x256x2048 .f32) (harg4 : arg4.IsWhole)
    (arg5 : Memref sig .tc .vmem S3x256x2048 .f32) (harg5 : arg5.IsWhole) (arg6 : Memref sig .tc .vmem S3x1x256 .f32) (harg6 : arg6.IsWhole)
    (arg7 : Memref sig .tc .vmem S3x1x256 .f32) (harg7 : arg7.IsWhole) (arg8 : Memref sig .tc .vmem S1x256 .f32) (harg8 : arg8.IsWhole)
    (x0 x1 : Vec F S1x2048 .f32) (x2 : Vec F S1x256 .f32) (x3 x4 : Vec F S3x256x2048 .f32) (x5 x6 : Vec F S3x1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__gru_fused_kernel i arg1 harg1 arg2 harg2 arg3 harg3 arg4 harg4 arg5 harg5 arg6 harg6 arg7 harg7 arg8 harg8) K := by
  simp only [cc1__gru_fused_kernel_eq_skeleton]; unfold cc1__gru_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data, opened -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t)
      (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.Kernel.Reg2Defs.lean ====
/-
  The third pallas_call, the output projection, tiled over the 50257 vocabulary rows in 25 blocks of 2048. At grid point
  t the body sees all of h, rows 2048·t … of W_out and the matching bias entries, and stores h · Wᵗ + b for its 2048
  columns. 50257 = 24·2048 + 1105, so the last block of the weights, of the bias and of the result reaches past the
  arrays' end: its transfers are cut at the end, and the rest of the staging buffer then holds words nothing names.
  Here: the part of each block inside its array, that part filled out with the zero word, what the body leaves in the
  output's buffer, and the pipeline's proof data, at any buffer contents V and any float instance.
-/
import proofs.«420902_j59081570124588_3_alg».proof.Proof.Gen.Kernel.Launch
import proofs.«420902_j59081570124588_3_alg».proof.Proof.Gen.Kernel.Skeleton
import proofs.«420902_j59081570124588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The part of window w's block at point t that lies inside its array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same filled out to the whole block with the zero word past the array's end (nothing reads the filler). -/
def zblk2_0 (c : Dev nD) (t : Fin cfg2.N) : S1x2048.Idx → Elt F .f32 :=
  win2_0.fill (grid2.coords t) (fun _ => Scalar.ofBits .f32 0#32) (iblk2 V c 0 t)
def zblk2_1 (c : Dev nD) (t : Fin cfg2.N) : S2048x2048.Idx → Elt F .f32 :=
  win2_1.fill (grid2.coords t) (fun _ => Scalar.ofBits .f32 0#32) (iblk2 V c 1 t)
def zblk2_2 (c : Dev nD) (t : Fin cfg2.N) : S1x2048.Idx → Elt F .f32 :=
  win2_2.fill (grid2.coords t) (fun _ => Scalar.ofBits .f32 0#32) (iblk2 V c 2 t)

/-! ## The body's accesses: each buffer is read or written whole -/

abbrev r2_a : Rect S1x2048 := Rect.unit (s := S1x2048) ![0, 0] S1x2048.size inb_S1x2048_S1x2048_0_0
abbrev r2_w : Rect S2048x2048 := Rect.unit (s := S2048x2048) ![0, 0] S2048x2048.size inb_S2048x2048_S2048x2048_0_0

/-- The output buffer after the body, from the three input buffers' contents: one whole store of the payload. -/
def out2_3 (x0 : Vec F S1x2048 .f32) (x1 : Vec F S2048x2048 .f32) (x2 : Vec F S1x2048 .f32) : Vec F S1x2048 .f32 :=
  View.canon [⟨r2_a, k2_pay1 (View.ld x0 r2_a) (View.ld x1 r2_w) (View.ld x2 r2_a)⟩]

/-- The proof data of the third pallas_call on core c: the arrays as the region finds them; after the body at point t each
    input's buffer at its zero-filled block and the output's at out2_3 of those; full shares; nothing owed. -/
def dat2 (c : Dev nD) : Dat τ (Elt F) Unit ℕ (UR sig nD τ) ℕ cfg2 c where
  A w := V c (Pipeline.arrRef spec2 w)
  after w t := match w with
    | ⟨0, _⟩ => zblk2_0 V c t
    | ⟨1, _⟩ => zblk2_1 V c t
    | ⟨2, _⟩ => zblk2_2 V c t
    | ⟨3, _⟩ => out2_3 (zblk2_0 V c t) (zblk2_1 V c t) (zblk2_2 V c t)
  Φ _ := Pipeline.ΦA spec2 c
  q _ := fullShare
  owed _ := 0

/-- The mask that forgets the output window. -/
def fgt2 : Fin cfg2.W → Bool := fun w => match w with
  | ⟨3, _⟩ => true
  | _ => false

end Cert.Kernel.Reg

end
-- ==== Proof.Kernel.Share1.lean ====
/-
  The second pallas_call's arrays among the core's unscoped buffers. The fused GRU cell reads the hidden vector h
  through two windows — whole, and by its tile of 256 — so its eight windows stand on seven buffers, and the buffers
  behind them are not pairwise distinct. The core holds every unscoped buffer whole at the full share; the pipeline's
  proof data holds each window's array at that window's share. Entering the region, h's full share is split into two
  complementary halves, one for each of its windows; leaving it, the halves are joined again. Every other window's
  buffer passes at the full share, and the unscoped rest is untouched. Stated for any proof data whose shares are the
  left half at window 1, the right half at window 2 and the full share elsewhere, at any float instance.
-/
import proofs.«420902_j59081570124588_3_alg».proof.Proof.Gen.Kernel.Launch
import proofs.«420902_j59081570124588_3_alg».proof.Proof.Halves
import Idealize.ShloMosaic.Lib.Pipeline.Launch
import Idealize.ShloMosaic.Lib.Pipeline.RegionsLoop
import Idealize.ShloMosaic.Lib.Pipeline.FrameSuffix

set_option maxRecDepth 16384

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Shares

variable {F : FTy → Type} [FloatOps F]

local notation "𝕄" => MT nD τ sig Unit (Elt F) ℕ (UR sig nD τ) ℕ

/-! ## The windows' shares and the seven buffers -/

/-- The share each window holds its array at: h's two windows a half each, every other window the whole. -/
def sh1 : Fin 8 → PosShare TreeShare := fun | 1 => lh | 2 => rh | _ => fullShare

/-- The proof data's shares are these. -/
theorem share1_eq {c : Dev nD} (dat : Dat τ (Elt F) Unit ℕ (UR sig nD τ) ℕ cfg1 c)
    (hsh1 : dat.share 1 = lh) (hsh2 : dat.share 2 = rh) (hfull : ∀ w, w ≠ 1 → w ≠ 2 → dat.share w = fullShare) :
    ∀ w : Fin 8, dat.share w = sh1 w := fun
  | 0 => hfull 0 (by decide) (by decide) | 1 => hsh1 | 2 => hsh2 | 3 => hfull 3 (by decide) (by decide)
  | 4 => hfull 4 (by decide) (by decide) | 5 => hfull 5 (by decide) (by decide) | 6 => hfull 6 (by decide) (by decide)
  | 7 => hfull 7 (by decide) (by decide) | ⟨_ + 8, h⟩ => absurd h (Nat.not_lt.2 (Nat.le_add_left _ _))

/-- A core's unscoped buffers are the seven buffers behind the windows' arrays and the rest. -/
theorem unscopedBufs_split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ (nD := nD) (τ := τ) cfgs 1 winFacts₀1.arr_unscoped c Vc

/-- The buffers behind the eight windows' arrays, without repetition. -/
theorem arrImage1 : Finset.univ.image (Pipeline.arrRef spec1)
    = [main_v27, main_v7, main_v28, main_v29, main_v30, main_v31, main_v32].toFinset := by
  decide

/-- Those seven buffers one by one, each whole at the full share. -/
theorem arrBufs1_eq (c : Dev nD) (Vc : (b : Ref sig .tc) → Buf (Elt F) ((c : Thread nD τ).loc b)) :
    (Pipeline.arrBufs spec1 c Vc : sProp 𝕄)
      = iprop(((c : Thread nD τ).loc main_v27 ↦{fullShare} Vc main_v27) ∗ ((c : Thread nD τ).loc main_v7 ↦{fullShare} Vc main_v7)
          ∗ ((c : Thread nD τ).loc main_v28 ↦{fullShare} Vc main_v28) ∗ ((c : Thread nD τ).loc main_v29 ↦{fullShare} Vc main_v29)
          ∗ ((c : Thread nD τ).loc main_v30 ↦{fullShare} Vc main_v30) ∗ ((c : Thread nD τ).loc main_v31 ↦{fullShare} Vc main_v31)
          ∗ ((c : Thread nD τ).loc main_v32 ↦{fullShare} Vc main_v32)) :=
  bigSep_eq_bigSepL_of_eq [main_v27, main_v7, main_v28, main_v29, main_v30, main_v31, main_v32] arrImage1 (by decide) _

/-- A window's array is a whole buffer: holding the view's elements is holding the buffer's. -/
theorem arr_pt1 (c : Dev nD) (w : Fin cfg1.W) (q : PosShare TreeShare) (g : Buf (Elt F) ((cfg1.win w).arr.view.loc (c : Thread nD τ))) :
    ((cfg1.win w).arr.view.loc (c : Thread nD τ) ↦[(cfg1.win w).arr.view.set]{q} g : sProp 𝕄)
      = ((c : Thread nD τ).loc (Pipeline.arrRef spec1 w) ↦{q} g) := by
  rw [(arr_whole1 w).set_eq_univ]

/-- The pipeline's arrays at contents read off a valuation of the buffers, window by window: h appears twice, a half
    share each. -/
theorem arrays1_eq {c : Dev nD} (dat : Dat τ (Elt F) Unit ℕ (UR sig nD τ) ℕ cfg1 c)
    (hsh1 : dat.share 1 = lh) (hsh2 : dat.share 2 = rh) (hfull : ∀ w, w ≠ 1 → w ≠ 2 → dat.share w = fullShare)
    (Vc : (b : Ref sig .tc) → Buf (Elt F) ((c : Thread nD τ).loc b))
    (G : (w : Fin cfg1.W) → Buf (Elt F) ((cfg1.win w).arr.view.loc (c : Thread nD τ))) (hG : ∀ w, G w = Vc (Pipeline.arrRef spec1 w)) :
    (dat.arrays G : sProp 𝕄)
      = iprop(((c : Thread nD τ).loc main_v27 ↦{fullShare} Vc main_v27) ∗ ((c : Thread nD τ).loc main_v7 ↦{lh} Vc main_v7)
          ∗ ((c : Thread nD τ).loc main_v7 ↦{rh} Vc main_v7)
          ∗ ((c : Thread nD τ).loc main_v28 ↦{fullShare} Vc main_v28) ∗ ((c : Thread nD τ).loc main_v29 ↦{fullShare} Vc main_v29)
          ∗ ((c : Thread nD τ).loc main_v30 ↦{fullShare} Vc main_v30) ∗ ((c : Thread nD τ).loc main_v31 ↦{fullShare} Vc main_v31)
          ∗ ((c : Thread nD τ).loc main_v32 ↦{fullShare} Vc main_v32)) := by
  have h : (dat.arrays G : sProp 𝕄)
      = bigSep Finset.univ fun w : Fin 8 => ((c : Thread nD τ).loc (Pipeline.arrRef spec1 w) ↦{sh1 w} Vc (Pipeline.arrRef spec1 w) : sProp 𝕄) := by
    unfold Dat.arrays
    exact bigSep_congr fun w _ => by rw [arr_pt1, hG, share1_eq dat hsh1 hsh2 hfull]
  rw [h, bigSep_W1]
  rfl

/-! ## Entry and exit -/

/-- ENTRY: a core's unscoped buffers at a valuation are the pipeline's arrays at the contents read off it, h's full
    share split into the two windows' halves, and the unscoped rest. -/
theorem arrays_of_unscopedBufs1 (c : Dev nD) (dat : Dat τ (Elt F) Unit ℕ (UR sig nD τ) ℕ cfg1 c)
    (hsh1 : dat.share 1 = lh) (hsh2 : dat.share 2 = rh) (hfull : ∀ w, w ≠ 1 → w ≠ 2 → dat.share w = fullShare)
    (Vc : (b : Ref sig .tc) → Buf (Elt F) ((c : Thread nD τ).loc b))
    (G : (w : Fin cfg1.W) → Buf (Elt F) ((cfg1.win w).arr.view.loc (c : Thread nD τ))) (hG : ∀ w, G w = Vc (Pipeline.arrRef spec1 w)) :
    (unscopedBufs c Vc : sProp 𝕄) ⊢ iprop(dat.arrays G ∗ Pipeline.unscopedRest spec1 c Vc) := by
  rw [unscopedBufs_split1 c Vc, arrBufs1_eq c Vc, arrays1_eq dat hsh1 hsh2 hfull Vc G hG]
  refine sep_mono (sep_mono .rfl ?_) .rfl
  exact (sep_mono (pointsTo_share full_mem).1 .rfl).trans sep_assoc

/-- EXIT: the pipeline's arrays at some contents and the unscoped rest at a valuation are the core's unscoped buffers
    at any valuation that has the arrays at those contents and agrees with the first off them; h's two halves join into
    its full share. -/
theorem unscopedBufs_of_arrays1 (c : Dev nD) (dat : Dat τ (Elt F) Unit ℕ (UR sig nD τ) ℕ cfg1 c)
    (hsh1 : dat.share 1 = lh) (hsh2 : dat.share 2 = rh) (hfull : ∀ w, w ≠ 1 → w ≠ 2 → dat.share w = fullShare)
    (Vc Vc' : (b : Ref sig .tc) → Buf (Elt F) ((c : Thread nD τ).loc b))
    (G : (w : Fin cfg1.W) → Buf (Elt F) ((cfg1.win w).arr.view.loc (c : Thread nD τ))) (hG : ∀ w, G w = Vc' (Pipeline.arrRef spec1 w))
    (hrest : ∀ b, b ∉ Finset.univ.image (Pipeline.arrRef spec1) → Vc' b = Vc b) :
    iprop(dat.arrays G ∗ Pipeline.unscopedRest spec1 c Vc) ⊢ (unscopedBufs c Vc' : sProp 𝕄) := by
  rw [unscopedBufs_split1 c Vc', arrBufs1_eq c Vc', arrays1_eq dat hsh1 hsh2 hfull Vc' G hG]
  refine sep_mono (sep_mono .rfl ?_) (Entails.of_eq ?_)
  · exact sep_assoc'.trans (sep_mono (pointsTo_share full_mem).2 .rfl)
  · unfold Pipeline.unscopedRest
    exact bigSep_congr fun b hb => by rw [hrest b (Finset.mem_sdiff.mp hb).2]

end Cert.Kernel.Reg
end
-- ==== Proof.Kernel.Run.lean ====
/-
  The run of the decoder step over its eight items: a host stretch, the combine layer's pallas_call, a host stretch,
  the fused GRU cell's pallas_call, a host stretch, the output projection's pallas_call, and two host stretches
  (the log-softmax). Here: what every unscoped buffer holds between two items, as a fold from the launch memory in
  which a pallas_call replaces its output array by its blocks' write-backs taken in order; each pallas_call as an item
  entered from the valuation before it and left at the one after it; and the theorem that every weakly fair execution
  from memory m with zero counters terminates with every unscoped buffer at the last valuation. All of it at any float
  instance; the third pallas_call's body obligation is a hypothesis.
-/
import proofs.«420902_j59081570124588_3_alg».proof.Proof.Gen.Kernel.Launch
import proofs.«420902_j59081570124588_3_alg».proof.Proof.Gen.Kernel.Skeleton
import proofs.«420902_j59081570124588_3_alg».proof.Proof.Gen.Kernel.Points
import proofs.«420902_j59081570124588_3_alg».proof.Proof.Gen.Kernel.Regions
import proofs.«420902_j59081570124588_3_alg».proof.Proof.Halves
import proofs.«420902_j59081570124588_3_alg».proof.Proof.Kernel.Reg0
import proofs.«420902_j59081570124588_3_alg».proof.Proof.Kernel.Reg1
import proofs.«420902_j59081570124588_3_alg».proof.Proof.Kernel.Reg2Defs
import proofs.«420902_j59081570124588_3_alg».proof.Proof.Kernel.Share1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Shares

variable {F : FTy → Type} [FloatOps F]

local notation "𝕄" => MT nD τ sig Unit (Elt F) ℕ (UR sig nD τ) ℕ

/-! ## What rides beside the buffers -/

/-- No core owes another anything: no level is assigned. -/
abbrev L : GSem nD τ sig → Finset Unit := fun _ => ∅
abbrev lv : GSem nD τ sig → Unit → ℕ := fun _ _ => 0
/-- Beside the buffers a core keeps, through every item, its generator register at some state and its debts, none. -/
abbrev R (c : Dev nD) : sProp 𝕄 := iprop((∃ r, prngReg c r) ∗ ∃ W, owes (c : Thread nD τ) (0 : CellTallies nD τ sig Unit) W)
/-- The same between any two items. -/
abbrev E : Fin 4 → Dev nD → sProp 𝕄 := fun _ c => R c

/-! ## The buffers' contents, item by item

Each pallas_call changes one array, its output; each host stretch changes what its operations write. The contents
between items are therefore a fold from the launch memory: a host stretch's effect on the valuation before it, then the
output array of the pallas_call replaced by the write-backs of its grid points taken in order. -/

variable (m : (ℓ : Loc nD τ sig) → Buf (Elt F) ℓ)

/-- The buffers the first pallas_call is entered from: the launch memory after the first host stretch. -/
abbrev U1 : (c : Dev nD) → (b : Ref sig .tc) → Buf (Elt F) ((c : Thread nD τ).loc b) := fun c b => Gen.V1 m c b

/-- What the first pallas_call leaves in its output array: its four blocks' write-backs, in order. -/
def o0 (c : Dev nD) : Buf (Elt F) ((c : Thread nD τ).loc main_v27) := (dat0 (U1 m) c).arrAt 3 cfg0.N

/-- After the first pallas_call: its output array at o0, every other buffer as entered. -/
abbrev W2 (c : Dev nD) : Valuation τ sig (Elt F) := Function.update (Gen.V1 m c) main_v27 (o0 m c)
/-- After the second host stretch. -/
abbrev W3 (c : Dev nD) : Valuation τ sig (Elt F) := StableHlo.after hostOps1 (W2 m c)
/-- The buffers the second pallas_call is entered from. -/
abbrev U3 : (c : Dev nD) → (b : Ref sig .tc) → Buf (Elt F) ((c : Thread nD τ).loc b) := fun c b => W3 m c b

/-- What the second pallas_call leaves in its output array: its eight blocks' write-backs, in order. -/
def o1 (c : Dev nD) : Buf (Elt F) ((c : Thread nD τ).loc main_v32) := (dat1 (U3 m) c).arrAt 7 cfg1.N

/-- After the second pallas_call: its output array at o1, every other buffer as entered. -/
abbrev W4 (c : Dev nD) : Valuation τ sig (Elt F) := Function.update (W3 m c) main_v32 (o1 m c)
/-- After the third host stretch. -/
abbrev W5 (c : Dev nD) : Valuation τ sig (Elt F) := StableHlo.after hostOps2 (W4 m c)
/-- The buffers the third pallas_call is entered from. -/
abbrev U5 : (c : Dev nD) → (b : Ref sig .tc) → Buf (Elt F) ((c : Thread nD τ).loc b) := fun c b => W5 m c b

/-- What the third pallas_call leaves in its output array: its twenty-five blocks' write-backs, in order, the last
    one cut at the array's end. -/
def o2 (c : Dev nD) : Buf (Elt F) ((c : Thread nD τ).loc main_v34) := (dat2 (U5 m) c).arrAt 3 cfg2.N

/-- What the three pallas_calls leave in the arrays they write, at whichever item it is asked; any other array is never
    asked for and is given its launch contents. -/
def outs : Gen.Outs (F := F) := fun _ r c =>
  if h0 : r = main_v27 then h0 ▸ o0 m c
  else if h1 : r = main_v32 then h1 ▸ o1 m c
  else if h2 : r = main_v34 then h2 ▸ o2 m c
  else m ((c : Thread nD τ).loc r)

theorem outs_v27 (j : ℕ) (c : Dev nD) : outs m j main_v27 c = o0 m c := by
  unfold outs; rw [dif_pos rfl]
theorem outs_v32 (j : ℕ) (c : Dev nD) : outs m j main_v32 c = o1 m c := by
  unfold outs; rw [dif_neg (by decide), dif_pos rfl]
theorem outs_v34 (j : ℕ) (c : Dev nD) : outs m j main_v34 c = o2 m c := by
  unfold outs; rw [dif_neg (by decide), dif_neg (by decide), dif_pos rfl]

/-! With these the valuations written over the unknown contents are the fold above. -/

theorem V2_eq (c : Dev nD) : Gen.V2 m (outs m) c = W2 m c := by
  show Function.update (Gen.V1 m c) main_v27 (outs m 2 main_v27 c) = _
  rw [outs_v27]
theorem V3_eq (c : Dev nD) : Gen.V3 m (outs m) c = W3 m c := by
  show StableHlo.after hostOps1 (Gen.V2 m (outs m) c) = _
  rw [V2_eq]
theorem V4_eq (c : Dev nD) : Gen.V4 m (outs m) c = W4 m c := by
  show Function.update (Gen.V3 m (outs m) c) main_v32 (outs m 4 main_v32 c) = _
  rw [V3_eq, outs_v32]
theorem V5_eq (c : Dev nD) : Gen.V5 m (outs m) c = W5 m c := by
  show StableHlo.after hostOps2 (Gen.V4 m (outs m) c) = _
  rw [V4_eq]
theorem U3_eq : (fun (c : Dev nD) (b : Ref sig .tc) => Gen.V3 m (outs m) c b) = U3 m :=
  funext fun c => funext fun b => congrFun (V3_eq m c) _
theorem U5_eq : (fun (c : Dev nD) (b : Ref sig .tc) => Gen.V5 m (outs m) c b) = U5 m :=
  funext fun c => funext fun b => congrFun (V5_eq m c) _

/-! ## The proof data of the three pipelines, each at the contents its pallas_call is entered from -/

def pdats : (p : Fin 3) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V3 m (outs m) c b) c
  | ⟨2, _⟩ => fun c => dat2 (fun c b => Gen.V5 m (outs m) c b) c

/-! ## What each pallas_call's arrays hold when it is left -/

/-- The first pallas_call's arrays when it is left. An input window's array is never written back, so it holds what it held at entry, which the valuation after the pallas_call keeps since only the output array is replaced there; the output array holds the fold of its write-backs, which is what that valuation has at it. -/
theorem hF0_in (c : Dev nD) (w : Fin cfg0.W) (hin : (cfg0.win w).isOut = false)
    (hne : Pipeline.arrRef spec0 w ∉ ([main_v27] : List (Ref sig .tc))) :
    (dat0 (fun c b => Gen.V1 m c b) c).arrAt w cfg0.N = Gen.V2 m (outs m) c (Pipeline.arrRef spec0 w) :=
  ((dat0 (fun c b => Gen.V1 m c b) c).arrAt_in w hin _).trans (Gen.V2_of m (outs m) c (Pipeline.arrRef spec0 w) hne).symm
theorem hF0_out (c : Dev nD) : (dat0 (fun c b => Gen.V1 m c b) c).arrAt 3 cfg0.N = Gen.V2 m (outs m) c main_v27 :=
  ((outs_v27 m 2 c).symm.trans
      (Function.update_self (Proc.devRef (τ := τ) .tc main_v27) (outs m 2 main_v27 c) (Gen.V1 m c)).symm)
theorem hF0 (c : Dev nD) : ∀ w : Fin cfg0.W,
    (dat0 (fun c b => Gen.V1 m c b) c).arrAt w cfg0.N = Gen.V2 m (outs m) c (Pipeline.arrRef spec0 w)
  | 0 => hF0_in m c 0 rfl (by decide)
  | 1 => hF0_in m c 1 rfl (by decide)
  | 2 => hF0_in m c 2 rfl (by decide)
  | 3 => hF0_out m c
  | ⟨_ + 4, h⟩ => absurd h (Nat.not_lt.2 (Nat.le_add_left _ _))

theorem hrest0 (c : Dev nD) (b : Ref sig .tc) (hb : b ∉ Finset.univ.image (Pipeline.arrRef spec0)) :
    Gen.V2 m (outs m) c b = Gen.V1 m c b :=
  Gen.V2_of m (outs m) c b fun h => hb (by
    rw [List.mem_singleton] at h; rw [h]; exact Finset.mem_image.mpr ⟨3, Finset.mem_univ _, rfl⟩)

/-- The second pallas_call's arrays when it is left, likewise. -/
theorem hF1_in (c : Dev nD) (w : Fin cfg1.W) (hin : (cfg1.win w).isOut = false)
    (hne : Pipeline.arrRef spec1 w ∉ ([main_v32] : List (Ref sig .tc))) :
    (dat1 (fun c b => Gen.V3 m (outs m) c b) c).arrAt w cfg1.N = Gen.V4 m (outs m) c (Pipeline.arrRef spec1 w) :=
  ((dat1 (fun c b => Gen.V3 m (outs m) c b) c).arrAt_in w hin _).trans (Gen.V4_of m (outs m) c (Pipeline.arrRef spec1 w) hne).symm
theorem hF1_out (c : Dev nD) : (dat1 (fun c b => Gen.V3 m (outs m) c b) c).arrAt 7 cfg1.N = Gen.V4 m (outs m) c main_v32 :=
  (congrArg (fun V => (dat1 V c).arrAt 7 cfg1.N) (U3_eq m)).trans
    ((outs_v32 m 4 c).symm.trans
      (Function.update_self (Proc.devRef (τ := τ) .tc main_v32) (outs m 4 main_v32 c) (Gen.V3 m (outs m) c)).symm)
theorem hF1 (c : Dev nD) : ∀ w : Fin cfg1.W,
    (dat1 (fun c b => Gen.V3 m (outs m) c b) c).arrAt w cfg1.N = Gen.V4 m (outs m) c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => hF1_in m c 6 rfl (by decide)
  | 7 => hF1_out m c
  | ⟨_ + 8, h⟩ => absurd h (Nat.not_lt.2 (Nat.le_add_left _ _))

theorem hrest1 (c : Dev nD) (b : Ref sig .tc) (hb : b ∉ Finset.univ.image (Pipeline.arrRef spec1)) :
    Gen.V4 m (outs m) c b = Gen.V3 m (outs m) c b :=
  Gen.V4_of m (outs m) c b fun h => hb (by
    rw [List.mem_singleton] at h; rw [h]; exact Finset.mem_image.mpr ⟨7, Finset.mem_univ _, rfl⟩)

/-- The third pallas_call's arrays when it is left, likewise. -/
theorem hF2_in (c : Dev nD) (w : Fin cfg2.W) (hin : (cfg2.win w).isOut = false)
    (hne : Pipeline.arrRef spec2 w ∉ ([main_v34] : List (Ref sig .tc))) :
    (dat2 (fun c b => Gen.V5 m (outs m) c b) c).arrAt w cfg2.N = Gen.V6 m (outs m) c (Pipeline.arrRef spec2 w) :=
  ((dat2 (fun c b => Gen.V5 m (outs m) c b) c).arrAt_in w hin _).trans (Gen.V6_of m (outs m) c (Pipeline.arrRef spec2 w) hne).symm
theorem hF2_out (c : Dev nD) : (dat2 (fun c b => Gen.V5 m (outs m) c b) c).arrAt 3 cfg2.N = Gen.V6 m (outs m) c main_v34 :=
  (congrArg (fun V => (dat2 V c).arrAt 3 cfg2.N) (U5_eq m)).trans
    ((outs_v34 m 6 c).symm.trans
      (Function.update_self (Proc.devRef (τ := τ) .tc main_v34) (outs m 6 main_v34 c) (Gen.V5 m (outs m) c)).symm)
theorem hF2 (c : Dev nD) : ∀ w : Fin cfg2.W,
    (dat2 (fun c b => Gen.V5 m (outs m) c b) c).arrAt w cfg2.N = Gen.V6 m (outs m) c (Pipeline.arrRef spec2 w)
  | 0 => hF2_in m c 0 rfl (by decide)
  | 1 => hF2_in m c 1 rfl (by decide)
  | 2 => hF2_in m c 2 rfl (by decide)
  | 3 => hF2_out m c
  | ⟨_ + 4, h⟩ => absurd h (Nat.not_lt.2 (Nat.le_add_left _ _))

theorem hrest2 (c : Dev nD) (b : Ref sig .tc) (hb : b ∉ Finset.univ.image (Pipeline.arrRef spec2)) :
    Gen.V6 m (outs m) c b = Gen.V5 m (outs m) c b :=
  Gen.V6_of m (outs m) c b fun h => hb (by
    rw [List.mem_singleton] at h; rw [h]; exact Finset.mem_image.mpr ⟨3, Finset.mem_univ _, rfl⟩)

/-- The shares the second pallas_call's proof data holds its arrays at: the hidden vector's two windows a half each,
    every other window the whole. -/
theorem share1_1 (c : Dev nD) : (dat1 (fun c b => Gen.V3 m (outs m) c b) c).share 1 = lh := rfl
theorem share1_2 (c : Dev nD) : (dat1 (fun c b => Gen.V3 m (outs m) c b) c).share 2 = rh := rfl
theorem share1_full (c : Dev nD) : ∀ w : Fin cfg1.W, w ≠ 1 → w ≠ 2 → (dat1 (fun c b => Gen.V3 m (outs m) c b) c).share w = fullShare
  | 0 => fun _ _ => rfl | 1 => fun h _ => absurd rfl h | 2 => fun _ h => absurd rfl h | 3 => fun _ _ => rfl
  | 4 => fun _ _ => rfl | 5 => fun _ _ => rfl | 6 => fun _ _ => rfl | 7 => fun _ _ => rfl
  | ⟨_ + 8, h⟩ => absurd h (Nat.not_lt.2 (Nat.le_add_left _ _))

/-! ## The pallas_calls as items of the run -/

set_option backward.isDefEq.respectTransparency.types false in
/-- The first pallas_call as an item: entered with every unscoped buffer at the contents after the first host stretch,
    left with its output array at o0 and every other buffer as entered. Its four arrays are distinct buffers, split out
    of the unscoped buffers at entry and put back at exit; the generator register goes into the region's invariant and
    comes back; nothing is owed. -/
def reg0 : RegionSeg (pcfgs (F := F)) Gen.adm (pdats m) () defs₀ Variants.none L lv 0 where
  win := Gen.launch0.win.to₀
  block_pos := Gen.launch0.block_pos
  stage_whole := Gen.launch0.stage_whole
  K := PEmpty
  osem k := k.elim
  ho := Pipeline.OwnSemFacts.none _
  hbody c := (body_obligation0 (fun c b => Gen.V1 m c b) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (fun b => Gen.V1 m c b) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second pallas_call as an item: entered with every unscoped buffer at the contents after the second host stretch,
    left with its output array at o1 and every other buffer as entered. Its eight windows stand on seven buffers: the
    hidden vector's buffer is split into two halves at entry, one for each of its two windows, and the halves are joined
    at exit. -/
def reg1 : RegionSeg (pcfgs (F := F)) Gen.adm (pdats m) () defs₀ Variants.none L lv 1 where
  win := Gen.winFacts₀1
  block_pos := Gen.block_pos1
  stage_whole := Gen.stage_whole1
  K := PEmpty
  osem k := k.elim
  ho := Pipeline.OwnSemFacts.none _
  hbody c := (body_obligation1 (fun c b => Gen.V3 m (outs m) c b) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := arrays_of_unscopedBufs1 c (dat1 (fun c b => Gen.V3 m (outs m) c b) c) (share1_1 m c) (share1_2 m c) (share1_full m c)
      (fun b => Gen.V3 m (outs m) c b) ((dat1 (fun c b => Gen.V3 m (outs m) c b) c).arrAt · 0) (fun w => A_eq1 _ c w)
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (dat1 (fun c b => Gen.V3 m (outs m) c b) c) (share1_1 m c) (share1_2 m c) (share1_full m c)
      (fun b => Gen.V3 m (outs m) c b) (fun b => Gen.V4 m (outs m) c b) ((dat1 (fun c b => Gen.V3 m (outs m) c b) c).arrAt · cfg1.N)
      (hF1 m c) (hrest1 m c)
    rw [Pipeline.unscopedBufs_held c (Gen.V4 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third pallas_call as an item, given its body obligation: entered with every unscoped buffer at the contents
    after the third host stretch, left with its output array at o2 and every other buffer as entered. Its four arrays
    are distinct buffers. -/
def reg2 (hb2 : ∀ c : Dev nD, Pipeline.BodyObligationLoose (dat2 (fun c b => Gen.V5 m (outs m) c b) c) (defs₀ (F := F)) Variants.none () Set.univ) :
    RegionSeg (pcfgs (F := F)) Gen.adm (pdats m) () defs₀ Variants.none L lv 2 where
  win := Gen.launch2.win.to₀
  block_pos := Gen.launch2.block_pos
  stage_whole := Gen.launch2.stage_whole
  K := PEmpty
  osem k := k.elim
  ho := Pipeline.OwnSemFacts.none _
  hbody c := hb2 c
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.arrays_of_unscopedBufs (p := 2) (pcfgs (F := F)) Gen.adm (pdats m) Gen.launch2.win Gen.launch2.arr_whole c
      ((pdats m 2 c).share_full fun _ => rfl) (fun b => Gen.V5 m (outs m) c b) fun _ => rfl
    rw [Pipeline.unscopedBufs_held c (Gen.V5 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (fun b => Gen.V5 m (outs m) c b) (fun b => Gen.V6 m (outs m) c b) ((pdats m 2 c).arrAt · cfg2.N) (hF2 m c) (hrest2 m c)
    rw [Pipeline.unscopedBufs_held c (Gen.V6 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- The run, given the three pallas_calls as items entered from and left at the valuations written over any contents
    outs of their output arrays: every weakly fair execution from memory m with zero counters terminates, and every
    unscoped buffer of every core ends at the last valuation. -/
theorem run_cond (ρ : Dev nD → PrngReg) (outs : Gen.Outs (F := F))
    (pdats : (p : Fin 3) → (c : Dev nD) → Dat τ (Elt F) Unit ℕ (UR sig nD τ) ℕ (cfgs p) c)
    (R0 : RegionSeg (pcfgs (F := F)) Gen.adm pdats () defs₀ Variants.none L lv 0)
    (hpre0 : ∀ c : Dev nD, iprop(StableHlo.held (c : Thread nD τ) (Pipeline.ucRefs τ sig) (Gen.V1 m c) ∗ E (F := F) 0 c) ⊢ R0.pre c)
    (hpost0 : ∀ c : Dev nD, R0.post c ⊢ iprop(StableHlo.held (c : Thread nD τ) (Pipeline.ucRefs τ sig) (Gen.V2 m outs c) ∗ E (F := F) 1 c))
    (R1 : RegionSeg (pcfgs (F := F)) Gen.adm pdats () defs₀ Variants.none L lv 1)
    (hpre1 : ∀ c : Dev nD, iprop(StableHlo.held (c : Thread nD τ) (Pipeline.ucRefs τ sig) (Gen.V3 m outs c) ∗ E (F := F) 1 c) ⊢ R1.pre c)
    (hpost1 : ∀ c : Dev nD, R1.post c ⊢ iprop(StableHlo.held (c : Thread nD τ) (Pipeline.ucRefs τ sig) (Gen.V4 m outs c) ∗ E (F := F) 2 c))
    (R2 : RegionSeg (pcfgs (F := F)) Gen.adm pdats () defs₀ Variants.none L lv 2)
    (hpre2 : ∀ c : Dev nD, iprop(StableHlo.held (c : Thread nD τ) (Pipeline.ucRefs τ sig) (Gen.V5 m outs c) ∗ E (F := F) 2 c) ⊢ R2.pre c)
    (hpost2 : ∀ c : Dev nD, R2.post c ⊢ iprop(StableHlo.held (c : Thread nD τ) (Pipeline.ucRefs τ sig) (Gen.V6 m outs c) ∗ E (F := F) 3 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m outs c b) := by
  refine Pipeline.θ_run_regions_kit_dev (pcfgs (F := F)) Gen.adm pdats () cellOf_inj emb₁ defs₀ Variants.none L lv m ρ main
    (Gen.segs m outs Variants.none L lv (E (F := F)) () pdats R0 R1 R2)
    (fun c Q => by
      rewrite [main_chain c, Seg.run_eq_chain,
        show (Gen.segs m outs Variants.none L lv (E (F := F)) () pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => iprop(StableHlo.held (c : Thread nD τ) (Pipeline.ucRefs τ sig) (Gen.V8 m outs c) ∗ ∃ r, prngReg c r))
    (hch := fun c => ⟨.rfl, hpre0 c, hpost0 c, hpre1 c, hpost1 c, hpre2 c, hpost2 c, .rfl, by
      show iprop(StableHlo.held (c : Thread nD τ) (Pipeline.ucRefs τ sig) (Gen.V8 m outs c) ∗ E (F := F) 3 c)
        ⊢ iprop((StableHlo.held (c : Thread nD τ) (Pipeline.ucRefs τ sig) (Gen.V8 m outs c) ∗ ∃ r, prngReg c r)
            ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m outs c) s')
      isplitl [Hh] <;> iassumption)
    (hQ := fun s h => h)

/-- THE RUN. Given the third pallas_call's body obligation, every weakly fair execution of the decoder step from memory
    m with zero counters terminates, and every unscoped buffer of every core ends at the last valuation of the fold,
    with o0, o1, o2 the three pallas_calls' output arrays. -/
theorem run_vals (hb2 : ∀ c : Dev nD, Pipeline.BodyObligationLoose (dat2 (fun c b => Gen.V5 m (outs m) c b) c) (defs₀ (F := F)) Variants.none () Set.univ)
    (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) :=
  run_cond m ρ (outs m) (pdats m) (reg0 m) (fun _ => .rfl) (fun _ => .rfl) (reg1 m) (fun _ => .rfl) (fun _ => .rfl)
    (reg2 m hb2) (fun _ => .rfl) (fun _ => .rfl)

end Cert.Kernel.Reg

end
-- ==== Proof.Kernel.Reg2.lean ====
/-
  The third pallas_call, the output projection h · Wᵗ + b over the 50257 vocabulary rows in 25 blocks of 2048, whose last
  block reaches 943 rows past the arrays' end. Stated here at any buffer contents V the region is entered from and at any
  float instance: what each input's staging buffer holds when the body runs at a point (the vector's whole block; the
  weights' and the bias's block on the part inside the array and anything past it), the body's Hoare triple at any
  contents of the three inputs, and the pipeline's body obligation with the output window forgotten, which says
  nothing of what the product makes of the rows past the arrays' end.
-/
import proofs.«420902_j59081570124588_3_alg».proof.Proof.Kernel.Reg2Defs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the inputs' buffers -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = zblk2_0 V c t := by dsimp only [dat2]
theorem after2_1 (c : Dev nD) (t : Fin cfg2.N) : (dat2 V c).after 1 t = zblk2_1 V c t := by dsimp only [dat2]
theorem after2_2 (c : Dev nD) (t : Fin cfg2.N) : (dat2 V c).after 2 t = zblk2_2 V c t := by dsimp only [dat2]
theorem after2_3 (c : Dev nD) (t : Fin cfg2.N) :
    (dat2 V c).after 3 t = out2_3 (zblk2_0 V c t) (zblk2_1 V c t) (zblk2_2 V c t) := by dsimp only [dat2]

/-- The weights' and the bias's windows are fetched at every point: the buffer holds the block's part inside the array
    on its leading part and, past the array's end, whatever d the overwrite before the fetch left. -/
theorem before2_1_of {c : Dev nD} (dat : Dat τ (Elt F) Unit ℕ (UR sig nD τ) ℕ cfg2 c) (hA : dat.A 1 = V c (Pipeline.arrRef spec2 1))
    (t : Fin cfg2.N) (d) : dat.before 1 t d = win2_1.fill (grid2.coords t) d (iblk2 V c 1 t) := by
  unfold Dat.before; rw [if_pos (fetch2_1 t)]
  unfold Dat.fetched Dat.blockOf iblk2; rw [hA]; try rfl
theorem before2_2_of {c : Dev nD} (dat : Dat τ (Elt F) Unit ℕ (UR sig nD τ) ℕ cfg2 c) (hA : dat.A 2 = V c (Pipeline.arrRef spec2 2))
    (t : Fin cfg2.N) (d) : dat.before 2 t d = win2_2.fill (grid2.coords t) d (iblk2 V c 2 t) := by
  unfold Dat.before; rw [if_pos (fetch2_2 t)]
  unfold Dat.fetched Dat.blockOf iblk2; rw [hA]; try rfl

/-- The vector's window is fetched at the first point only and never cut: its buffer holds the whole block at every
    point, whatever it held before the fetch. -/
theorem before2_0_of {c : Dev nD} (dat : Dat τ (Elt F) Unit ℕ (UR sig nD τ) ℕ cfg2 c) (hA : dat.A 0 = V c (Pipeline.arrRef spec2 0))
    (hafter : ∀ t, dat.after 0 t = zblk2_0 V c t) (t : Fin cfg2.N) (d) : dat.before 0 t d = zblk2_0 V c t :=
  ((dat.before_in_eq_fetched 0 rfl (fun _ => rfl) (fun _ _ _ => rfl)
      (fun t => by rw [hafter]; unfold zblk2_0; rw [Window.cut_fill]; unfold Dat.blockOf iblk2; rw [hA]; try rfl) t d).trans
    (dat.fetched_of_clip_none 0 t (fun _ => rfl) d (fun _ => Scalar.ofBits .f32 0#32))).trans
    (by unfold Dat.fetched Dat.blockOf zblk2_0 iblk2; rw [hA]; try rfl)

theorem before2_0 (c : Dev nD) (t : Fin cfg2.N) (d) : (dat2 V c).before 0 t d = zblk2_0 V c t :=
  before2_0_of V (dat2 V c) (A_eq2 V c 0) (after2_0 V c) t d
theorem before2_1 (c : Dev nD) (t : Fin cfg2.N) (d) :
    (dat2 V c).before 1 t d = win2_1.fill (grid2.coords t) d (iblk2 V c 1 t) :=
  before2_1_of V (dat2 V c) (A_eq2 V c 1) t d
theorem before2_2 (c : Dev nD) (t : Fin cfg2.N) (d) :
    (dat2 V c).before 2 t d = win2_2.fill (grid2.coords t) d (iblk2 V c 2 t) :=
  before2_2_of V (dat2 V c) (A_eq2 V c 2) t d

/-! ## The body's triple -/

/-- The one store covers the output buffer. -/
theorem cover2_3 (p0 : Vec F S1x2048 .f32) (y : S1x2048.Idx) :
    ∃ pc ∈ ([⟨r2_a, p0⟩] : List (View.Piece (Elt F) S1x2048 .f32)), y ∈ pc.1.set :=
  View.cover_of_tiled [⟨r2_a, p0⟩] S1x2048.size (by rfl) y

set_option maxHeartbeats 1000000 in
/-- The body on whole staging memrefs, the inputs' at any contents and the output's at anything, runs to the continuation
    holding the inputs' as they were and the output's at out2_3 of the inputs'. -/
theorem sound_kernel2 (c : Dev nD) (E : Set ℕ) (i : grid2.Coords)
    (arg1 : Memref sig .tc .vmem S1x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__vecmat_kernel i arg1 harg1 arg2 harg2 arg3 harg3 arg4 harg4) K := by
  simp only [cc2__vecmat_kernel_eq_skeleton]; unfold cc2__vecmat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The same at a grid point's current staging memrefs. -/
theorem sound_body2 (c : Dev nD) (t : Fin cfg2.N)
    (x0 : Vec F S1x2048 .f32) (x1 : Vec F S2048x2048 .f32) (x2 : Vec F S1x2048 .f32) (K : PUnit → sProp 𝕄) :
    iprop(owns (c : Thread nD τ) (st2_0 t) fullShare x0 ∗ owns (c : Thread nD τ) (st2_1 t) fullShare x1 ∗ owns (c : Thread nD τ) (st2_2 t) fullShare x2
        ∗ (∃ d, owns (c : Thread nD τ) (st2_3 t) fullShare d)
        ∗ (iprop(owns (c : Thread nD τ) (st2_0 t) fullShare x0 ∗ owns (c : Thread nD τ) (st2_1 t) fullShare x1 ∗ owns (c : Thread nD τ) (st2_2 t) fullShare x2
            ∗ owns (c : Thread nD τ) (st2_3 t) fullShare (out2_3 x0 x1 x2)) -∗ K ⟨⟩))
      ⊢ wp frame (wpE (defs₀ (F := F)) Variants.none c none) Set.univ (defs₀ .tc cfg2.body (cfg2.bodyArgs t (cfg2.slots t))) K :=
  sound_kernel2 c Set.univ (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) x0 x1 x2 K

/-! ## The body obligation with the output window forgotten -/

theorem fgt2_0 : fgt2 0 = false := rfl
theorem fgt2_1 : fgt2 1 = false := rfl
theorem fgt2_2 : fgt2 2 = false := rfl
theorem fgt2_3 : fgt2 3 = true := rfl

/-- At every point the body, handed the vector's buffer at its block, the weights' and the bias's just fetched (the block's
    part inside the array, anything past it) and the output's at anything, hands the three inputs back as they were, which
    on the part inside the arrays is what the proof data names, and the output's at what it stored, of which nothing is
    said. -/
theorem body_obligation2_fgt (c : Dev nD) :
    BodyObligationLoose (dat2 (F := F) V c) (defs₀ (F := F)) Variants.none () Set.univ fgt2 := fun t => by
  rw [bigSep_W2, bigSep_W2]
  simp only [fgt2_0, fgt2_1, fgt2_2, fgt2_3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_body2 (F := F) c t (zblk2_0 V c t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win2_1.cut (grid2.coords t) (zblk2_1 V c t) = iblk2 V c 1 t := win2_1.cut_fill _ _ _
  have h2 : win2_2.cut (grid2.coords t) (zblk2_2 V c t) = iblk2 V c 2 t := win2_2.cut_fill _ _ _
  isplitl [H0]
  · rw [after2_0]; iexact H0
  isplitl [H1]
  · iexists d1
    rw [after2_1]
    change _ ⊢ owns (c : Thread nD τ) (st2_1 t) fullShare (win2_1.fill (grid2.coords t) d1 (win2_1.cut (grid2.coords t) (zblk2_1 V c t)))
    rw [h1]; try iexact H1
  isplitl [H2]
  · iexists d2
    rw [after2_2]
    change _ ⊢ owns (c : Thread nD τ) (st2_2 t) fullShare (win2_2.fill (grid2.coords t) d2 (win2_2.cut (grid2.coords t) (zblk2_2 V c t)))
    rw [h2]; try iexact H2
  · iexists _; iexact H3

end Cert.Kernel.Reg

end
-- ==== Proof.Kernel.FrameR.lean ====
/-
  The frame of the decoder step, through proof data that constrains what a pallas_call leaves in its staging buffers
  instead of naming it. The first two pallas_calls' data are read as they stand. The third's last block reaches past
  the arrays' end, so the rows of the product past the end are computed from words nothing names, and of what the body
  leaves in the result's buffer nothing is said: its output window is forgotten, the result array is left at some
  contents, and the two host stretches after it (the log-softmax, and the broadcast of the new hidden state) run from a
  valuation known up to that array. Since no host stretch writes an argument and no pallas_call has one for its output,
  every argument still ends as launched. All of it at any float instance.
-/
import proofs.«420902_j59081570124588_3_alg».proof.Proof.Kernel.Run
import proofs.«420902_j59081570124588_3_alg».proof.Proof.Kernel.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The relational reading of the proof data

The first two pipelines' data are read as they stand; the third's with its output window forgotten: of what the
product leaves in the result's buffer nothing is said, so nothing is said of the result array after the write-backs. -/

variable (m : (ℓ : Loc nD τ sig) → Buf (Elt F) ℓ)

/-- The three pipelines' proof data read relationally, the third's output window forgotten. -/
def rdats : (p : Fin 3) → (c : Dev nD) → Pipeline.RDat τ (Elt F) Unit ℕ (UR sig nD τ) ℕ (Pipeline.pin (pcfgs (F := F)) Gen.adm p) c
  | ⟨0, _⟩ => fun c => (pdats m 0 c).toR
  | ⟨1, _⟩ => fun c => (pdats m 1 c).toR
  | ⟨2, _⟩ => fun c => (pdats m 2 c).toRForget fgt2

/-! ## The first two pallas_calls as items over the relational data -/

set_option backward.isDefEq.respectTransparency.types false in
/-- The first pallas_call over the relational data: the exact item, its body obligation read relationally and its exit
    fed the arrays at the contents the exact data names. -/
def rreg0 : Pipeline.RDat.RegionSeg (pcfgs (F := F)) Gen.adm (rdats m) () defs₀ Variants.none L lv 0 where
  win := (reg0 m).win
  block_pos := (reg0 m).block_pos
  stage_whole := (reg0 m).stage_whole
  K := (reg0 m).K
  fK := (reg0 m).fK
  osem := (reg0 m).osem
  ho := (reg0 m).ho
  hbody c := ((reg0 m).hbody c).toR
  hwaits := Pipeline.RDat.hwaits_of_owed_zero _ _ _ _ L lv 0 fun _ _ => rfl
  pre := (reg0 m).pre
  post := (reg0 m).post
  X := (reg0 m).X
  Y := (reg0 m).Y
  Z := (reg0 m).Z
  hentry := (reg0 m).hentry
  hin := (reg0 m).hin
  hout := (reg0 m).hout
  hexit c := (sep_mono (Entails.of_eq ((pdats m 0 c).toR_arraysAt_eq (Pipeline.pin (pcfgs (F := F)) Gen.adm 0).N)) .rfl).trans ((reg0 m).hexit c)

set_option backward.isDefEq.respectTransparency.types false in
/-- The second pallas_call over the relational data, likewise. -/
def rreg1 : Pipeline.RDat.RegionSeg (pcfgs (F := F)) Gen.adm (rdats m) () defs₀ Variants.none L lv 1 where
  win := (reg1 m).win
  block_pos := (reg1 m).block_pos
  stage_whole := (reg1 m).stage_whole
  K := (reg1 m).K
  fK := (reg1 m).fK
  osem := (reg1 m).osem
  ho := (reg1 m).ho
  hbody c := ((reg1 m).hbody c).toR
  hwaits := Pipeline.RDat.hwaits_of_owed_zero _ _ _ _ L lv 1 fun _ _ => rfl
  pre := (reg1 m).pre
  post := (reg1 m).post
  X := (reg1 m).X
  Y := (reg1 m).Y
  Z := (reg1 m).Z
  hentry := (reg1 m).hentry
  hin := (reg1 m).hin
  hout := (reg1 m).hout
  hexit c := (sep_mono (Entails.of_eq ((pdats m 1 c).toR_arraysAt_eq (Pipeline.pin (pcfgs (F := F)) Gen.adm 1).N)) .rfl).trans ((reg1 m).hexit c)

/-! ## The third pallas_call, its result array left at contents nobody names -/

/-- The buffers after the third pallas_call if it leaves o in its result array: that array at o, every other buffer as
    entered. -/
abbrev Vo (c : Dev nD) (o : Buf (Elt F) ((c : Thread nD τ).loc main_v34)) : Valuation τ sig (Elt F) :=
  Function.update (Gen.V5 m (outs m) c) main_v34 o

/-- Replacing the result array's contents changes no other buffer. -/
theorem Vo_of_ne (c : Dev nD) (o : Buf (Elt F) ((c : Thread nD τ).loc main_v34)) (r : Ref sig .tc) (h : r ≠ main_v34) :
    Vo m c o r = Gen.V5 m (outs m) c r := by
  simp only [Vo, Function.update_of_ne (StableHlo.devRef_ne_of_ne h : (Proc.devRef .tc r : DevRef τ sig) ≠ Proc.devRef .tc main_v34)]

theorem Vo_rest (c : Dev nD) (o : Buf (Elt F) ((c : Thread nD τ).loc main_v34)) (b : Ref sig .tc)
    (hb : b ∉ Finset.univ.image (Pipeline.arrRef spec2)) : Vo m c o b = Gen.V5 m (outs m) c b :=
  Vo_of_ne m c o b fun h => hb (by rw [h]; exact Finset.mem_image.mpr ⟨3, Finset.mem_univ _, rfl⟩)

set_option maxHeartbeats 1000000 in
set_option backward.isDefEq.respectTransparency.types false in
/-- After every write-back the three input arrays hold what they held at entry (an input is never written and its window
    is not forgotten) and the result array holds something. -/
theorem arraysAt2 (c : Dev nD) :
    (rdats m 2 c).arraysAt cfg2.N ⊢ (iprop(∃ o : Buf (Elt F) ((c : Thread nD τ).loc main_v34),
      (pdats m 2 c).arrays fun w => Vo m c o (Pipeline.arrRef spec2 w)) : sProp 𝕄) := by
  unfold Pipeline.RDat.arraysAt Pipeline.Dat.arrays
  rw [bigSep_W2]
  iintro ⟨⟨%F0, %h0, H0⟩, ⟨%F1, %h1, H1⟩, ⟨%F2, %h2, H2⟩, ⟨%F3, -, H3⟩⟩
  have e0 : F0 = Vo m c F3 (Pipeline.arrRef spec2 0) :=
    (((dat2 (fun c b => Gen.V5 m (outs m) c b) c).toRForget_arrAt_iff fgt2_0 cfg2.N F0).mp h0).trans
      ((((dat2 (fun c b => Gen.V5 m (outs m) c b) c).arrAt_in 0 rfl cfg2.N).trans (A_eq2 (fun c b => Gen.V5 m (outs m) c b) c 0)).trans
        (Vo_of_ne m c F3 (Pipeline.arrRef spec2 0) (by decide)).symm)
  have e1 : F1 = Vo m c F3 (Pipeline.arrRef spec2 1) :=
    (((dat2 (fun c b => Gen.V5 m (outs m) c b) c).toRForget_arrAt_iff fgt2_1 cfg2.N F1).mp h1).trans
      ((((dat2 (fun c b => Gen.V5 m (outs m) c b) c).arrAt_in 1 rfl cfg2.N).trans (A_eq2 (fun c b => Gen.V5 m (outs m) c b) c 1)).trans
        (Vo_of_ne m c F3 (Pipeline.arrRef spec2 1) (by decide)).symm)
  have e2 : F2 = Vo m c F3 (Pipeline.arrRef spec2 2) :=
    (((dat2 (fun c b => Gen.V5 m (outs m) c b) c).toRForget_arrAt_iff fgt2_2 cfg2.N F2).mp h2).trans
      ((((dat2 (fun c b => Gen.V5 m (outs m) c b) c).arrAt_in 2 rfl cfg2.N).trans (A_eq2 (fun c b => Gen.V5 m (outs m) c b) c 2)).trans
        (Vo_of_ne m c F3 (Pipeline.arrRef spec2 2) (by decide)).symm)
  have e3 : F3 = Vo m c F3 (Pipeline.arrRef spec2 3) := by
    show F3 = Function.update (Gen.V5 m (outs m) c) main_v34 F3 main_v34
    rw [Function.update_self]
  iexists F3
  rw [bigSep_W2, show (rdats m 2 c).share = (pdats m 2 c).share from rfl]
  beta_reduce
  rw [← e0, ← e1, ← e2, ← e3]
  isplitl [H0]; · iexact H0
  isplitl [H1]; · iexact H1
  isplitl [H2]; · iexact H2
  iexact H3

set_option backward.isDefEq.respectTransparency.types false in
/-- The third pallas_call as an item over the relational data: entered with every unscoped buffer at the contents after
    the third host stretch, left with its result array at some contents and every other buffer as entered. Its four
    arrays are distinct buffers, split out of the unscoped buffers at entry and put back at exit; the generator register
    goes into the region's invariant and comes back; nothing is owed. -/
def rreg2 : Pipeline.RDat.RegionSeg (pcfgs (F := F)) Gen.adm (rdats m) () defs₀ Variants.none L lv 2 where
  win := Gen.launch2.win.to₀
  block_pos := Gen.launch2.block_pos
  stage_whole := Gen.launch2.stage_whole
  K := PEmpty
  osem k := k.elim
  ho := Pipeline.OwnSemFacts.none _
  hbody c := (body_obligation2_fgt (fun c b => Gen.V5 m (outs m) c b) c).toRForget
  hwaits := Pipeline.RDat.hwaits_of_owed_zero _ _ _ _ L lv 2 fun _ _ => rfl
  pre c := iprop(StableHlo.held (c : Thread nD τ) (Pipeline.ucRefs τ sig) (Gen.V5 m (outs m) c) ∗ R c)
  post c := iprop(∃ o : Buf (Elt F) ((c : Thread nD τ).loc main_v34),
    StableHlo.held (c : Thread nD τ) (Pipeline.ucRefs τ sig) (Vo m c o) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.RDat.arrays_of_unscopedBufs (p := 2) (pcfgs (F := F)) Gen.adm (rdats m) Gen.launch2.win Gen.launch2.arr_whole c
      (fun w => (pdats m 2 c).share_full (fun _ => rfl) w) (fun b => Gen.V5 m (outs m) c b) fun _ => rfl
    rw [Pipeline.unscopedBufs_held c (Gen.V5 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt2 m c) $$ Ha
    icases Ha' with ⟨%o, Ha⟩
    have hjoin := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (fun b => Gen.V5 m (outs m) c b) (fun b => Vo m c o b) (fun w => Vo m c o (Pipeline.arrRef spec2 w)) (fun _ => rfl) (Vo_rest m c o)
    rw [Pipeline.unscopedBufs_held c (Vo m c o)] at hjoin
    imodintro
    iexists o
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The last two host stretches, run from a valuation known up to the result array -/

set_option backward.isDefEq.respectTransparency.types false in
/-- A line of host operations over the unscoped buffers held at one of a family of valuations, nobody saying which: it
    runs to the buffers at the line's effect on that same valuation. -/
def hostSegEx {O : Dev nD → Type} (ops : List (HloOp τ sig (Elt F)))
    (hS : ∀ op ∈ ops, op.bufs ⊆ Pipeline.ucRefs τ sig) (hf : ∀ op ∈ ops, op.fresh = ∅)
    (Vf : (c : Dev nD) → O c → Valuation τ sig (Elt F)) (Rst : Dev nD → sProp 𝕄) :
    HostSeg (Name := ℕ) (U := UR sig nD τ) (pcfgs (F := F)) defs₀ Variants.none L lv where
  prog := StableHlo.seq ops
  pre c := iprop(∃ o : O c, StableHlo.held (c : Thread nD τ) (Pipeline.ucRefs τ sig) (Vf c o) ∗ Rst c)
  post c := iprop(∃ o : O c, StableHlo.held (c : Thread nD τ) (Pipeline.ucRefs τ sig) (StableHlo.after ops (Vf c o)) ∗ Rst c)
  run c {β} k K := by
    iintro ⟨Hk, Hbd, ⟨%o, Hh, HR⟩, -⟩
    have hseq := StableHlo.wp_seq (defs := Pipeline.defs (pcfgs (F := F)) defs₀) (Variants.lift Variants.none) none Set.univ c
      (Pipeline.ucRefs τ sig) k (K := K) ops hS hf (Vf c o)
    iapply hseq $$ [Hbd Hh]
    · isplitl [Hbd] <;> iassumption
    iintro ⟨Hbd, Hh⟩
    iapply Hk
    isplitl [Hbd]; · iexact Hbd
    iexists o
    isplitl [Hh] <;> iassumption

/-- The log-softmax's stretch, from the buffers after the third pallas_call. -/
def seg6R : HostSeg (Name := ℕ) (U := UR sig nD τ) (pcfgs (F := F)) defs₀ Variants.none L lv :=
  hostSegEx (O := fun c => Buf (Elt F) ((c : Thread nD τ).loc main_v34)) hostOps3
    (fun op h => Pipeline.sub_ucRefs op ((List.forall_iff_forall_mem.mp hostOps3_sub) op h))
    (fun op h => (List.forall_iff_forall_mem.mp Gen.hostOps3_fresh) op h) (fun c o => Vo m c o) R
/-- The last stretch, from the buffers after the log-softmax. -/
def seg7R : HostSeg (Name := ℕ) (U := UR sig nD τ) (pcfgs (F := F)) defs₀ Variants.none L lv :=
  hostSegEx (O := fun c => Buf (Elt F) ((c : Thread nD τ).loc main_v34)) hostOps3_1
    (fun op h => Pipeline.sub_ucRefs op ((List.forall_iff_forall_mem.mp hostOps3_1_sub) op h))
    (fun op h => (List.forall_iff_forall_mem.mp Gen.hostOps3_1_fresh) op h) (fun c o => StableHlo.after hostOps3 (Vo m c o)) R

/-- The buffers at the end, if the third pallas_call left o in its result array. -/
abbrev Vend (c : Dev nD) (o : Buf (Elt F) ((c : Thread nD τ).loc main_v34)) : Valuation τ sig (Elt F) :=
  StableHlo.after hostOps3_1 (StableHlo.after hostOps3 (Vo m c o))

/-- A buffer no host stretch writes and no pallas_call has for its output ends as launched. -/
theorem Vend_of (c : Dev nD) (o : Buf (Elt F) ((c : Thread nD τ).loc main_v34)) (r : Ref sig .tc)
    (h8 : r ∉ Gen.hostOps3_1_W) (h7 : r ∉ Gen.hostOps3_W) (h6 : r ≠ main_v34) (h5 : r ∉ Gen.hostOps2_W)
    (h4 : r ∉ ([main_v32] : List (Ref sig .tc))) (h3 : r ∉ Gen.hostOps1_W) (h2 : r ∉ ([main_v27] : List (Ref sig .tc)))
    (h1 : r ∉ Gen.hostOps0_W) : Vend m c o r = m ((c : Thread nD τ).loc r) :=
  (StableHlo.after_of_writes_sub hostOps3_1 _ Gen.hostOps3_1_writes h8).trans <|
    (StableHlo.after_of_writes_sub hostOps3 _ Gen.hostOps3_writes h7).trans <|
    (Vo_of_ne m c o r h6).trans <| (Gen.V5_of m (outs m) c r h5).trans <| (Gen.V4_of m (outs m) c r h4).trans <|
    (Gen.V3_of m (outs m) c r h3).trans <| (Gen.V2_of m (outs m) c r h2).trans <| (Gen.V1_of m c r h1).trans rfl

/-! ## The run -/

/-- The decoder step's items over the relational data. -/
abbrev segsR (c : Dev nD) : List (Pipeline.RDat.Seg (pcfgs (F := F)) Gen.adm (rdats m) () defs₀ Variants.none L lv) :=
  [.host (Gen.seg0 m Variants.none L lv (E (F := F))), .region (rreg0 m), .host (Gen.seg2 m (outs m) Variants.none L lv (E (F := F))),
    .region (rreg1 m), .host (Gen.seg4 m (outs m) Variants.none L lv (E (F := F))), .region (rreg2 m), .host (seg6R m), .host (seg7R m)]

set_option backward.isDefEq.respectTransparency.types false in
/-- THE FRAME. Every weakly fair execution of the decoder step from memory m with zero counters terminates, and every
    final memory holds each argument as launched: no host stretch writes an argument and no pallas_call has one for
    its output, whatever the third pallas_call leaves in its result array. -/
theorem frameR (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.RDat.θ_run_regions_kit_dev (pcfgs (F := F)) Gen.adm (rdats m) () cellOf_inj emb₁ defs₀ Variants.none L lv m ρ main
    (segsR m)
    (fun c Q => by
      rewrite [main_chain c, Pipeline.RDat.Seg.run_eq_chain,
        show (segsR m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (fun c => by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => iprop(∃ o : Buf (Elt F) ((c : Thread nD τ).loc main_v34),
      StableHlo.held (c : Thread nD τ) (Pipeline.ucRefs τ sig) (Vend m c o) ∗ ∃ r, prngReg c r))
    (hch := fun c => ⟨.rfl, .rfl, .rfl, .rfl, .rfl, .rfl, .rfl, .rfl, by
      show iprop(∃ o : Buf (Elt F) ((c : Thread nD τ).loc main_v34),
          StableHlo.held (c : Thread nD τ) (Pipeline.ucRefs τ sig) (Vend m c o) ∗ R c)
        ⊢ iprop((∃ o : Buf (Elt F) ((c : Thread nD τ).loc main_v34),
            StableHlo.held (c : Thread nD τ) (Pipeline.ucRefs τ sig) (Vend m c o) ∗ ∃ r, prngReg c r)
            ∗ ∃ W, owes (c : Thread nD τ) (0 : CellTallies nD τ sig Unit) W)
      iintro ⟨%o, Hh, Hp, HO⟩
      isplitl [Hh Hp]
      · iexists o; isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14))
    (hfin := fun c s' => ?_) (hQ := fun _ h => h)
  -- the end: each argument's buffer read off the last valuation, whatever the result array held
  iintro ⟨⟨%o, Hh, -⟩, HSI⟩
  unfold StableHlo.held
  ihave Hr := (pointsTo_read_all (Pipeline.ucRefs τ sig) (fun b => ((c : Thread nD τ).1, b)) (Vend m c o) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans
        (Vend_of m c o main_arg0 (by decide) (by decide) (by decide) (by decide) (by decide) (by decide) (by decide) (by decide)),
      (h (Proc.devRef .tc main_arg1) (Finset.mem_filter.mpr ⟨StableHlo.devRef_mem_tcRefs main_arg1, by decide⟩)).trans
        (Vend_of m c o main_arg1 (by decide) (by decide) (by decide) (by decide) (by decide) (by decide) (by decide) (by decide)),
      (h (Proc.devRef .tc main_arg2) (Finset.mem_filter.mpr ⟨StableHlo.devRef_mem_tcRefs main_arg2, by decide⟩)).trans
        (Vend_of m c o main_arg2 (by decide) (by decide) (by decide) (by decide) (by decide) (by decide) (by decide) (by decide)),
      (h (Proc.devRef .tc main_arg3) (Finset.mem_filter.mpr ⟨StableHlo.devRef_mem_tcRefs main_arg3, by decide⟩)).trans
        (Vend_of m c o main_arg3 (by decide) (by decide) (by decide) (by decide) (by decide) (by decide) (by decide) (by decide)),
      (h (Proc.devRef .tc main_arg4) (Finset.mem_filter.mpr ⟨StableHlo.devRef_mem_tcRefs main_arg4, by decide⟩)).trans
        (Vend_of m c o main_arg4 (by decide) (by decide) (by decide) (by decide) (by decide) (by decide) (by decide) (by decide)),
      (h (Proc.devRef .tc main_arg5) (Finset.mem_filter.mpr ⟨StableHlo.devRef_mem_tcRefs main_arg5, by decide⟩)).trans
        (Vend_of m c o main_arg5 (by decide) (by decide) (by decide) (by decide) (by decide) (by decide) (by decide) (by decide)),
      (h (Proc.devRef .tc main_arg6) (Finset.mem_filter.mpr ⟨StableHlo.devRef_mem_tcRefs main_arg6, by decide⟩)).trans
        (Vend_of m c o main_arg6 (by decide) (by decide) (by decide) (by decide) (by decide) (by decide) (by decide) (by decide)),
      (h (Proc.devRef .tc main_arg7) (Finset.mem_filter.mpr ⟨StableHlo.devRef_mem_tcRefs main_arg7, by decide⟩)).trans
        (Vend_of m c o main_arg7 (by decide) (by decide) (by decide) (by decide) (by decide) (by decide) (by decide) (by decide)),
      (h (Proc.devRef .tc main_arg8) (Finset.mem_filter.mpr ⟨StableHlo.devRef_mem_tcRefs main_arg8, by decide⟩)).trans
        (Vend_of m c o main_arg8 (by decide) (by decide) (by decide) (by decide) (by decide) (by decide) (by decide) (by decide)),
      (h (Proc.devRef .tc main_arg9) (Finset.mem_filter.mpr ⟨StableHlo.devRef_mem_tcRefs main_arg9, by decide⟩)).trans
        (Vend_of m c o main_arg9 (by decide) (by decide) (by decide) (by decide) (by decide) (by decide) (by decide) (by decide)),
      (h (Proc.devRef .tc main_arg10) (Finset.mem_filter.mpr ⟨StableHlo.devRef_mem_tcRefs main_arg10, by decide⟩)).trans
        (Vend_of m c o main_arg10 (by decide) (by decide) (by decide) (by decide) (by decide) (by decide) (by decide) (by decide)),
      (h (Proc.devRef .tc main_arg11) (Finset.mem_filter.mpr ⟨StableHlo.devRef_mem_tcRefs main_arg11, by decide⟩)).trans
        (Vend_of m c o main_arg11 (by decide) (by decide) (by decide) (by decide) (by decide) (by decide) (by decide) (by decide)),
      (h (Proc.devRef .tc main_arg12) (Finset.mem_filter.mpr ⟨StableHlo.devRef_mem_tcRefs main_arg12, by decide⟩)).trans
        (Vend_of m c o main_arg12 (by decide) (by decide) (by decide) (by decide) (by decide) (by decide) (by decide) (by decide)),
      (h (Proc.devRef .tc main_arg13) (Finset.mem_filter.mpr ⟨StableHlo.devRef_mem_tcRefs main_arg13, by decide⟩)).trans
        (Vend_of m c o main_arg13 (by decide) (by decide) (by decide) (by decide) (by decide) (by decide) (by decide) (by decide)),
      (h (Proc.devRef .tc main_arg14) (Finset.mem_filter.mpr ⟨StableHlo.devRef_mem_tcRefs main_arg14, by decide⟩)).trans
        (Vend_of m c o main_arg14 (by decide) (by decide) (by decide) (by decide) (by decide) (by decide) (by decide) (by decide))⟩
  · iexact HSI

end Cert.Kernel.Reg

end
-- ==== Proof.KernelIdeal.Reg0.lean ====
/-
  The first pallas_call: a row vector x (1 × 4096) against a 2048 × 4096 weight matrix, tiled over the output in
  four blocks of 512 columns. At grid point t the body sees all of x, rows 512·t … 512·t+511 of the weights and the
  matching 512 bias entries, and stores max(x · Wᵗ + b, 0) for those 512 columns. Stated here at any buffer contents V
  the region is entered from and at any float instance: what each staging buffer holds before and after the body at
  a point, the body's Hoare triple, and the pipeline's body obligation.
-/
import proofs.«420902_j59081570124588_3_alg».proof.Proof.Gen.KernelIdeal.Launch
import proofs.«420902_j59081570124588_3_alg».proof.Proof.Gen.KernelIdeal.Skeleton
import proofs.«420902_j59081570124588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether that point fetched it or an
    earlier one did and the block index has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S1x4096 := Rect.unit (s := S1x4096) ![0, 0] S1x4096.size inb_S1x4096_S1x4096_0_0
abbrev r0_1 : Rect S512x4096 := Rect.unit (s := S512x4096) ![0, 0] S512x4096.size inb_S512x4096_S512x4096_0_0
abbrev r0_2 : Rect S1x512 := Rect.unit (s := S1x512) ![0, 0] S1x512.size inb_S1x512_S1x512_0_0

/-! ## What the body leaves in the output window's buffer -/

/-- The output buffer after the body, from the three input blocks: one whole store of the payload. -/
def out0_3 (x0 : Vec F S1x4096 .f32) (x1 : Vec F S512x4096 .f32) (x2 : Vec F S1x512 .f32) : Vec F S1x512 .f32 :=
  View.canon [⟨r0_2, k0_pay1 (View.ld x0 r0_0) (View.ld x1 r0_1) (View.ld x2 r0_2)⟩]

/-- The one store covers the buffer. -/
theorem cover0_3 (p0 : Vec F S1x512 .f32) (y : S1x512.Idx) :
    ∃ pc ∈ ([⟨r0_2, p0⟩] : List (View.Piece (Elt F) S1x512 .f32)), y ∈ pc.1.set :=
  View.cover_of_tiled [⟨r0_2, p0⟩] S1x512.size (by rfl) y

/-! ## The body's triple -/

set_option maxHeartbeats 1000000 in
/-- The body on whole staging memrefs, the inputs' at known contents and the output's at anything, runs to the
    continuation holding the inputs' as they were and the output's at out0_3 of the inputs'. -/
theorem sound_kernel0 (c : Dev nD) (E : Set ℕ) (i : grid0.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__vecmat_kernel i arg1 harg1 arg2 harg2 arg3 harg3 arg4 harg4) K := by
  simp only [cc0__vecmat_kernel_eq_skeleton]; unfold cc0__vecmat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pallas_call on core c: the arrays as the region finds them; after the body at point t
    each input's buffer at its block and the output's at out0_3 of the input blocks; the scoped rest and the generator
    register ride through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KernelIdeal.Reg1Defs.lean ====
/-
  The second pallas_call, the fused GRU cell, tiled over the hidden dimension in eight blocks of 256. At grid point t
  the body sees all of x (the combine layer's output) and all of h, the 256 entries of h for its tile, rows
  256·t … 256·t+255 of each of the three gate planes of W_ih and of W_hh, and the matching bias entries, and stores
  (1 − z)·n + z·h for its 256 entries. The vector h reaches the body twice, whole and by tile, through two windows on
  one array; each holds half of it. Here: the blocks, the body's accesses, what the body leaves in the output's
  buffer, and the pipeline's proof data, at any buffer contents V and any float instance.
-/
import proofs.«420902_j59081570124588_3_alg».proof.Proof.Gen.KernelIdeal.Launch
import proofs.«420902_j59081570124588_3_alg».proof.Proof.Gen.KernelIdeal.Skeleton
import proofs.«420902_j59081570124588_3_alg».proof.Proof.Gen.KernelIdeal.Points
import proofs.«420902_j59081570124588_3_alg».proof.Proof.Halves
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Cert.Shares

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer is read or written whole -/

abbrev r1_a : Rect S1x2048 := Rect.unit (s := S1x2048) ![0, 0] S1x2048.size inb_S1x2048_S1x2048_0_0
abbrev r1_b : Rect S1x256 := Rect.unit (s := S1x256) ![0, 0] S1x256.size inb_S1x256_S1x256_0_0
abbrev r1_w : Rect S3x256x2048 := Rect.unit (s := S3x256x2048) ![0, 0, 0] S3x256x2048.size inb_S3x256x2048_S3x256x2048_0_0_0
abbrev r1_s : Rect S3x1x256 := Rect.unit (s := S3x1x256) ![0, 0, 0] S3x1x256.size inb_S3x1x256_S3x1x256_0_0_0

/-- The output buffer after the body, from the seven input blocks (x, h, h's tile, the W_ih and W_hh tiles, the two bias
    tiles): one whole store of the gate arithmetic. -/
def out1_7 (x0 x1 : Vec F S1x2048 .f32) (x2 : Vec F S1x256 .f32) (x3 x4 : Vec F S3x256x2048 .f32) (x5 x6 : Vec F S3x1x256 .f32) :
    Vec F S1x256 .f32 :=
  View.canon [⟨r1_b, k1_pay1 (k1_pay3 (View.ld x1 r1_a)) (k1_pay5 (View.ld x4 r1_w)) (k1_pay7 (View.ld x6 r1_s)) (k1_pay8 (View.ld x2 r1_b))
    (k1_pay9 (View.ld x0 r1_a) (View.ld x3 r1_w) (View.ld x5 r1_s)) (k1_pay10 (View.ld x0 r1_a) (View.ld x3 r1_w) (View.ld x5 r1_s))
    (k1_pay11 (View.ld x0 r1_a) (View.ld x3 r1_w)) (k1_pay12 (View.ld x5 r1_s))⟩]

/-- The proof data of the second pallas_call on core c: the arrays as the region finds them; after the body at point t each
    input's buffer at its block and the output's at out1_7 of the input blocks; the two windows on h hold half of it each,
    every other array is held whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => lh
    | ⟨2, _⟩ => rh
    | _ => fullShare
  owed _ := 0

end Cert.KernelIdeal.Reg

end
-- ==== Proof.KernelIdeal.Reg1.lean ====
/-
  The second pallas_call, the fused GRU cell, tiled over the hidden dimension in eight blocks of 256. At grid point t
  the body sees all of x and all of h, the 256 entries of h for its tile, rows 256·t … 256·t+255 of each of the three
  gate planes of W_ih and of W_hh and the matching bias entries, and stores (1 − z)·n + z·h for its 256 entries.
  Stated here at any buffer contents V the region is entered from and at any float instance: what each staging buffer
  holds before and after the body at a point, the body's Hoare triple, and the pipeline's body obligation.
-/
import proofs.«420902_j59081570124588_3_alg».proof.Proof.KernelIdeal.Reg1Defs
import proofs.«420902_j59081570124588_3_alg».proof.Proof.Gen.KernelIdeal.Launch
import proofs.«420902_j59081570124588_3_alg».proof.Proof.Gen.KernelIdeal.Skeleton
import proofs.«420902_j59081570124588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- An input window's current staging buffer holds its block at every point, whether that point fetched it or an
    earlier one did and the block index has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one store covers the buffer. -/
theorem cover1_7 (p0 : Vec F S1x256 .f32) (y : S1x256.Idx) :
    ∃ pc ∈ ([⟨r1_b, p0⟩] : List (View.Piece (Elt F) S1x256 .f32)), y ∈ pc.1.set :=
  View.cover_of_tiled [⟨r1_b, p0⟩] S1x256.size (by rfl) y

/-! ## The body's triple -/

set_option maxHeartbeats 4000000 in
/-- The body on whole staging memrefs, the inputs' at known contents and the output's at anything, runs to the
    continuation holding the inputs' as they were and the output's at out1_7 of the inputs'. -/
theorem sound_kernel1 (c : Dev nD) (E : Set ℕ) (i : grid1.Coords)
    (arg1 : Memref sig .tc .vmem S1x2048 .f32) (harg1 : arg1.IsWhole) (arg2 : Memref sig .tc .vmem S1x2048 .f32) (harg2 : arg2.IsWhole)
    (arg3 : Memref sig .tc .vmem S1x256 .f32) (harg3 : arg3.IsWhole) (arg4 : Memref sig .tc .vmem S3x256x2048 .f32) (harg4 : arg4.IsWhole)
    (arg5 : Memref sig .tc .vmem S3x256x2048 .f32) (harg5 : arg5.IsWhole) (arg6 : Memref sig .tc .vmem S3x1x256 .f32) (harg6 : arg6.IsWhole)
    (arg7 : Memref sig .tc .vmem S3x1x256 .f32) (harg7 : arg7.IsWhole) (arg8 : Memref sig .tc .vmem S1x256 .f32) (harg8 : arg8.IsWhole)
    (x0 x1 : Vec F S1x2048 .f32) (x2 : Vec F S1x256 .f32) (x3 x4 : Vec F S3x256x2048 .f32) (x5 x6 : Vec F S3x1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__gru_fused_kernel i arg1 harg1 arg2 harg2 arg3 harg3 arg4 harg4 arg5 harg5 arg6 harg6 arg7 harg7 arg8 harg8) K := by
  simp only [cc1__gru_fused_kernel_eq_skeleton]; unfold cc1__gru_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data, opened -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t)
      (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KernelIdeal.Reg2Defs.lean ====
/-
  The third pallas_call, the output projection, tiled over the 50257 vocabulary rows in 25 blocks of 2048. At grid point
  t the body sees all of h, rows 2048·t … of W_out and the matching bias entries, and stores h · Wᵗ + b for its 2048
  columns. 50257 = 24·2048 + 1105, so the last block of the weights, of the bias and of the result reaches past the
  arrays' end: its transfers are cut at the end, and the rest of the staging buffer then holds words nothing names.
  Here: the part of each block inside its array, that part filled out with the zero word, what the body leaves in the
  output's buffer, and the pipeline's proof data, at any buffer contents V and any float instance.
-/
import proofs.«420902_j59081570124588_3_alg».proof.Proof.Gen.KernelIdeal.Launch
import proofs.«420902_j59081570124588_3_alg».proof.Proof.Gen.KernelIdeal.Skeleton
import proofs.«420902_j59081570124588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The part of window w's block at point t that lies inside its array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same filled out to the whole block with the zero word past the array's end (nothing reads the filler). -/
def zblk2_0 (c : Dev nD) (t : Fin cfg2.N) : S1x2048.Idx → Elt F .f32 :=
  win2_0.fill (grid2.coords t) (fun _ => Scalar.ofBits .f32 0#32) (iblk2 V c 0 t)
def zblk2_1 (c : Dev nD) (t : Fin cfg2.N) : S2048x2048.Idx → Elt F .f32 :=
  win2_1.fill (grid2.coords t) (fun _ => Scalar.ofBits .f32 0#32) (iblk2 V c 1 t)
def zblk2_2 (c : Dev nD) (t : Fin cfg2.N) : S1x2048.Idx → Elt F .f32 :=
  win2_2.fill (grid2.coords t) (fun _ => Scalar.ofBits .f32 0#32) (iblk2 V c 2 t)

/-! ## The body's accesses: each buffer is read or written whole -/

abbrev r2_a : Rect S1x2048 := Rect.unit (s := S1x2048) ![0, 0] S1x2048.size inb_S1x2048_S1x2048_0_0
abbrev r2_w : Rect S2048x2048 := Rect.unit (s := S2048x2048) ![0, 0] S2048x2048.size inb_S2048x2048_S2048x2048_0_0

/-- The output buffer after the body, from the three input buffers' contents: one whole store of the payload. -/
def out2_3 (x0 : Vec F S1x2048 .f32) (x1 : Vec F S2048x2048 .f32) (x2 : Vec F S1x2048 .f32) : Vec F S1x2048 .f32 :=
  View.canon [⟨r2_a, k2_pay1 (View.ld x0 r2_a) (View.ld x1 r2_w) (View.ld x2 r2_a)⟩]

/-- The proof data of the third pallas_call on core c: the arrays as the region finds them; after the body at point t each
    input's buffer at its zero-filled block and the output's at out2_3 of those; full shares; nothing owed. -/
def dat2 (c : Dev nD) : Dat τ (Elt F) Unit ℕ (UR sig nD τ) ℕ cfg2 c where
  A w := V c (Pipeline.arrRef spec2 w)
  after w t := match w with
    | ⟨0, _⟩ => zblk2_0 V c t
    | ⟨1, _⟩ => zblk2_1 V c t
    | ⟨2, _⟩ => zblk2_2 V c t
    | ⟨3, _⟩ => out2_3 (zblk2_0 V c t) (zblk2_1 V c t) (zblk2_2 V c t)
  Φ _ := Pipeline.ΦA spec2 c
  q _ := fullShare
  owed _ := 0

/-- The mask that forgets the output window. -/
def fgt2 : Fin cfg2.W → Bool := fun w => match w with
  | ⟨3, _⟩ => true
  | _ => false

end Cert.KernelIdeal.Reg

end
-- ==== Proof.KernelIdeal.Share1.lean ====
/-
  The second pallas_call's arrays among the core's unscoped buffers. The fused GRU cell reads the hidden vector h
  through two windows — whole, and by its tile of 256 — so its eight windows stand on seven buffers, and the buffers
  behind them are not pairwise distinct. The core holds every unscoped buffer whole at the full share; the pipeline's
  proof data holds each window's array at that window's share. Entering the region, h's full share is split into two
  complementary halves, one for each of its windows; leaving it, the halves are joined again. Every other window's
  buffer passes at the full share, and the unscoped rest is untouched. Stated for any proof data whose shares are the
  left half at window 1, the right half at window 2 and the full share elsewhere, at any float instance.
-/
import proofs.«420902_j59081570124588_3_alg».proof.Proof.Gen.KernelIdeal.Launch
import proofs.«420902_j59081570124588_3_alg».proof.Proof.Halves
import Idealize.ShloMosaic.Lib.Pipeline.Launch
import Idealize.ShloMosaic.Lib.Pipeline.RegionsLoop
import Idealize.ShloMosaic.Lib.Pipeline.FrameSuffix

set_option maxRecDepth 16384

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Shares

variable {F : FTy → Type} [FloatOps F]

local notation "𝕄" => MT nD τ sig Unit (Elt F) ℕ (UR sig nD τ) ℕ

/-! ## The windows' shares and the seven buffers -/

/-- The share each window holds its array at: h's two windows a half each, every other window the whole. -/
def sh1 : Fin 8 → PosShare TreeShare := fun | 1 => lh | 2 => rh | _ => fullShare

/-- The proof data's shares are these. -/
theorem share1_eq {c : Dev nD} (dat : Dat τ (Elt F) Unit ℕ (UR sig nD τ) ℕ cfg1 c)
    (hsh1 : dat.share 1 = lh) (hsh2 : dat.share 2 = rh) (hfull : ∀ w, w ≠ 1 → w ≠ 2 → dat.share w = fullShare) :
    ∀ w : Fin 8, dat.share w = sh1 w := fun
  | 0 => hfull 0 (by decide) (by decide) | 1 => hsh1 | 2 => hsh2 | 3 => hfull 3 (by decide) (by decide)
  | 4 => hfull 4 (by decide) (by decide) | 5 => hfull 5 (by decide) (by decide) | 6 => hfull 6 (by decide) (by decide)
  | 7 => hfull 7 (by decide) (by decide) | ⟨_ + 8, h⟩ => absurd h (Nat.not_lt.2 (Nat.le_add_left _ _))

/-- A core's unscoped buffers are the seven buffers behind the windows' arrays and the rest. -/
theorem unscopedBufs_split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ (nD := nD) (τ := τ) cfgs 1 winFacts₀1.arr_unscoped c Vc

/-- The buffers behind the eight windows' arrays, without repetition. -/
theorem arrImage1 : Finset.univ.image (Pipeline.arrRef spec1)
    = [main_v27, main_v7, main_v28, main_v29, main_v30, main_v31, main_v32].toFinset := by
  decide

/-- Those seven buffers one by one, each whole at the full share. -/
theorem arrBufs1_eq (c : Dev nD) (Vc : (b : Ref sig .tc) → Buf (Elt F) ((c : Thread nD τ).loc b)) :
    (Pipeline.arrBufs spec1 c Vc : sProp 𝕄)
      = iprop(((c : Thread nD τ).loc main_v27 ↦{fullShare} Vc main_v27) ∗ ((c : Thread nD τ).loc main_v7 ↦{fullShare} Vc main_v7)
          ∗ ((c : Thread nD τ).loc main_v28 ↦{fullShare} Vc main_v28) ∗ ((c : Thread nD τ).loc main_v29 ↦{fullShare} Vc main_v29)
          ∗ ((c : Thread nD τ).loc main_v30 ↦{fullShare} Vc main_v30) ∗ ((c : Thread nD τ).loc main_v31 ↦{fullShare} Vc main_v31)
          ∗ ((c : Thread nD τ).loc main_v32 ↦{fullShare} Vc main_v32)) :=
  bigSep_eq_bigSepL_of_eq [main_v27, main_v7, main_v28, main_v29, main_v30, main_v31, main_v32] arrImage1 (by decide) _

/-- A window's array is a whole buffer: holding the view's elements is holding the buffer's. -/
theorem arr_pt1 (c : Dev nD) (w : Fin cfg1.W) (q : PosShare TreeShare) (g : Buf (Elt F) ((cfg1.win w).arr.view.loc (c : Thread nD τ))) :
    ((cfg1.win w).arr.view.loc (c : Thread nD τ) ↦[(cfg1.win w).arr.view.set]{q} g : sProp 𝕄)
      = ((c : Thread nD τ).loc (Pipeline.arrRef spec1 w) ↦{q} g) := by
  rw [(arr_whole1 w).set_eq_univ]

/-- The pipeline's arrays at contents read off a valuation of the buffers, window by window: h appears twice, a half
    share each. -/
theorem arrays1_eq {c : Dev nD} (dat : Dat τ (Elt F) Unit ℕ (UR sig nD τ) ℕ cfg1 c)
    (hsh1 : dat.share 1 = lh) (hsh2 : dat.share 2 = rh) (hfull : ∀ w, w ≠ 1 → w ≠ 2 → dat.share w = fullShare)
    (Vc : (b : Ref sig .tc) → Buf (Elt F) ((c : Thread nD τ).loc b))
    (G : (w : Fin cfg1.W) → Buf (Elt F) ((cfg1.win w).arr.view.loc (c : Thread nD τ))) (hG : ∀ w, G w = Vc (Pipeline.arrRef spec1 w)) :
    (dat.arrays G : sProp 𝕄)
      = iprop(((c : Thread nD τ).loc main_v27 ↦{fullShare} Vc main_v27) ∗ ((c : Thread nD τ).loc main_v7 ↦{lh} Vc main_v7)
          ∗ ((c : Thread nD τ).loc main_v7 ↦{rh} Vc main_v7)
          ∗ ((c : Thread nD τ).loc main_v28 ↦{fullShare} Vc main_v28) ∗ ((c : Thread nD τ).loc main_v29 ↦{fullShare} Vc main_v29)
          ∗ ((c : Thread nD τ).loc main_v30 ↦{fullShare} Vc main_v30) ∗ ((c : Thread nD τ).loc main_v31 ↦{fullShare} Vc main_v31)
          ∗ ((c : Thread nD τ).loc main_v32 ↦{fullShare} Vc main_v32)) := by
  have h : (dat.arrays G : sProp 𝕄)
      = bigSep Finset.univ fun w : Fin 8 => ((c : Thread nD τ).loc (Pipeline.arrRef spec1 w) ↦{sh1 w} Vc (Pipeline.arrRef spec1 w) : sProp 𝕄) := by
    unfold Dat.arrays
    exact bigSep_congr fun w _ => by rw [arr_pt1, hG, share1_eq dat hsh1 hsh2 hfull]
  rw [h, bigSep_W1]
  rfl

/-! ## Entry and exit -/

/-- ENTRY: a core's unscoped buffers at a valuation are the pipeline's arrays at the contents read off it, h's full
    share split into the two windows' halves, and the unscoped rest. -/
theorem arrays_of_unscopedBufs1 (c : Dev nD) (dat : Dat τ (Elt F) Unit ℕ (UR sig nD τ) ℕ cfg1 c)
    (hsh1 : dat.share 1 = lh) (hsh2 : dat.share 2 = rh) (hfull : ∀ w, w ≠ 1 → w ≠ 2 → dat.share w = fullShare)
    (Vc : (b : Ref sig .tc) → Buf (Elt F) ((c : Thread nD τ).loc b))
    (G : (w : Fin cfg1.W) → Buf (Elt F) ((cfg1.win w).arr.view.loc (c : Thread nD τ))) (hG : ∀ w, G w = Vc (Pipeline.arrRef spec1 w)) :
    (unscopedBufs c Vc : sProp 𝕄) ⊢ iprop(dat.arrays G ∗ Pipeline.unscopedRest spec1 c Vc) := by
  rw [unscopedBufs_split1 c Vc, arrBufs1_eq c Vc, arrays1_eq dat hsh1 hsh2 hfull Vc G hG]
  refine sep_mono (sep_mono .rfl ?_) .rfl
  exact (sep_mono (pointsTo_share full_mem).1 .rfl).trans sep_assoc

/-- EXIT: the pipeline's arrays at some contents and the unscoped rest at a valuation are the core's unscoped buffers
    at any valuation that has the arrays at those contents and agrees with the first off them; h's two halves join into
    its full share. -/
theorem unscopedBufs_of_arrays1 (c : Dev nD) (dat : Dat τ (Elt F) Unit ℕ (UR sig nD τ) ℕ cfg1 c)
    (hsh1 : dat.share 1 = lh) (hsh2 : dat.share 2 = rh) (hfull : ∀ w, w ≠ 1 → w ≠ 2 → dat.share w = fullShare)
    (Vc Vc' : (b : Ref sig .tc) → Buf (Elt F) ((c : Thread nD τ).loc b))
    (G : (w : Fin cfg1.W) → Buf (Elt F) ((cfg1.win w).arr.view.loc (c : Thread nD τ))) (hG : ∀ w, G w = Vc' (Pipeline.arrRef spec1 w))
    (hrest : ∀ b, b ∉ Finset.univ.image (Pipeline.arrRef spec1) → Vc' b = Vc b) :
    iprop(dat.arrays G ∗ Pipeline.unscopedRest spec1 c Vc) ⊢ (unscopedBufs c Vc' : sProp 𝕄) := by
  rw [unscopedBufs_split1 c Vc', arrBufs1_eq c Vc', arrays1_eq dat hsh1 hsh2 hfull Vc' G hG]
  refine sep_mono (sep_mono .rfl ?_) (Entails.of_eq ?_)
  · exact sep_assoc'.trans (sep_mono (pointsTo_share full_mem).2 .rfl)
  · unfold Pipeline.unscopedRest
    exact bigSep_congr fun b hb => by rw [hrest b (Finset.mem_sdiff.mp hb).2]

end Cert.KernelIdeal.Reg
end
-- ==== Proof.KernelIdeal.Run.lean ====
/-
  The run of the decoder step over its eight items: a host stretch, the combine layer's pallas_call, a host stretch,
  the fused GRU cell's pallas_call, a host stretch, the output projection's pallas_call, and two host stretches
  (the log-softmax). Here: what every unscoped buffer holds between two items, as a fold from the launch memory in
  which a pallas_call replaces its output array by its blocks' write-backs taken in order; each pallas_call as an item
  entered from the valuation before it and left at the one after it; and the theorem that every weakly fair execution
  from memory m with zero counters terminates with every unscoped buffer at the last valuation. All of it at any float
  instance; the third pallas_call's body obligation is a hypothesis.
-/
import proofs.«420902_j59081570124588_3_alg».proof.Proof.Gen.KernelIdeal.Launch
import proofs.«420902_j59081570124588_3_alg».proof.Proof.Gen.KernelIdeal.Skeleton
import proofs.«420902_j59081570124588_3_alg».proof.Proof.Gen.KernelIdeal.Points
import proofs.«420902_j59081570124588_3_alg».proof.Proof.Gen.KernelIdeal.Regions
import proofs.«420902_j59081570124588_3_alg».proof.Proof.Halves
import proofs.«420902_j59081570124588_3_alg».proof.Proof.KernelIdeal.Reg0
import proofs.«420902_j59081570124588_3_alg».proof.Proof.KernelIdeal.Reg1
import proofs.«420902_j59081570124588_3_alg».proof.Proof.KernelIdeal.Reg2Defs
import proofs.«420902_j59081570124588_3_alg».proof.Proof.KernelIdeal.Share1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Shares

variable {F : FTy → Type} [FloatOps F]

local notation "𝕄" => MT nD τ sig Unit (Elt F) ℕ (UR sig nD τ) ℕ

/-! ## What rides beside the buffers -/

/-- No core owes another anything: no level is assigned. -/
abbrev L : GSem nD τ sig → Finset Unit := fun _ => ∅
abbrev lv : GSem nD τ sig → Unit → ℕ := fun _ _ => 0
/-- Beside the buffers a core keeps, through every item, its generator register at some state and its debts, none. -/
abbrev R (c : Dev nD) : sProp 𝕄 := iprop((∃ r, prngReg c r) ∗ ∃ W, owes (c : Thread nD τ) (0 : CellTallies nD τ sig Unit) W)
/-- The same between any two items. -/
abbrev E : Fin 4 → Dev nD → sProp 𝕄 := fun _ c => R c

/-! ## The buffers' contents, item by item

Each pallas_call changes one array, its output; each host stretch changes what its operations write. The contents
between items are therefore a fold from the launch memory: a host stretch's effect on the valuation before it, then the
output array of the pallas_call replaced by the write-backs of its grid points taken in order. -/

variable (m : (ℓ : Loc nD τ sig) → Buf (Elt F) ℓ)

/-- The buffers the first pallas_call is entered from: the launch memory after the first host stretch. -/
abbrev U1 : (c : Dev nD) → (b : Ref sig .tc) → Buf (Elt F) ((c : Thread nD τ).loc b) := fun c b => Gen.V1 m c b

/-- What the first pallas_call leaves in its output array: its four blocks' write-backs, in order. -/
def o0 (c : Dev nD) : Buf (Elt F) ((c : Thread nD τ).loc main_v27) := (dat0 (U1 m) c).arrAt 3 cfg0.N

/-- After the first pallas_call: its output array at o0, every other buffer as entered. -/
abbrev W2 (c : Dev nD) : Valuation τ sig (Elt F) := Function.update (Gen.V1 m c) main_v27 (o0 m c)
/-- After the second host stretch. -/
abbrev W3 (c : Dev nD) : Valuation τ sig (Elt F) := StableHlo.after hostOps1 (W2 m c)
/-- The buffers the second pallas_call is entered from. -/
abbrev U3 : (c : Dev nD) → (b : Ref sig .tc) → Buf (Elt F) ((c : Thread nD τ).loc b) := fun c b => W3 m c b

/-- What the second pallas_call leaves in its output array: its eight blocks' write-backs, in order. -/
def o1 (c : Dev nD) : Buf (Elt F) ((c : Thread nD τ).loc main_v32) := (dat1 (U3 m) c).arrAt 7 cfg1.N

/-- After the second pallas_call: its output array at o1, every other buffer as entered. -/
abbrev W4 (c : Dev nD) : Valuation τ sig (Elt F) := Function.update (W3 m c) main_v32 (o1 m c)
/-- After the third host stretch. -/
abbrev W5 (c : Dev nD) : Valuation τ sig (Elt F) := StableHlo.after hostOps2 (W4 m c)
/-- The buffers the third pallas_call is entered from. -/
abbrev U5 : (c : Dev nD) → (b : Ref sig .tc) → Buf (Elt F) ((c : Thread nD τ).loc b) := fun c b => W5 m c b

/-- What the third pallas_call leaves in its output array: its twenty-five blocks' write-backs, in order, the last
    one cut at the array's end. -/
def o2 (c : Dev nD) : Buf (Elt F) ((c : Thread nD τ).loc main_v34) := (dat2 (U5 m) c).arrAt 3 cfg2.N

/-- What the three pallas_calls leave in the arrays they write, at whichever item it is asked; any other array is never
    asked for and is given its launch contents. -/
def outs : Gen.Outs (F := F) := fun _ r c =>
  if h0 : r = main_v27 then h0 ▸ o0 m c
  else if h1 : r = main_v32 then h1 ▸ o1 m c
  else if h2 : r = main_v34 then h2 ▸ o2 m c
  else m ((c : Thread nD τ).loc r)

theorem outs_v27 (j : ℕ) (c : Dev nD) : outs m j main_v27 c = o0 m c := by
  unfold outs; rw [dif_pos rfl]
theorem outs_v32 (j : ℕ) (c : Dev nD) : outs m j main_v32 c = o1 m c := by
  unfold outs; rw [dif_neg (by decide), dif_pos rfl]
theorem outs_v34 (j : ℕ) (c : Dev nD) : outs m j main_v34 c = o2 m c := by
  unfold outs; rw [dif_neg (by decide), dif_neg (by decide), dif_pos rfl]

/-! With these the valuations written over the unknown contents are the fold above. -/

theorem V2_eq (c : Dev nD) : Gen.V2 m (outs m) c = W2 m c := by
  show Function.update (Gen.V1 m c) main_v27 (outs m 2 main_v27 c) = _
  rw [outs_v27]
theorem V3_eq (c : Dev nD) : Gen.V3 m (outs m) c = W3 m c := by
  show StableHlo.after hostOps1 (Gen.V2 m (outs m) c) = _
  rw [V2_eq]
theorem V4_eq (c : Dev nD) : Gen.V4 m (outs m) c = W4 m c := by
  show Function.update (Gen.V3 m (outs m) c) main_v32 (outs m 4 main_v32 c) = _
  rw [V3_eq, outs_v32]
theorem V5_eq (c : Dev nD) : Gen.V5 m (outs m) c = W5 m c := by
  show StableHlo.after hostOps2 (Gen.V4 m (outs m) c) = _
  rw [V4_eq]
theorem U3_eq : (fun (c : Dev nD) (b : Ref sig .tc) => Gen.V3 m (outs m) c b) = U3 m :=
  funext fun c => funext fun b => congrFun (V3_eq m c) _
theorem U5_eq : (fun (c : Dev nD) (b : Ref sig .tc) => Gen.V5 m (outs m) c b) = U5 m :=
  funext fun c => funext fun b => congrFun (V5_eq m c) _

/-! ## The proof data of the three pipelines, each at the contents its pallas_call is entered from -/

def pdats : (p : Fin 3) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V3 m (outs m) c b) c
  | ⟨2, _⟩ => fun c => dat2 (fun c b => Gen.V5 m (outs m) c b) c

/-! ## What each pallas_call's arrays hold when it is left -/

/-- The first pallas_call's arrays when it is left. An input window's array is never written back, so it holds what it held at entry, which the valuation after the pallas_call keeps since only the output array is replaced there; the output array holds the fold of its write-backs, which is what that valuation has at it. -/
theorem hF0_in (c : Dev nD) (w : Fin cfg0.W) (hin : (cfg0.win w).isOut = false)
    (hne : Pipeline.arrRef spec0 w ∉ ([main_v27] : List (Ref sig .tc))) :
    (dat0 (fun c b => Gen.V1 m c b) c).arrAt w cfg0.N = Gen.V2 m (outs m) c (Pipeline.arrRef spec0 w) :=
  ((dat0 (fun c b => Gen.V1 m c b) c).arrAt_in w hin _).trans (Gen.V2_of m (outs m) c (Pipeline.arrRef spec0 w) hne).symm
theorem hF0_out (c : Dev nD) : (dat0 (fun c b => Gen.V1 m c b) c).arrAt 3 cfg0.N = Gen.V2 m (outs m) c main_v27 :=
  ((outs_v27 m 2 c).symm.trans
      (Function.update_self (Proc.devRef (τ := τ) .tc main_v27) (outs m 2 main_v27 c) (Gen.V1 m c)).symm)
theorem hF0 (c : Dev nD) : ∀ w : Fin cfg0.W,
    (dat0 (fun c b => Gen.V1 m c b) c).arrAt w cfg0.N = Gen.V2 m (outs m) c (Pipeline.arrRef spec0 w)
  | 0 => hF0_in m c 0 rfl (by decide)
  | 1 => hF0_in m c 1 rfl (by decide)
  | 2 => hF0_in m c 2 rfl (by decide)
  | 3 => hF0_out m c
  | ⟨_ + 4, h⟩ => absurd h (Nat.not_lt.2 (Nat.le_add_left _ _))

theorem hrest0 (c : Dev nD) (b : Ref sig .tc) (hb : b ∉ Finset.univ.image (Pipeline.arrRef spec0)) :
    Gen.V2 m (outs m) c b = Gen.V1 m c b :=
  Gen.V2_of m (outs m) c b fun h => hb (by
    rw [List.mem_singleton] at h; rw [h]; exact Finset.mem_image.mpr ⟨3, Finset.mem_univ _, rfl⟩)

/-- The second pallas_call's arrays when it is left, likewise. -/
theorem hF1_in (c : Dev nD) (w : Fin cfg1.W) (hin : (cfg1.win w).isOut = false)
    (hne : Pipeline.arrRef spec1 w ∉ ([main_v32] : List (Ref sig .tc))) :
    (dat1 (fun c b => Gen.V3 m (outs m) c b) c).arrAt w cfg1.N = Gen.V4 m (outs m) c (Pipeline.arrRef spec1 w) :=
  ((dat1 (fun c b => Gen.V3 m (outs m) c b) c).arrAt_in w hin _).trans (Gen.V4_of m (outs m) c (Pipeline.arrRef spec1 w) hne).symm
theorem hF1_out (c : Dev nD) : (dat1 (fun c b => Gen.V3 m (outs m) c b) c).arrAt 7 cfg1.N = Gen.V4 m (outs m) c main_v32 :=
  (congrArg (fun V => (dat1 V c).arrAt 7 cfg1.N) (U3_eq m)).trans
    ((outs_v32 m 4 c).symm.trans
      (Function.update_self (Proc.devRef (τ := τ) .tc main_v32) (outs m 4 main_v32 c) (Gen.V3 m (outs m) c)).symm)
theorem hF1 (c : Dev nD) : ∀ w : Fin cfg1.W,
    (dat1 (fun c b => Gen.V3 m (outs m) c b) c).arrAt w cfg1.N = Gen.V4 m (outs m) c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => hF1_in m c 6 rfl (by decide)
  | 7 => hF1_out m c
  | ⟨_ + 8, h⟩ => absurd h (Nat.not_lt.2 (Nat.le_add_left _ _))

theorem hrest1 (c : Dev nD) (b : Ref sig .tc) (hb : b ∉ Finset.univ.image (Pipeline.arrRef spec1)) :
    Gen.V4 m (outs m) c b = Gen.V3 m (outs m) c b :=
  Gen.V4_of m (outs m) c b fun h => hb (by
    rw [List.mem_singleton] at h; rw [h]; exact Finset.mem_image.mpr ⟨7, Finset.mem_univ _, rfl⟩)

/-- The third pallas_call's arrays when it is left, likewise. -/
theorem hF2_in (c : Dev nD) (w : Fin cfg2.W) (hin : (cfg2.win w).isOut = false)
    (hne : Pipeline.arrRef spec2 w ∉ ([main_v34] : List (Ref sig .tc))) :
    (dat2 (fun c b => Gen.V5 m (outs m) c b) c).arrAt w cfg2.N = Gen.V6 m (outs m) c (Pipeline.arrRef spec2 w) :=
  ((dat2 (fun c b => Gen.V5 m (outs m) c b) c).arrAt_in w hin _).trans (Gen.V6_of m (outs m) c (Pipeline.arrRef spec2 w) hne).symm
theorem hF2_out (c : Dev nD) : (dat2 (fun c b => Gen.V5 m (outs m) c b) c).arrAt 3 cfg2.N = Gen.V6 m (outs m) c main_v34 :=
  (congrArg (fun V => (dat2 V c).arrAt 3 cfg2.N) (U5_eq m)).trans
    ((outs_v34 m 6 c).symm.trans
      (Function.update_self (Proc.devRef (τ := τ) .tc main_v34) (outs m 6 main_v34 c) (Gen.V5 m (outs m) c)).symm)
theorem hF2 (c : Dev nD) : ∀ w : Fin cfg2.W,
    (dat2 (fun c b => Gen.V5 m (outs m) c b) c).arrAt w cfg2.N = Gen.V6 m (outs m) c (Pipeline.arrRef spec2 w)
  | 0 => hF2_in m c 0 rfl (by decide)
  | 1 => hF2_in m c 1 rfl (by decide)
  | 2 => hF2_in m c 2 rfl (by decide)
  | 3 => hF2_out m c
  | ⟨_ + 4, h⟩ => absurd h (Nat.not_lt.2 (Nat.le_add_left _ _))

theorem hrest2 (c : Dev nD) (b : Ref sig .tc) (hb : b ∉ Finset.univ.image (Pipeline.arrRef spec2)) :
    Gen.V6 m (outs m) c b = Gen.V5 m (outs m) c b :=
  Gen.V6_of m (outs m) c b fun h => hb (by
    rw [List.mem_singleton] at h; rw [h]; exact Finset.mem_image.mpr ⟨3, Finset.mem_univ _, rfl⟩)

/-- The shares the second pallas_call's proof data holds its arrays at: the hidden vector's two windows a half each,
    every other window the whole. -/
theorem share1_1 (c : Dev nD) : (dat1 (fun c b => Gen.V3 m (outs m) c b) c).share 1 = lh := rfl
theorem share1_2 (c : Dev nD) : (dat1 (fun c b => Gen.V3 m (outs m) c b) c).share 2 = rh := rfl
theorem share1_full (c : Dev nD) : ∀ w : Fin cfg1.W, w ≠ 1 → w ≠ 2 → (dat1 (fun c b => Gen.V3 m (outs m) c b) c).share w = fullShare
  | 0 => fun _ _ => rfl | 1 => fun h _ => absurd rfl h | 2 => fun _ h => absurd rfl h | 3 => fun _ _ => rfl
  | 4 => fun _ _ => rfl | 5 => fun _ _ => rfl | 6 => fun _ _ => rfl | 7 => fun _ _ => rfl
  | ⟨_ + 8, h⟩ => absurd h (Nat.not_lt.2 (Nat.le_add_left _ _))

/-! ## The pallas_calls as items of the run -/

set_option backward.isDefEq.respectTransparency.types false in
/-- The first pallas_call as an item: entered with every unscoped buffer at the contents after the first host stretch,
    left with its output array at o0 and every other buffer as entered. Its four arrays are distinct buffers, split out
    of the unscoped buffers at entry and put back at exit; the generator register goes into the region's invariant and
    comes back; nothing is owed. -/
def reg0 : RegionSeg (pcfgs (F := F)) Gen.adm (pdats m) () defs₀ Variants.none L lv 0 where
  win := Gen.launch0.win.to₀
  block_pos := Gen.launch0.block_pos
  stage_whole := Gen.launch0.stage_whole
  K := PEmpty
  osem k := k.elim
  ho := Pipeline.OwnSemFacts.none _
  hbody c := (body_obligation0 (fun c b => Gen.V1 m c b) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (fun b => Gen.V1 m c b) fun _ => rfl
    rw [Pipeline.unscopedBufs_held c (Gen.V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held c (Gen.V2 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second pallas_call as an item: entered with every unscoped buffer at the contents after the second host stretch,
    left with its output array at o1 and every other buffer as entered. Its eight windows stand on seven buffers: the
    hidden vector's buffer is split into two halves at entry, one for each of its two windows, and the halves are joined
    at exit. -/
def reg1 : RegionSeg (pcfgs (F := F)) Gen.adm (pdats m) () defs₀ Variants.none L lv 1 where
  win := Gen.winFacts₀1
  block_pos := Gen.block_pos1
  stage_whole := Gen.stage_whole1
  K := PEmpty
  osem k := k.elim
  ho := Pipeline.OwnSemFacts.none _
  hbody c := (body_obligation1 (fun c b => Gen.V3 m (outs m) c b) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := arrays_of_unscopedBufs1 c (dat1 (fun c b => Gen.V3 m (outs m) c b) c) (share1_1 m c) (share1_2 m c) (share1_full m c)
      (fun b => Gen.V3 m (outs m) c b) ((dat1 (fun c b => Gen.V3 m (outs m) c b) c).arrAt · 0) (fun w => A_eq1 _ c w)
    rw [Pipeline.unscopedBufs_held c (Gen.V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (dat1 (fun c b => Gen.V3 m (outs m) c b) c) (share1_1 m c) (share1_2 m c) (share1_full m c)
      (fun b => Gen.V3 m (outs m) c b) (fun b => Gen.V4 m (outs m) c b) ((dat1 (fun c b => Gen.V3 m (outs m) c b) c).arrAt · cfg1.N)
      (hF1 m c) (hrest1 m c)
    rw [Pipeline.unscopedBufs_held c (Gen.V4 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third pallas_call as an item, given its body obligation: entered with every unscoped buffer at the contents
    after the third host stretch, left with its output array at o2 and every other buffer as entered. Its four arrays
    are distinct buffers. -/
def reg2 (hb2 : ∀ c : Dev nD, Pipeline.BodyObligationLoose (dat2 (fun c b => Gen.V5 m (outs m) c b) c) (defs₀ (F := F)) Variants.none () Set.univ) :
    RegionSeg (pcfgs (F := F)) Gen.adm (pdats m) () defs₀ Variants.none L lv 2 where
  win := Gen.launch2.win.to₀
  block_pos := Gen.launch2.block_pos
  stage_whole := Gen.launch2.stage_whole
  K := PEmpty
  osem k := k.elim
  ho := Pipeline.OwnSemFacts.none _
  hbody c := hb2 c
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.arrays_of_unscopedBufs (p := 2) (pcfgs (F := F)) Gen.adm (pdats m) Gen.launch2.win Gen.launch2.arr_whole c
      ((pdats m 2 c).share_full fun _ => rfl) (fun b => Gen.V5 m (outs m) c b) fun _ => rfl
    rw [Pipeline.unscopedBufs_held c (Gen.V5 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (fun b => Gen.V5 m (outs m) c b) (fun b => Gen.V6 m (outs m) c b) ((pdats m 2 c).arrAt · cfg2.N) (hF2 m c) (hrest2 m c)
    rw [Pipeline.unscopedBufs_held c (Gen.V6 m (outs m) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- The run, given the three pallas_calls as items entered from and left at the valuations written over any contents
    outs of their output arrays: every weakly fair execution from memory m with zero counters terminates, and every
    unscoped buffer of every core ends at the last valuation. -/
theorem run_cond (ρ : Dev nD → PrngReg) (outs : Gen.Outs (F := F))
    (pdats : (p : Fin 3) → (c : Dev nD) → Dat τ (Elt F) Unit ℕ (UR sig nD τ) ℕ (cfgs p) c)
    (R0 : RegionSeg (pcfgs (F := F)) Gen.adm pdats () defs₀ Variants.none L lv 0)
    (hpre0 : ∀ c : Dev nD, iprop(StableHlo.held (c : Thread nD τ) (Pipeline.ucRefs τ sig) (Gen.V1 m c) ∗ E (F := F) 0 c) ⊢ R0.pre c)
    (hpost0 : ∀ c : Dev nD, R0.post c ⊢ iprop(StableHlo.held (c : Thread nD τ) (Pipeline.ucRefs τ sig) (Gen.V2 m outs c) ∗ E (F := F) 1 c))
    (R1 : RegionSeg (pcfgs (F := F)) Gen.adm pdats () defs₀ Variants.none L lv 1)
    (hpre1 : ∀ c : Dev nD, iprop(StableHlo.held (c : Thread nD τ) (Pipeline.ucRefs τ sig) (Gen.V3 m outs c) ∗ E (F := F) 1 c) ⊢ R1.pre c)
    (hpost1 : ∀ c : Dev nD, R1.post c ⊢ iprop(StableHlo.held (c : Thread nD τ) (Pipeline.ucRefs τ sig) (Gen.V4 m outs c) ∗ E (F := F) 2 c))
    (R2 : RegionSeg (pcfgs (F := F)) Gen.adm pdats () defs₀ Variants.none L lv 2)
    (hpre2 : ∀ c : Dev nD, iprop(StableHlo.held (c : Thread nD τ) (Pipeline.ucRefs τ sig) (Gen.V5 m outs c) ∗ E (F := F) 2 c) ⊢ R2.pre c)
    (hpost2 : ∀ c : Dev nD, R2.post c ⊢ iprop(StableHlo.held (c : Thread nD τ) (Pipeline.ucRefs τ sig) (Gen.V6 m outs c) ∗ E (F := F) 3 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m outs c b) := by
  refine Pipeline.θ_run_regions_kit_dev (pcfgs (F := F)) Gen.adm pdats () cellOf_inj emb₁ defs₀ Variants.none L lv m ρ main
    (Gen.segs m outs Variants.none L lv (E (F := F)) () pdats R0 R1 R2)
    (fun c Q => by
      rewrite [main_chain c, Seg.run_eq_chain,
        show (Gen.segs m outs Variants.none L lv (E (F := F)) () pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => iprop(StableHlo.held (c : Thread nD τ) (Pipeline.ucRefs τ sig) (Gen.V8 m outs c) ∗ ∃ r, prngReg c r))
    (hch := fun c => ⟨.rfl, hpre0 c, hpost0 c, hpre1 c, hpost1 c, hpre2 c, hpost2 c, .rfl, by
      show iprop(StableHlo.held (c : Thread nD τ) (Pipeline.ucRefs τ sig) (Gen.V8 m outs c) ∗ E (F := F) 3 c)
        ⊢ iprop((StableHlo.held (c : Thread nD τ) (Pipeline.ucRefs τ sig) (Gen.V8 m outs c) ∗ ∃ r, prngReg c r)
            ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m outs c) s')
      isplitl [Hh] <;> iassumption)
    (hQ := fun s h => h)

/-- THE RUN. Given the third pallas_call's body obligation, every weakly fair execution of the decoder step from memory
    m with zero counters terminates, and every unscoped buffer of every core ends at the last valuation of the fold,
    with o0, o1, o2 the three pallas_calls' output arrays. -/
theorem run_vals (hb2 : ∀ c : Dev nD, Pipeline.BodyObligationLoose (dat2 (fun c b => Gen.V5 m (outs m) c b) c) (defs₀ (F := F)) Variants.none () Set.univ)
    (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) :=
  run_cond m ρ (outs m) (pdats m) (reg0 m) (fun _ => .rfl) (fun _ => .rfl) (reg1 m) (fun _ => .rfl) (fun _ => .rfl)
    (reg2 m hb2) (fun _ => .rfl) (fun _ => .rfl)

end Cert.KernelIdeal.Reg

end
-- ==== Proof.KernelIdeal.Reg2.lean ====
/-
  The third pallas_call, the output projection h · Wᵗ + b over the 50257 vocabulary rows in 25 blocks of 2048, whose last
  block reaches 943 rows past the arrays' end. Stated here at any buffer contents V the region is entered from and at any
  float instance: what each input's staging buffer holds when the body runs at a point (the vector's whole block; the
  weights' and the bias's block on the part inside the array and anything past it), the body's Hoare triple at any
  contents of the three inputs, and the pipeline's body obligation with the output window forgotten, which says
  nothing of what the product makes of the rows past the arrays' end.
-/
import proofs.«420902_j59081570124588_3_alg».proof.Proof.KernelIdeal.Reg2Defs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the inputs' buffers -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = zblk2_0 V c t := by dsimp only [dat2]
theorem after2_1 (c : Dev nD) (t : Fin cfg2.N) : (dat2 V c).after 1 t = zblk2_1 V c t := by dsimp only [dat2]
theorem after2_2 (c : Dev nD) (t : Fin cfg2.N) : (dat2 V c).after 2 t = zblk2_2 V c t := by dsimp only [dat2]
theorem after2_3 (c : Dev nD) (t : Fin cfg2.N) :
    (dat2 V c).after 3 t = out2_3 (zblk2_0 V c t) (zblk2_1 V c t) (zblk2_2 V c t) := by dsimp only [dat2]

/-- The weights' and the bias's windows are fetched at every point: the buffer holds the block's part inside the array
    on its leading part and, past the array's end, whatever d the overwrite before the fetch left. -/
theorem before2_1_of {c : Dev nD} (dat : Dat τ (Elt F) Unit ℕ (UR sig nD τ) ℕ cfg2 c) (hA : dat.A 1 = V c (Pipeline.arrRef spec2 1))
    (t : Fin cfg2.N) (d) : dat.before 1 t d = win2_1.fill (grid2.coords t) d (iblk2 V c 1 t) := by
  unfold Dat.before; rw [if_pos (fetch2_1 t)]
  unfold Dat.fetched Dat.blockOf iblk2; rw [hA]; try rfl
theorem before2_2_of {c : Dev nD} (dat : Dat τ (Elt F) Unit ℕ (UR sig nD τ) ℕ cfg2 c) (hA : dat.A 2 = V c (Pipeline.arrRef spec2 2))
    (t : Fin cfg2.N) (d) : dat.before 2 t d = win2_2.fill (grid2.coords t) d (iblk2 V c 2 t) := by
  unfold Dat.before; rw [if_pos (fetch2_2 t)]
  unfold Dat.fetched Dat.blockOf iblk2; rw [hA]; try rfl

/-- The vector's window is fetched at the first point only and never cut: its buffer holds the whole block at every
    point, whatever it held before the fetch. -/
theorem before2_0_of {c : Dev nD} (dat : Dat τ (Elt F) Unit ℕ (UR sig nD τ) ℕ cfg2 c) (hA : dat.A 0 = V c (Pipeline.arrRef spec2 0))
    (hafter : ∀ t, dat.after 0 t = zblk2_0 V c t) (t : Fin cfg2.N) (d) : dat.before 0 t d = zblk2_0 V c t :=
  ((dat.before_in_eq_fetched 0 rfl (fun _ => rfl) (fun _ _ _ => rfl)
      (fun t => by rw [hafter]; unfold zblk2_0; rw [Window.cut_fill]; unfold Dat.blockOf iblk2; rw [hA]; try rfl) t d).trans
    (dat.fetched_of_clip_none 0 t (fun _ => rfl) d (fun _ => Scalar.ofBits .f32 0#32))).trans
    (by unfold Dat.fetched Dat.blockOf zblk2_0 iblk2; rw [hA]; try rfl)

theorem before2_0 (c : Dev nD) (t : Fin cfg2.N) (d) : (dat2 V c).before 0 t d = zblk2_0 V c t :=
  before2_0_of V (dat2 V c) (A_eq2 V c 0) (after2_0 V c) t d
theorem before2_1 (c : Dev nD) (t : Fin cfg2.N) (d) :
    (dat2 V c).before 1 t d = win2_1.fill (grid2.coords t) d (iblk2 V c 1 t) :=
  before2_1_of V (dat2 V c) (A_eq2 V c 1) t d
theorem before2_2 (c : Dev nD) (t : Fin cfg2.N) (d) :
    (dat2 V c).before 2 t d = win2_2.fill (grid2.coords t) d (iblk2 V c 2 t) :=
  before2_2_of V (dat2 V c) (A_eq2 V c 2) t d

/-! ## The body's triple -/

/-- The one store covers the output buffer. -/
theorem cover2_3 (p0 : Vec F S1x2048 .f32) (y : S1x2048.Idx) :
    ∃ pc ∈ ([⟨r2_a, p0⟩] : List (View.Piece (Elt F) S1x2048 .f32)), y ∈ pc.1.set :=
  View.cover_of_tiled [⟨r2_a, p0⟩] S1x2048.size (by rfl) y

set_option maxHeartbeats 1000000 in
/-- The body on whole staging memrefs, the inputs' at any contents and the output's at anything, runs to the continuation
    holding the inputs' as they were and the output's at out2_3 of the inputs'. -/
theorem sound_kernel2 (c : Dev nD) (E : Set ℕ) (i : grid2.Coords)
    (arg1 : Memref sig .tc .vmem S1x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__vecmat_kernel i arg1 harg1 arg2 harg2 arg3 harg3 arg4 harg4) K := by
  simp only [cc2__vecmat_kernel_eq_skeleton]; unfold cc2__vecmat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The same at a grid point's current staging memrefs. -/
theorem sound_body2 (c : Dev nD) (t : Fin cfg2.N)
    (x0 : Vec F S1x2048 .f32) (x1 : Vec F S2048x2048 .f32) (x2 : Vec F S1x2048 .f32) (K : PUnit → sProp 𝕄) :
    iprop(owns (c : Thread nD τ) (st2_0 t) fullShare x0 ∗ owns (c : Thread nD τ) (st2_1 t) fullShare x1 ∗ owns (c : Thread nD τ) (st2_2 t) fullShare x2
        ∗ (∃ d, owns (c : Thread nD τ) (st2_3 t) fullShare d)
        ∗ (iprop(owns (c : Thread nD τ) (st2_0 t) fullShare x0 ∗ owns (c : Thread nD τ) (st2_1 t) fullShare x1 ∗ owns (c : Thread nD τ) (st2_2 t) fullShare x2
            ∗ owns (c : Thread nD τ) (st2_3 t) fullShare (out2_3 x0 x1 x2)) -∗ K ⟨⟩))
      ⊢ wp frame (wpE (defs₀ (F := F)) Variants.none c none) Set.univ (defs₀ .tc cfg2.body (cfg2.bodyArgs t (cfg2.slots t))) K :=
  sound_kernel2 c Set.univ (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) x0 x1 x2 K

/-! ## The body obligation with the output window forgotten -/

theorem fgt2_0 : fgt2 0 = false := rfl
theorem fgt2_1 : fgt2 1 = false := rfl
theorem fgt2_2 : fgt2 2 = false := rfl
theorem fgt2_3 : fgt2 3 = true := rfl

/-- At every point the body, handed the vector's buffer at its block, the weights' and the bias's just fetched (the block's
    part inside the array, anything past it) and the output's at anything, hands the three inputs back as they were, which
    on the part inside the arrays is what the proof data names, and the output's at what it stored, of which nothing is
    said. -/
theorem body_obligation2_fgt (c : Dev nD) :
    BodyObligationLoose (dat2 (F := F) V c) (defs₀ (F := F)) Variants.none () Set.univ fgt2 := fun t => by
  rw [bigSep_W2, bigSep_W2]
  simp only [fgt2_0, fgt2_1, fgt2_2, fgt2_3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_body2 (F := F) c t (zblk2_0 V c t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win2_1.cut (grid2.coords t) (zblk2_1 V c t) = iblk2 V c 1 t := win2_1.cut_fill _ _ _
  have h2 : win2_2.cut (grid2.coords t) (zblk2_2 V c t) = iblk2 V c 2 t := win2_2.cut_fill _ _ _
  isplitl [H0]
  · rw [after2_0]; iexact H0
  isplitl [H1]
  · iexists d1
    rw [after2_1]
    change _ ⊢ owns (c : Thread nD τ) (st2_1 t) fullShare (win2_1.fill (grid2.coords t) d1 (win2_1.cut (grid2.coords t) (zblk2_1 V c t)))
    rw [h1]; try iexact H1
  isplitl [H2]
  · iexists d2
    rw [after2_2]
    change _ ⊢ owns (c : Thread nD τ) (st2_2 t) fullShare (win2_2.fill (grid2.coords t) d2 (win2_2.cut (grid2.coords t) (zblk2_2 V c t)))
    rw [h2]; try iexact H2
  · iexists _; iexact H3

end Cert.KernelIdeal.Reg

end
-- ==== Proof.KernelIdeal.Reg2Ideal.lean ====
/-
  The third pallas_call at the extended reals, nothing forgotten. Lane j of what the body stores is Σₖ h[k]·W[j,k] + b[j]:
  it reads row j of the weight block and lane j of the bias block and no other row or lane of them. A lane of the output
  block that lies inside the result array has its weight row and its bias lane inside their arrays too (the three windows
  are cut at the same vocabulary row), where the staging buffers hold the arrays' words whatever they hold past the arrays'
  end. So on the lanes inside the array the stored block is the one the proof data names, computed from the blocks filled
  out with the zero word; past it the body obligation asks nothing.
-/
import proofs.«420902_j59081570124588_3_alg».proof.Proof.KernelIdeal.Reg2
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The stored block is the payload -/

/-- One whole store of the payload computed from whole loads leaves the payload of the buffers' contents. -/
theorem out2_3_eq {F : FTy → Type} [FloatOps F] (x0 : Vec F S1x2048 .f32) (x1 : Vec F S2048x2048 .f32) (x2 : Vec F S1x2048 .f32) :
    out2_3 x0 x1 x2 = k2_pay1 x0 x1 x2 := by
  have hz : (![0, 0] : Fin 2 → Nat) = fun _ => 0 := funext fun a => by fin_cases a <;> rfl
  unfold out2_3
  rw [View.canon_unit_zero hz, View.ld_unit_zero hz, View.ld_unit_zero hz, View.ld_unit_zero hz]

/-! ## A lane of the payload reads one row of the weights and one lane of the bias -/

open Idealize.ShloMosaic.ValueIdx in
/-- At the extended reals lane j of the payload is Σₖ h[k]·W[j,k] + b[j]: it reads the vector, row j of the weight block and
    lane j of the bias block, so two weight blocks that agree on row j and two bias blocks that agree at lane j give it one
    value. -/
theorem k2_pay1_congr (x0 : Vec Ideal S1x2048 .f32) (x1 x1' : Vec Ideal S2048x2048 .f32) (x2 x2' : Vec Ideal S1x2048 .f32)
    (j : S1x2048.Idx) (h1 : ∀ k : S2048x2048.Idx, (k 0).val = (j 1).val → x1 k = x1' k) (h2 : x2 j = x2' j) :
    k2_pay1 x0 x1 x2 j = k2_pay1 x0 x1' x2' j := by
  unfold k2_pay1
  simp only [shapeCast_self]
  rw [addf_apply, addf_apply, h2]
  congr 1
  show FloatOps.matmul _ _ _ _ (constant S1x2048 .f32 0x00000000#32) j = FloatOps.matmul _ _ _ _ (constant S1x2048 .f32 0x00000000#32) j
  rw [Ideal.matmul_constant_zero_apply, Ideal.matmul_constant_zero_apply]
  refine Finset.sum_congr rfl fun k _ => ?_
  congr 1
  -- the transposed weight block at the dot's right index (k, j) is the block at (j, k)
  have e : ∀ y : FVec Ideal S2048x2048 .f32,
      transpose S2048x2048 [1, 0] (truncf (F := Ideal) FTy.bf16 y bitsLt_bf16_f32) transposes_S2048x2048_p1_0_S2048x2048
          (dot_S1x2048_S2048x2048_S1x2048_1_0_0_1_n_n.rhsIdx j k)
        = truncf (F := Ideal) FTy.bf16 y bitsLt_bf16_f32 (ix2 (n0 := 2048) (n1 := 2048) (dot_S1x2048_S2048x2048_S1x2048_1_0_0_1_n_n.rhsIdx j k 1) (dot_S1x2048_S2048x2048_S1x2048_1_0_0_1_n_n.rhsIdx j k 0)) := fun y =>
    transpose_apply [1, 0] (truncf (F := Ideal) FTy.bf16 y bitsLt_bf16_f32) transposes_S2048x2048_p1_0_S2048x2048 _ _
      (fun b => match b with | ⟨0, _⟩ => rfl | ⟨1, _⟩ => rfl)
  rw [e x1, e x1', truncf_apply, truncf_apply]
  exact h1 _ rfl

/-! ## The lanes inside the result array -/

/-- On the lanes of the output block inside the result array, what the body stores does not depend on what the weights' and
    the bias's buffers hold past their arrays' end: lane j reads row j of the weights' buffer and lane j of the bias's, and
    for j inside the result array both are inside theirs, where a filled block is the block whatever fills it. -/
theorem cut_out2_3 (t : Fin cfg2.N) (x0 : Vec Ideal S1x2048 .f32)
    (d1 d1' : S2048x2048.Idx → Elt Ideal .f32) (B1 : (win2_1.xblock (grid2.coords t)).Idx → Elt Ideal .f32)
    (d2 d2' : S1x2048.Idx → Elt Ideal .f32) (B2 : (win2_2.xblock (grid2.coords t)).Idx → Elt Ideal .f32) :
    win2_3.cut (grid2.coords t) (out2_3 x0 (win2_1.fill (grid2.coords t) d1 B1) (win2_2.fill (grid2.coords t) d2 B2))
      = win2_3.cut (grid2.coords t) (out2_3 x0 (win2_1.fill (grid2.coords t) d1' B1) (win2_2.fill (grid2.coords t) d2' B2)) := by
  funext j
  show out2_3 _ _ _ (win2_3.xinj (grid2.coords t) j) = out2_3 _ _ _ (win2_3.xinj (grid2.coords t) j)
  rw [out2_3_eq, out2_3_eq]
  refine k2_pay1_congr _ _ _ _ _ _ (fun k hk => ?_) ?_
  · -- row j of the weights' buffer lies in the part the fetch filled
    have hm : win2_1.moved (grid2.coords t) k = true := (win2_1.moved_iff _ k).mpr fun a => match a with
      | ⟨0, _⟩ => by
        have hj : (j 1).val < win2_3.xsize (grid2.coords t) 1 := (j 1).isLt
        show (k 0).val < win2_1.xsize (grid2.coords t) 0
        rw [hk]; exact hj
      | ⟨1, _⟩ => by
        show (k 1).val < win2_1.xsize (grid2.coords t) 1
        exact (k 1).isLt
    unfold Window.fill; rw [dif_pos hm, dif_pos hm]
  · -- lane j of the bias's buffer likewise: the bias's window and the result's are cut alike
    have hm : win2_2.moved (grid2.coords t) (win2_3.xinj (grid2.coords t) j) = true := win2_3.moved_xinj _ j
    unfold Window.fill; rw [dif_pos hm, dif_pos hm]

/-! ## The body obligation, nothing forgotten -/

-- the TensorCore's buffer contents when the region is entered
variable (V : (c : Dev nD) → (b : Ref sig .tc) → Buf (Elt Ideal) ((c : Thread nD τ).loc b))

/-- At every point the body hands the inputs' buffers back as it found them and the output's at what it stored: on the lanes
    inside the result array the block the proof data names, whatever the inputs' buffers held past their arrays' end. -/
theorem body_obligation2_ideal (c : Dev nD) :
    BodyObligationLoose (dat2 (F := Ideal) V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_body2 (F := Ideal) c t (zblk2_0 V c t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win2_1.cut (grid2.coords t) (zblk2_1 V c t) = iblk2 V c 1 t := win2_1.cut_fill _ _ _
  have h2 : win2_2.cut (grid2.coords t) (zblk2_2 V c t) = iblk2 V c 2 t := win2_2.cut_fill _ _ _
  have h3 : win2_3.cut (grid2.coords t)
        (out2_3 (zblk2_0 V c t) (win2_1.fill (grid2.coords t) d1 (iblk2 V c 1 t)) (win2_2.fill (grid2.coords t) d2 (iblk2 V c 2 t)))
      = win2_3.cut (grid2.coords t) (out2_3 (zblk2_0 V c t) (zblk2_1 V c t) (zblk2_2 V c t)) := by
    unfold zblk2_1 zblk2_2
    exact cut_out2_3 t (zblk2_0 V c t) d1 _ (iblk2 V c 1 t) d2 _ (iblk2 V c 2 t)
  isplitl [H0]
  · rw [after2_0]; iexact H0
  isplitl [H1]
  · iexists d1
    rw [after2_1]
    change _ ⊢ owns (c : Thread nD τ) (st2_1 t) fullShare (win2_1.fill (grid2.coords t) d1 (win2_1.cut (grid2.coords t) (zblk2_1 V c t)))
    rw [h1]; try iexact H1
  isplitl [H2]
  · iexists d2
    rw [after2_2]
    change _ ⊢ owns (c : Thread nD τ) (st2_2 t) fullShare (win2_2.fill (grid2.coords t) d2 (win2_2.cut (grid2.coords t) (zblk2_2 V c t)))
    rw [h2]; try iexact H2
  · iexists (out2_3 (zblk2_0 V c t) (win2_1.fill (grid2.coords t) d1 (iblk2 V c 1 t)) (win2_2.fill (grid2.coords t) d2 (iblk2 V c 2 t)))
    rw [after2_3]
    change _ ⊢ owns (c : Thread nD τ) (st2_3 t) fullShare (win2_3.fill (grid2.coords t)
      (out2_3 (zblk2_0 V c t) (win2_1.fill (grid2.coords t) d1 (iblk2 V c 1 t)) (win2_2.fill (grid2.coords t) d2 (iblk2 V c 2 t)))
      (win2_3.cut (grid2.coords t) (out2_3 (zblk2_0 V c t) (zblk2_1 V c t) (zblk2_2 V c t))))
    rw [win2_3.fill_congr_cut (grid2.coords t) h3]; try iexact H3

end Cert.KernelIdeal.Reg

end
-- ==== Proof.KernelIdeal.RunIdeal.lean ====
/-
  The run of the decoder step at the extended reals: the third pallas_call's body obligation holds there, so every
  weakly fair execution from memory m with zero counters terminates with every unscoped buffer of every core at the
  last valuation of the fold, o0, o1, o2 being the three pallas_calls' output arrays.
-/
import proofs.«420902_j59081570124588_3_alg».proof.Proof.KernelIdeal.Run
import proofs.«420902_j59081570124588_3_alg».proof.Proof.KernelIdeal.Reg2Ideal
import Idealize.ShloMosaic.PureOps.Ideal

set_option maxRecDepth 16384

noncomputable section

namespace Cert.KernelIdeal.Reg

open Cert.KernelIdeal Cert.KernelIdeal.Gen
open Idealize.ShloMosaic Idealize.ShloMosaic.TcCoe
open Idealize.SL Idealize.SL.Sem

theorem run_vals_ideal (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = Gen.V8 m (outs m) c b) :=
  run_vals m (fun c => body_obligation2_ideal (fun c b => Gen.V5 m (outs m) c b) c) ρ

end Cert.KernelIdeal.Reg

end
-- ==== Proof.RefGen.lean ====
/- The reference program's run and its stage-by-stage reading, gathered under one name for the modules that compare it with the kernel. -/
import proofs.«420902_j59081570124588_3_alg».proof.Proof.RefRun
import proofs.«420902_j59081570124588_3_alg».proof.Proof.RefRead
-- ==== Proof.RefSplit.lean ====
/-
  The reference's 99 host operations cut into ten stretches at the values that later stretches read: the shared prefix up to the
  attention-weighted input of the combine layer (31 operations), the combine layer with its ReLU (7), the two gate
  projections (8), their six slices (6), the reset gate (9), the update gate (9), the candidate and the blend (9), the
  output projection (4), the log-softmax (15) and the returned hidden state (1). The fold of the whole list over a
  valuation is the ten folds composed.
-/
import proofs.«420902_j59081570124588_3_alg».proof.Proof.RefGen
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Operations 0 … 30 of the reference's @main. -/
abbrev S1 : List (HloOp τ sig (Elt F)) := ((ops (F := F)).drop 0).take 31
/-- Operations 31 … 37 of the reference's @main. -/
abbrev S2 : List (HloOp τ sig (Elt F)) := ((ops (F := F)).drop 31).take 7
/-- Operations 38 … 45 of the reference's @main. -/
abbrev S3 : List (HloOp τ sig (Elt F)) := ((ops (F := F)).drop 38).take 8
/-- Operations 46 … 51 of the reference's @main. -/
abbrev S4 : List (HloOp τ sig (Elt F)) := ((ops (F := F)).drop 46).take 6
/-- Operations 52 … 60 of the reference's @main. -/
abbrev S5 : List (HloOp τ sig (Elt F)) := ((ops (F := F)).drop 52).take 9
/-- Operations 61 … 69 of the reference's @main. -/
abbrev S6 : List (HloOp τ sig (Elt F)) := ((ops (F := F)).drop 61).take 9
/-- Operations 70 … 78 of the reference's @main. -/
abbrev S7 : List (HloOp τ sig (Elt F)) := ((ops (F := F)).drop 70).take 9
/-- Operations 79 … 82 of the reference's @main. -/
abbrev S8 : List (HloOp τ sig (Elt F)) := ((ops (F := F)).drop 79).take 4
/-- Operations 83 … 97 of the reference's @main. -/
abbrev S9 : List (HloOp τ sig (Elt F)) := ((ops (F := F)).drop 83).take 15
/-- Operations 98 … 98 of the reference's @main. -/
abbrev S10 : List (HloOp τ sig (Elt F)) := ((ops (F := F)).drop 98).take 1

/-- The list is its ten stretches in order. -/
theorem ops_split : (ops (F := F)) = S1 ++ (S2 ++ (S3 ++ (S4 ++ (S5 ++ (S6 ++ (S7 ++ (S8 ++ (S9 ++ S10)))))))) := rfl

/-- So its fold over a valuation is the ten folds composed. -/
theorem after_split (T : Valuation τ sig (Elt F)) :
    after (ops (F := F)) T
      = after S10 (after S9 (after S8 (after S7 (after S6 (after S5 (after S4 (after S3 (after S2 (after S1 T))))))))) := by
  rw [ops_split]
  simp only [StableHlo.after_append]

/-- No operation allocates a buffer. -/
theorem ops_fresh : (ops : List (HloOp τ sig (Elt F))).Forall fun op => op.fresh = ∅ := by
  simp only [List.Forall]; repeat' constructor

/-- Every weakly fair execution of the reference terminates with each buffer at the fold of the operations over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ op h => (List.forall_iff_forall_mem.mp ops_fresh) op h)

end Cert.ReferenceIdeal.Stages

end
-- ==== Proof.RefStage1.lean ====
/-
  The reference's first stretch (operations 0 … 30): the token index normalised into range, one embedding row gathered,
  the hidden state reshaped to a row, the two joined; the joined row's scores against the 25 encoder positions and
  their softmax (the attention weights); the attention-weighted sum of the encoder rows joined to the embedding row.
  Read from ANY valuation that holds the six arguments the stretch reads, in three cuts: up to the first joined row
  (eleven operations), from it to the attention weights (eighteen), and the last two. Each cut's result is the
  reference's own stage value of the arguments, given that the cut before left its stage values; a buffer a cut does
  not write keeps its contents. Also: the stretch changes none but the 31 buffers its operations write.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)}
  {x3 : (⟨S25x2048, .f32⟩ : BufTy).Contents (Elt F)} {x4 : (⟨S50257x2048, .f32⟩ : BufTy).Contents (Elt F)}
  {x5 : (⟨S25x4096, .f32⟩ : BufTy).Contents (Elt F)} {x6 : (⟨S25, .f32⟩ : BufTy).Contents (Elt F)}
  {x7 : (⟨S2048x4096, .f32⟩ : BufTy).Contents (Elt F)} {x8 : (⟨S2048, .f32⟩ : BufTy).Contents (Elt F)}
  {x9 : (⟨S6144x2048, .f32⟩ : BufTy).Contents (Elt F)} {x10 : (⟨S6144x2048, .f32⟩ : BufTy).Contents (Elt F)}
  {x11 : (⟨S6144, .f32⟩ : BufTy).Contents (Elt F)} {x12 : (⟨S6144, .f32⟩ : BufTy).Contents (Elt F)}
  {x13 : (⟨S50257x2048, .f32⟩ : BufTy).Contents (Elt F)} {x14 : (⟨S50257, .f32⟩ : BufTy).Contents (Elt F)}

/-! ## The three cuts -/

/-- Operations 0 … 10: up to the first joined row main_v8. -/
abbrev S1a : List (HloOp τ sig (Elt F)) := (Stages.S1 (F := F)).take 11
/-- Operations 11 … 28: the scores and their softmax, up to the attention weights main_v23. -/
abbrev S1b : List (HloOp τ sig (Elt F)) := ((Stages.S1 (F := F)).drop 11).take 18
/-- Operations 29 and 30: the weighted sum main_v24 and the second joined row main_v25. -/
abbrev S1c : List (HloOp τ sig (Elt F)) := ((Stages.S1 (F := F)).drop 11).drop 18

/-- The stretch's fold is the three cuts' folds composed. -/
theorem after_S1 (T : Valuation τ sig (Elt F)) :
    after (Stages.S1 (F := F)) T = after S1c (after S1b (after S1a T)) := by
  rw [← StableHlo.after_append, ← StableHlo.after_append, List.take_append_drop, List.take_append_drop]

section Cuts

variable (T : Valuation τ sig (Elt F))

/-! ### The first cut -/

theorem S1a_v6 (ha0 : T (Proc.devRef .tc main_arg0) = x0) (ha4 : T (Proc.devRef .tc main_arg4) = x4) :
    after (S1a (F := F)) T (Proc.devRef .tc main_v6) = val_main_v6 (F := F) x0 x4 := by
  dsimp only [S1a, Stages.S1, ops, List.take, List.drop]
  after_results
  rw [ha0, ha4]
  unfold val_main_v6 val_main_v5 val_main_v4 val_main_v3 val_main_v2 val_main_c_0 val_main_v1 val_main_v0 val_main_c
  rfl

theorem S1a_v7 (ha1 : T (Proc.devRef .tc main_arg1) = x1) :
    after (S1a (F := F)) T (Proc.devRef .tc main_v7) = val_main_v7 (F := F) x1 := by
  dsimp only [S1a, Stages.S1, ops, List.take, List.drop]
  after_results
  rw [ha1]
  unfold val_main_v7
  rfl

theorem S1a_v8 (ha0 : T (Proc.devRef .tc main_arg0) = x0) (ha1 : T (Proc.devRef .tc main_arg1) = x1)
    (ha4 : T (Proc.devRef .tc main_arg4) = x4) :
    after (S1a (F := F)) T (Proc.devRef .tc main_v8) = val_main_v8 (F := F) x0 x1 x4 := by
  dsimp only [S1a, Stages.S1, ops, List.take, List.drop]
  after_results
  rw [ha0, ha1, ha4]
  unfold val_main_v8 val_main_v7 val_main_v6 val_main_v5 val_main_v4 val_main_v3 val_main_v2 val_main_c_0 val_main_v1 val_main_v0 val_main_c
  rfl

theorem S1a_arg3 : after (S1a (F := F)) T (Proc.devRef .tc main_arg3) = T (Proc.devRef .tc main_arg3) := by
  dsimp only [S1a, Stages.S1, ops, List.take, List.drop]; after_results
theorem S1a_arg5 : after (S1a (F := F)) T (Proc.devRef .tc main_arg5) = T (Proc.devRef .tc main_arg5) := by
  dsimp only [S1a, Stages.S1, ops, List.take, List.drop]; after_results
theorem S1a_arg6 : after (S1a (F := F)) T (Proc.devRef .tc main_arg6) = T (Proc.devRef .tc main_arg6) := by
  dsimp only [S1a, Stages.S1, ops, List.take, List.drop]; after_results

/-! ### The second cut -/

theorem S1b_v23 (h8 : T (Proc.devRef .tc main_v8) = val_main_v8 (F := F) x0 x1 x4)
    (ha5 : T (Proc.devRef .tc main_arg5) = x5) (ha6 : T (Proc.devRef .tc main_arg6) = x6) :
    after (S1b (F := F)) T (Proc.devRef .tc main_v23) = val_main_v23 (F := F) x0 x1 x4 x5 x6 := by
  dsimp only [S1b, Stages.S1, ops, List.take, List.drop]
  after_results_simp
  rw [h8, ha5, ha6]
  unfold val_main_v23 val_main_v22 val_main_v21 val_main_v20 val_main_cst_2 val_main_v19 val_main_v18 val_main_v17 val_main_v16
    val_main_v15 val_main_v14 val_main_cst_1 val_main_v13 val_main_cst val_main_v12 val_main_v11 val_main_v10 val_main_v9
  generalize val_main_v8 (F := F) x0 x1 x4 = y
  rfl

theorem S1b_v6 : after (S1b (F := F)) T (Proc.devRef .tc main_v6) = T (Proc.devRef .tc main_v6) := by
  dsimp only [S1b, Stages.S1, ops, List.take, List.drop]; after_results
theorem S1b_v7 : after (S1b (F := F)) T (Proc.devRef .tc main_v7) = T (Proc.devRef .tc main_v7) := by
  dsimp only [S1b, Stages.S1, ops, List.take, List.drop]; after_results
theorem S1b_arg3 : after (S1b (F := F)) T (Proc.devRef .tc main_arg3) = T (Proc.devRef .tc main_arg3) := by
  dsimp only [S1b, Stages.S1, ops, List.take, List.drop]; after_results

/-! ### The third cut -/

theorem S1c_v25 (h6 : T (Proc.devRef .tc main_v6) = val_main_v6 (F := F) x0 x4)
    (h23 : T (Proc.devRef .tc main_v23) = val_main_v23 (F := F) x0 x1 x4 x5 x6) (ha3 : T (Proc.devRef .tc main_arg3) = x3) :
    after (S1c (F := F)) T (Proc.devRef .tc main_v25) = val_main_v25 (F := F) x0 x1 x3 x4 x5 x6 := by
  dsimp only [S1c, Stages.S1, ops, List.take, List.drop]
  after_results
  rw [h6, h23, ha3]
  unfold val_main_v25 val_main_v24
  rfl

theorem S1c_v7 : after (S1c (F := F)) T (Proc.devRef .tc main_v7) = T (Proc.devRef .tc main_v7) := by
  dsimp only [S1c, Stages.S1, ops, List.take, List.drop]; after_results
theorem S1c_v23 : after (S1c (F := F)) T (Proc.devRef .tc main_v23) = T (Proc.devRef .tc main_v23) := by
  dsimp only [S1c, Stages.S1, ops, List.take, List.drop]; after_results

end Cuts

/-! ## The stretch -/

/-- From a valuation holding the six arguments it reads, the first stretch leaves the reference's stage values in the
    reshaped hidden state, the attention weights and the second joined row. -/
theorem step1 (T : Valuation τ sig (Elt F)) (ha0 : T (Proc.devRef .tc main_arg0) = x0) (ha1 : T (Proc.devRef .tc main_arg1) = x1)
    (ha3 : T (Proc.devRef .tc main_arg3) = x3) (ha4 : T (Proc.devRef .tc main_arg4) = x4) (ha5 : T (Proc.devRef .tc main_arg5) = x5)
    (ha6 : T (Proc.devRef .tc main_arg6) = x6) :
    after (Stages.S1 (F := F)) T (Proc.devRef .tc main_v7) = val_main_v7 (F := F) x1
    ∧ after (Stages.S1 (F := F)) T (Proc.devRef .tc main_v23) = val_main_v23 (F := F) x0 x1 x4 x5 x6
    ∧ after (Stages.S1 (F := F)) T (Proc.devRef .tc main_v25) = val_main_v25 (F := F) x0 x1 x3 x4 x5 x6 := by
  have e23 : after (S1b (F := F)) (after S1a T) (Proc.devRef .tc main_v23) = val_main_v23 (F := F) x0 x1 x4 x5 x6 :=
    S1b_v23 (after S1a T) (S1a_v8 T ha0 ha1 ha4) ((S1a_arg5 T).trans ha5) ((S1a_arg6 T).trans ha6)
  rw [after_S1]
  refine ⟨?_, ?_, ?_⟩
  · rw [S1c_v7, S1b_v7]; exact S1a_v7 T ha1
  · rw [S1c_v23]; exact e23
  · exact S1c_v25 (after S1b (after S1a T)) ((S1b_v6 _).trans (S1a_v6 T ha0 ha4)) e23
      ((S1b_arg3 _).trans ((S1a_arg3 T).trans ha3))

/-! ## What the stretch leaves alone -/

/-- The 31 buffers the stretch's operations write, in order. -/
def W1 : List (Ref sig .tc) :=
  [main_c, main_v0, main_v1, main_c_0, main_v2, main_v3, main_v4, main_v5, main_v6, main_v7, main_v8, main_v9, main_v10, main_v11,
   main_v12, main_cst, main_v13, main_cst_1, main_v14, main_v15, main_v16, main_v17, main_v18, main_v19, main_cst_2, main_v20,
   main_v21, main_v22, main_v23, main_v24, main_v25]

/-- Each operation of the stretch writes one of them. -/
theorem S1_writes : (Stages.S1 (F := F)).Forall fun op => op.writes ⊆ (W1.map (Proc.devRef (τ := τ) .tc)).toFinset := by
  dsimp only [Stages.S1, ops, List.take, List.drop]
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]
     exact List.mem_map_of_mem (by decide))

/-- A buffer outside that list holds after the stretch what it held before. -/
theorem frame1 (T : Valuation τ sig (Elt F)) (r : Ref sig .tc) (h : r ∉ W1) :
    after (Stages.S1 (F := F)) T (Proc.devRef .tc r) = T (Proc.devRef .tc r) :=
  StableHlo.after_of_writes_sub (Stages.S1 (F := F)) T S1_writes h

end Cert.ReferenceIdeal.Stages

end
-- ==== Proof.RefStage2.lean ====
/-
  The combine layer of the reference, operations 31 to 37 of its list: the transpose of the weight matrix, the
  contraction of the concatenated input row against it, the bias broadcast along the row, their sum, and the ReLU as
  the maximum with a broadcast zero. Entered with the input row, the weights and the bias in their buffers, the stretch
  leaves relu(x · Wᵗ + b) in the layer's output buffer, and leaves every buffer it does not write as it found it.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The seven operations of the stretch, written out. -/
theorem S2_eq : S2 (F := F) =
    [ unary main_arg7 main_v26 ((transpose S4096x2048 [1, 0] · transposes_S2048x4096_S4096x2048_1_0) : (⟨S2048x4096, .f32⟩ : BufTy).Contents (Elt F) → (⟨S4096x2048, .f32⟩ : BufTy).Contents (Elt F)),
      binary main_v25 main_v26 main_v27 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
      unary main_arg8 main_v28 (broadcastInDim S1x2048 ![1] bcast_S2048_S1x2048_1 : (⟨S2048, .f32⟩ : BufTy).Contents (Elt F) → (⟨S1x2048, .f32⟩ : BufTy).Contents (Elt F)),
      binary main_v27 main_v28 main_v29 (addf : (⟨S1x2048, .f32⟩ : BufTy).Contents (Elt F) → (⟨S1x2048, .f32⟩ : BufTy).Contents (Elt F) → (⟨S1x2048, .f32⟩ : BufTy).Contents (Elt F)),
      TRef.nullary (TRef.of (T := ⟨S_, .f32⟩) main_call0_cst) (constant S_ .f32 0x00000000#32),
      TRef.unary (TRef.of (T := ⟨S_, .f32⟩) main_call0_cst) (TRef.of (T := ⟨S1x2048, .f32⟩) main_call0_v0) (broadcastInDim S1x2048 ![] bcast_S_S1x2048),
      TRef.binary (TRef.of (T := ⟨S1x2048, .f32⟩) main_v29) (TRef.of (T := ⟨S1x2048, .f32⟩) main_call0_v0) (TRef.of (T := ⟨S1x2048, .f32⟩) main_v30) maximumf ] := rfl

/-- The buffers the stretch writes, in order. -/
def W2 : List (Ref sig .tc) := [main_v26, main_v27, main_v28, main_v29, main_call0_cst, main_call0_v0, main_v30]

/-- Each operation of the stretch writes one of them. -/
theorem S2_writes : (S2 (F := F)).Forall fun op => op.writes ⊆ (W2.map (Proc.devRef (τ := τ) .tc)).toFinset := by
  rw [S2_eq]
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩

/-- A buffer the stretch does not write is as it was. -/
theorem frame2 (T : Valuation τ sig (Elt F)) (r : Ref sig .tc) (h : r ∉ W2) :
    after (S2 (F := F)) T (Proc.devRef .tc r) = T (Proc.devRef .tc r) :=
  StableHlo.after_of_writes_sub S2 T S2_writes h

variable {x0 : (⟨Cert.ReferenceIdeal.S1, .i32⟩ : BufTy).Contents (Elt F)} {x1 : (⟨S1x1x2048, .f32⟩ : BufTy).Contents (Elt F)}
  {x3 : (⟨S25x2048, .f32⟩ : BufTy).Contents (Elt F)} {x4 : (⟨S50257x2048, .f32⟩ : BufTy).Contents (Elt F)}
  {x5 : (⟨S25x4096, .f32⟩ : BufTy).Contents (Elt F)} {x6 : (⟨S25, .f32⟩ : BufTy).Contents (Elt F)}
  {x7 : (⟨S2048x4096, .f32⟩ : BufTy).Contents (Elt F)} {x8 : (⟨S2048, .f32⟩ : BufTy).Contents (Elt F)}
  {x9 : (⟨S6144x2048, .f32⟩ : BufTy).Contents (Elt F)} {x10 : (⟨S6144x2048, .f32⟩ : BufTy).Contents (Elt F)}
  {x11 : (⟨S6144, .f32⟩ : BufTy).Contents (Elt F)} {x12 : (⟨S6144, .f32⟩ : BufTy).Contents (Elt F)}
  {x13 : (⟨S50257x2048, .f32⟩ : BufTy).Contents (Elt F)} {x14 : (⟨S50257, .f32⟩ : BufTy).Contents (Elt F)}

/-- With the concatenated input row, the weights and the bias in their buffers, the stretch leaves the combine layer's
    value in its output buffer. The input row stays one unopened term. -/
theorem step2 (T : Valuation τ sig (Elt F))
    (hv25 : T (Proc.devRef .tc main_v25) = val_main_v25 (F := F) x0 x1 x3 x4 x5 x6)
    (ha7 : T (Proc.devRef .tc main_arg7) = x7) (ha8 : T (Proc.devRef .tc main_arg8) = x8) :
    after (S2 (F := F)) T (Proc.devRef .tc main_v30) = val_main_v30 (F := F) x0 x1 x3 x4 x5 x6 x7 x8 := by
  rw [S2_eq]
  after_results
  rw [hv25, ha7, ha8]
  unfold val_main_v30 val_main_v29 val_main_v28 val_main_v27 val_main_v26 val_main_call0_v0 val_main_call0_cst
  generalize val_main_v25 (F := F) x0 x1 x3 x4 x5 x6 = y
  rfl

end Cert.ReferenceIdeal.Stages

end
-- ==== Proof.RefStage3.lean ====
/-
  The reference's two gate projections, operations 38 to 45 of its run: the input-side projection x · W_ihᵗ + b_ih of the
  combine layer's output (a transpose of the weight matrix, a contraction over the 2048 inputs, the bias broadcast to a
  row, the sum), and the hidden-side projection h · W_hhᵗ + b_hh of the previous hidden state, built the same way. From
  any buffer contents that hold the combine layer's output, the hidden state and the four weight and bias arguments, the
  stretch leaves the two 6144-wide projections in its fourth and eighth results; it writes its eight results and
  nothing else.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The stretch, operation by operation. -/
theorem S3_eq : S3 (F := F) =
    [ unary main_arg9 main_v31 ((transpose S2048x6144 [1, 0] · transposes_S6144x2048_S2048x6144_1_0) : (⟨S6144x2048, .f32⟩ : BufTy).Contents (Elt F) → (⟨S2048x6144, .f32⟩ : BufTy).Contents (Elt F)),
    binary main_v30 main_v31 main_v32 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg11 main_v33 (broadcastInDim S1x6144 ![1] bcast_S6144_S1x6144_1 : (⟨S6144, .f32⟩ : BufTy).Contents (Elt F) → (⟨S1x6144, .f32⟩ : BufTy).Contents (Elt F)),
    binary main_v32 main_v33 main_v34 (addf : (⟨S1x6144, .f32⟩ : BufTy).Contents (Elt F) → (⟨S1x6144, .f32⟩ : BufTy).Contents (Elt F) → (⟨S1x6144, .f32⟩ : BufTy).Contents (Elt F)),
    unary main_arg10 main_v35 ((transpose S2048x6144 [1, 0] · transposes_S6144x2048_S2048x6144_1_0) : (⟨S6144x2048, .f32⟩ : BufTy).Contents (Elt F) → (⟨S2048x6144, .f32⟩ : BufTy).Contents (Elt F)),
    binary main_v7 main_v35 main_v36 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg12 main_v37 (broadcastInDim S1x6144 ![1] bcast_S6144_S1x6144_1 : (⟨S6144, .f32⟩ : BufTy).Contents (Elt F) → (⟨S1x6144, .f32⟩ : BufTy).Contents (Elt F)),
    binary main_v36 main_v37 main_v38 (addf : (⟨S1x6144, .f32⟩ : BufTy).Contents (Elt F) → (⟨S1x6144, .f32⟩ : BufTy).Contents (Elt F) → (⟨S1x6144, .f32⟩ : BufTy).Contents (Elt F)) ] := rfl

/-- The references the stretch's operations write, in order. -/
def W3 : List (Ref sig .tc) := [main_v31, main_v32, main_v33, main_v34, main_v35, main_v36, main_v37, main_v38]

/-- Each operation of the stretch writes one of them. -/
theorem S3_writes : (S3 (F := F)).Forall fun op => op.writes ⊆ (W3.map (Proc.devRef (τ := τ) .tc)).toFinset := by
  rw [S3_eq]
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference the stretch does not write keeps its contents. -/
theorem frame3 (T : Valuation τ sig (Elt F)) (r : Ref sig .tc) (h : r ∉ W3) :
    after (S3 (F := F)) T (Proc.devRef .tc r) = T (Proc.devRef .tc r) :=
  StableHlo.after_of_writes_sub (S3 (F := F)) T S3_writes h

/-- From contents holding the combine layer's output, the previous hidden state and the gates' weights and biases, the
    stretch leaves the input-side projection in its fourth result and the hidden-side projection in its eighth. -/
theorem step3 (T : Valuation τ sig (Elt F)) (hv30 : T (Proc.devRef .tc main_v30) = val_main_v30 (F := F) x0 x1 x3 x4 x5 x6 x7 x8) (hv7 : T (Proc.devRef .tc main_v7) = val_main_v7 (F := F) x1) (ha9 : T (Proc.devRef .tc main_arg9) = x9) (ha10 : T (Proc.devRef .tc main_arg10) = x10) (ha11 : T (Proc.devRef .tc main_arg11) = x11) (ha12 : T (Proc.devRef .tc main_arg12) = x12) :
    after (S3 (F := F)) T (Proc.devRef .tc main_v34) = val_main_v34 (F := F) x0 x1 x3 x4 x5 x6 x7 x8 x9 x11
    ∧ after (S3 (F := F)) T (Proc.devRef .tc main_v38) = val_main_v38 (F := F) x1 x10 x12 := by
  rw [S3_eq]
  constructor
  · after_results
    rw [hv30, ha9, ha11]
    rfl
  · after_results
    rw [hv7, ha10, ha12]
    rfl

end Cert.ReferenceIdeal.Stages

end
-- ==== Proof.RefStage4.lean ====
/-
  The fourth stretch of the reference: the six slices. Each of the two 1 × 6144 gate projections is cut into its reset,
  update and candidate thirds, columns 0 … 2047, 2048 … 4095 and 4096 … 6143. From a valuation holding the two
  projections the stretch leaves the six thirds at their stage values, and it writes no other buffer.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The stretch, operation by operation: three slices of the input projection, three of the hidden projection. -/
theorem S4_eq : S4 (F := F) =
    [ unary main_v34 main_v39 ((extractStridedSlice S1x2048 ![0, 0] · slices_S1x6144_S1x2048_0_0) : (⟨S1x6144, .f32⟩ : BufTy).Contents (Elt F) → (⟨S1x2048, .f32⟩ : BufTy).Contents (Elt F)),
      unary main_v34 main_v40 ((extractStridedSlice S1x2048 ![0, 2048] · slices_S1x6144_S1x2048_0_2048) : (⟨S1x6144, .f32⟩ : BufTy).Contents (Elt F) → (⟨S1x2048, .f32⟩ : BufTy).Contents (Elt F)),
      unary main_v34 main_v41 ((extractStridedSlice S1x2048 ![0, 4096] · slices_S1x6144_S1x2048_0_4096) : (⟨S1x6144, .f32⟩ : BufTy).Contents (Elt F) → (⟨S1x2048, .f32⟩ : BufTy).Contents (Elt F)),
      unary main_v38 main_v42 ((extractStridedSlice S1x2048 ![0, 0] · slices_S1x6144_S1x2048_0_0) : (⟨S1x6144, .f32⟩ : BufTy).Contents (Elt F) → (⟨S1x2048, .f32⟩ : BufTy).Contents (Elt F)),
      unary main_v38 main_v43 ((extractStridedSlice S1x2048 ![0, 2048] · slices_S1x6144_S1x2048_0_2048) : (⟨S1x6144, .f32⟩ : BufTy).Contents (Elt F) → (⟨S1x2048, .f32⟩ : BufTy).Contents (Elt F)),
      unary main_v38 main_v44 ((extractStridedSlice S1x2048 ![0, 4096] · slices_S1x6144_S1x2048_0_4096) : (⟨S1x6144, .f32⟩ : BufTy).Contents (Elt F) → (⟨S1x2048, .f32⟩ : BufTy).Contents (Elt F)) ] := rfl

/-- After the six slices each third holds its stage value, given the two projections at theirs. -/
theorem step4 (T : Valuation τ sig (Elt F)) (hv34 : T (Proc.devRef .tc main_v34) = val_main_v34 (F := F) x0 x1 x3 x4 x5 x6 x7 x8 x9 x11) (hv38 : T (Proc.devRef .tc main_v38) = val_main_v38 (F := F) x1 x10 x12) :
    after (S4 (F := F)) T (Proc.devRef .tc main_v39) = val_main_v39 (F := F) x0 x1 x3 x4 x5 x6 x7 x8 x9 x11
    ∧ after (S4 (F := F)) T (Proc.devRef .tc main_v40) = val_main_v40 (F := F) x0 x1 x3 x4 x5 x6 x7 x8 x9 x11
    ∧ after (S4 (F := F)) T (Proc.devRef .tc main_v41) = val_main_v41 (F := F) x0 x1 x3 x4 x5 x6 x7 x8 x9 x11
    ∧ after (S4 (F := F)) T (Proc.devRef .tc main_v42) = val_main_v42 (F := F) x1 x10 x12
    ∧ after (S4 (F := F)) T (Proc.devRef .tc main_v43) = val_main_v43 (F := F) x1 x10 x12
    ∧ after (S4 (F := F)) T (Proc.devRef .tc main_v44) = val_main_v44 (F := F) x1 x10 x12 := by
  rw [S4_eq]
  refine ⟨?_, ?_, ?_, ?_, ?_, ?_⟩
  · after_results; rw [hv34]; rfl
  · after_results; rw [hv34]; rfl
  · after_results; rw [hv34]; rfl
  · after_results; rw [hv38]; rfl
  · after_results; rw [hv38]; rfl
  · after_results; rw [hv38]; rfl

/-- The buffers the stretch writes: the six thirds. -/
def W4 : List (Ref sig .tc) := [main_v39, main_v40, main_v41, main_v42, main_v43, main_v44]

/-- Each operation of the stretch writes one of them. -/
theorem S4_writes : (S4 (F := F)).Forall fun op => op.writes ⊆ (W4.map (Proc.devRef (τ := τ) .tc)).toFinset := by
  rw [S4_eq]
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer that is none of the six keeps its contents through the stretch. -/
theorem frame4 (T : Valuation τ sig (Elt F)) (r : Ref sig .tc) (h : r ∉ W4) :
    after (S4 (F := F)) T (Proc.devRef .tc r) = T (Proc.devRef .tc r) :=
  StableHlo.after_of_writes_sub (S4 (F := F)) T S4_writes h

end Cert.ReferenceIdeal.Stages

end
-- ==== Proof.RefStage5.lean ====
/-
  The reset gate of the reference's GRU step, operations 52 … 60 of its @main: the sum of the input side's and the
  hidden side's reset pre-activations, negated, exponentiated, one added, and one divided by the result:
  r = 1 / (1 + exp(−(i_r + h_r))). From any valuation that holds the two pre-activations at their stages, the fold of
  these nine operations leaves the gate's stage in its buffer, and changes no buffer but the nine it writes.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The nine operations, written out. -/
theorem S5_eq : S5 (F := F) =
    [ binary main_v39 main_v42 main_v45 (addf : (⟨S1x2048, .f32⟩ : BufTy).Contents (Elt F) → (⟨S1x2048, .f32⟩ : BufTy).Contents (Elt F) → (⟨S1x2048, .f32⟩ : BufTy).Contents (Elt F)),
      unary main_v45 main_v46 (Host.negf : (⟨S1x2048, .f32⟩ : BufTy).Contents (Elt F) → (⟨S1x2048, .f32⟩ : BufTy).Contents (Elt F)),
      unary main_v46 main_v47 (Host.exp : (⟨S1x2048, .f32⟩ : BufTy).Contents (Elt F) → (⟨S1x2048, .f32⟩ : BufTy).Contents (Elt F)),
      nullary main_cst_3 (constant S_ .f32 0x3F800000#32),
      unary main_cst_3 main_v48 (broadcastInDim S1x2048 ![] bcast_S_S1x2048 : (⟨S_, .f32⟩ : BufTy).Contents (Elt F) → (⟨S1x2048, .f32⟩ : BufTy).Contents (Elt F)),
      binary main_v48 main_v47 main_v49 (addf : (⟨S1x2048, .f32⟩ : BufTy).Contents (Elt F) → (⟨S1x2048, .f32⟩ : BufTy).Contents (Elt F) → (⟨S1x2048, .f32⟩ : BufTy).Contents (Elt F)),
      nullary main_cst_4 (constant S_ .f32 0x3F800000#32),
      unary main_cst_4 main_v50 (broadcastInDim S1x2048 ![] bcast_S_S1x2048 : (⟨S_, .f32⟩ : BufTy).Contents (Elt F) → (⟨S1x2048, .f32⟩ : BufTy).Contents (Elt F)),
      binary main_v50 main_v49 main_v51 (Host.divf : (⟨S1x2048, .f32⟩ : BufTy).Contents (Elt F) → (⟨S1x2048, .f32⟩ : BufTy).Contents (Elt F) → (⟨S1x2048, .f32⟩ : BufTy).Contents (Elt F)) ] := rfl

/-- The fold of the stretch leaves the reset gate's stage in its buffer. -/
theorem step5 (T : Valuation τ sig (Elt F)) (hv39 : T (Proc.devRef .tc main_v39) = val_main_v39 (F := F) x0 x1 x3 x4 x5 x6 x7 x8 x9 x11) (hv42 : T (Proc.devRef .tc main_v42) = val_main_v42 (F := F) x1 x10 x12) :
    after (S5 (F := F)) T (Proc.devRef .tc main_v51) = val_main_v51 (F := F) x0 x1 x3 x4 x5 x6 x7 x8 x9 x10 x11 x12 := by
  rw [S5_eq]
  after_results
  unfold val_main_v51 val_main_v50 val_main_cst_4 val_main_v49 val_main_v48 val_main_cst_3 val_main_v47 val_main_v46 val_main_v45
  rw [hv39, hv42]

/-- The buffers the stretch writes, in order. -/
def W5 : List (Ref sig .tc) := [main_v45, main_v46, main_v47, main_cst_3, main_v48, main_v49, main_cst_4, main_v50, main_v51]

theorem S5_writes : (S5 (F := F)).Forall fun op => op.writes ⊆ (W5.map (Proc.devRef (τ := τ) .tc)).toFinset := by
  rw [S5_eq]
  simp only [List.Forall]
  refine ⟨?_, ?_, ?_, ?_, ?_, ?_, ?_, ?_, ?_⟩ <;>
    (simp only [StableHlo.nullary_writes, StableHlo.unary_writes, StableHlo.binary_writes, Finset.singleton_subset_iff, List.mem_toFinset]
     exact List.mem_map_of_mem (by decide))

/-- Every other buffer is as the stretch found it. -/
theorem frame5 (T : Valuation τ sig (Elt F)) (r : Ref sig .tc) (h : r ∉ W5) :
    after (S5 (F := F)) T (Proc.devRef .tc r) = T (Proc.devRef .tc r) :=
  StableHlo.after_of_writes_sub (S5 (F := F)) T S5_writes h

end Cert.ReferenceIdeal.Stages

end
-- ==== Proof.RefStage6.lean ====
/-
  The reference's update gate, operations 61 … 69 of its @main: the second slices of the two gate projections are added,
  negated and exponentiated, one is added, and one is divided by the sum: z = 1 / (1 + exp(−(i_z + h_z))). Read at the
  gate's buffer from any valuation that holds the two slices at their stages; every buffer the nine operations do not
  write keeps its contents.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The stretch, operation by operation. -/
theorem S6_eq : S6 (F := F) =
  [ binary main_v40 main_v43 main_v52 (addf : (⟨S1x2048, .f32⟩ : BufTy).Contents (Elt F) → (⟨S1x2048, .f32⟩ : BufTy).Contents (Elt F) → (⟨S1x2048, .f32⟩ : BufTy).Contents (Elt F)),
    unary main_v52 main_v53 (Host.negf : (⟨S1x2048, .f32⟩ : BufTy).Contents (Elt F) → (⟨S1x2048, .f32⟩ : BufTy).Contents (Elt F)),
    unary main_v53 main_v54 (Host.exp : (⟨S1x2048, .f32⟩ : BufTy).Contents (Elt F) → (⟨S1x2048, .f32⟩ : BufTy).Contents (Elt F)),
    nullary main_cst_5 (constant S_ .f32 0x3F800000#32),
    unary main_cst_5 main_v55 (broadcastInDim S1x2048 ![] bcast_S_S1x2048 : (⟨S_, .f32⟩ : BufTy).Contents (Elt F) → (⟨S1x2048, .f32⟩ : BufTy).Contents (Elt F)),
    binary main_v55 main_v54 main_v56 (addf : (⟨S1x2048, .f32⟩ : BufTy).Contents (Elt F) → (⟨S1x2048, .f32⟩ : BufTy).Contents (Elt F) → (⟨S1x2048, .f32⟩ : BufTy).Contents (Elt F)),
    nullary main_cst_6 (constant S_ .f32 0x3F800000#32),
    unary main_cst_6 main_v57 (broadcastInDim S1x2048 ![] bcast_S_S1x2048 : (⟨S_, .f32⟩ : BufTy).Contents (Elt F) → (⟨S1x2048, .f32⟩ : BufTy).Contents (Elt F)),
    binary main_v57 main_v56 main_v58 (Host.divf : (⟨S1x2048, .f32⟩ : BufTy).Contents (Elt F) → (⟨S1x2048, .f32⟩ : BufTy).Contents (Elt F) → (⟨S1x2048, .f32⟩ : BufTy).Contents (Elt F)) ] := rfl

/-- After the stretch the gate's buffer holds its stage, the two slices' buffers holding theirs before it. -/
theorem step6 (T : Valuation τ sig (Elt F)) (hv40 : T (Proc.devRef .tc main_v40) = val_main_v40 (F := F) x0 x1 x3 x4 x5 x6 x7 x8 x9 x11) (hv43 : T (Proc.devRef .tc main_v43) = val_main_v43 (F := F) x1 x10 x12) :
    after (S6 (F := F)) T (Proc.devRef .tc main_v58) = val_main_v58 (F := F) x0 x1 x3 x4 x5 x6 x7 x8 x9 x10 x11 x12 := by
  rw [S6_eq]
  after_results
  rw [hv40, hv43]
  unfold val_main_v58 val_main_v57 val_main_v56 val_main_v55 val_main_v54 val_main_v53 val_main_v52 val_main_cst_5 val_main_cst_6
  rfl

/-- The buffers the stretch writes, in order. -/
def W6 : List (Ref sig .tc) := [main_v52, main_v53, main_v54, main_cst_5, main_v55, main_v56, main_cst_6, main_v57, main_v58]

/-- Each operation writes one of them. -/
theorem S6_writes : (S6 (F := F)).Forall fun op => op.writes ⊆ (W6.map (Proc.devRef (τ := τ) .tc)).toFinset := by
  rw [S6_eq]
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩

/-- Every other buffer keeps its contents over the stretch. -/
theorem frame6 (T : Valuation τ sig (Elt F)) (r : Ref sig .tc) (h : r ∉ W6) : after (S6 (F := F)) T (Proc.devRef .tc r) = T (Proc.devRef .tc r) :=
  StableHlo.after_of_writes_sub (S6 (F := F)) T S6_writes h

end Cert.ReferenceIdeal.Stages

end
-- ==== Proof.RefStage7.lean ====
/-
  The seventh stretch of the reference's operations, the GRU cell's candidate and blend: the reset gate times the hidden
  projection's third slice, added to the input projection's third slice, through tanh; one minus the update gate times
  that, plus the update gate times the old hidden state. Read off any valuation that has the five values the stretch
  takes over from the stretches before it, its last operation's result is the stage named for it; and the stretch
  writes its nine results only.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The stretch, written out: operations 70 … 78. -/
theorem S7_eq : S7 (F := F) =
    [ binary main_v51 main_v44 main_v59 (mulf : (⟨S1x2048, .f32⟩ : BufTy).Contents (Elt F) → (⟨S1x2048, .f32⟩ : BufTy).Contents (Elt F) → (⟨S1x2048, .f32⟩ : BufTy).Contents (Elt F)),
      binary main_v41 main_v59 main_v60 (addf : (⟨S1x2048, .f32⟩ : BufTy).Contents (Elt F) → (⟨S1x2048, .f32⟩ : BufTy).Contents (Elt F) → (⟨S1x2048, .f32⟩ : BufTy).Contents (Elt F)),
      unary main_v60 main_v61 (Host.tanh : (⟨S1x2048, .f32⟩ : BufTy).Contents (Elt F) → (⟨S1x2048, .f32⟩ : BufTy).Contents (Elt F)),
      nullary main_cst_7 (constant S_ .f32 0x3F800000#32),
      unary main_cst_7 main_v62 (broadcastInDim S1x2048 ![] bcast_S_S1x2048 : (⟨S_, .f32⟩ : BufTy).Contents (Elt F) → (⟨S1x2048, .f32⟩ : BufTy).Contents (Elt F)),
      binary main_v62 main_v58 main_v63 (subf : (⟨S1x2048, .f32⟩ : BufTy).Contents (Elt F) → (⟨S1x2048, .f32⟩ : BufTy).Contents (Elt F) → (⟨S1x2048, .f32⟩ : BufTy).Contents (Elt F)),
      binary main_v63 main_v61 main_v64 (mulf : (⟨S1x2048, .f32⟩ : BufTy).Contents (Elt F) → (⟨S1x2048, .f32⟩ : BufTy).Contents (Elt F) → (⟨S1x2048, .f32⟩ : BufTy).Contents (Elt F)),
      binary main_v58 main_v7 main_v65 (mulf : (⟨S1x2048, .f32⟩ : BufTy).Contents (Elt F) → (⟨S1x2048, .f32⟩ : BufTy).Contents (Elt F) → (⟨S1x2048, .f32⟩ : BufTy).Contents (Elt F)),
      binary main_v64 main_v65 main_v66 (addf : (⟨S1x2048, .f32⟩ : BufTy).Contents (Elt F) → (⟨S1x2048, .f32⟩ : BufTy).Contents (Elt F) → (⟨S1x2048, .f32⟩ : BufTy).Contents (Elt F)) ] := rfl

/-- The blend h' = (1 − z)·n + z·h at the end of the stretch, from a valuation holding the reset gate r (main_v51), the
    hidden and input projections' third slices (main_v44, main_v41), the update gate z (main_v58) and the old hidden
    state h (main_v7) at their stages. -/
theorem step7 (T : Valuation τ sig (Elt F))
    (hv51 : T (Proc.devRef .tc main_v51) = val_main_v51 (F := F) x0 x1 x3 x4 x5 x6 x7 x8 x9 x10 x11 x12)
    (hv44 : T (Proc.devRef .tc main_v44) = val_main_v44 (F := F) x1 x10 x12)
    (hv41 : T (Proc.devRef .tc main_v41) = val_main_v41 (F := F) x0 x1 x3 x4 x5 x6 x7 x8 x9 x11)
    (hv58 : T (Proc.devRef .tc main_v58) = val_main_v58 (F := F) x0 x1 x3 x4 x5 x6 x7 x8 x9 x10 x11 x12)
    (hv7 : T (Proc.devRef .tc main_v7) = val_main_v7 (F := F) x1) :
    after (S7 (F := F)) T (Proc.devRef .tc main_v66) = val_main_v66 (F := F) x0 x1 x3 x4 x5 x6 x7 x8 x9 x10 x11 x12 := by
  rw [S7_eq]
  after_results
  rw [hv51, hv44, hv41, hv58, hv7]
  unfold val_main_v66 val_main_v65 val_main_v64 val_main_v63 val_main_v62 val_main_cst_7 val_main_v61 val_main_v60 val_main_v59
  rfl

/-- The references the stretch's operations write, in order. -/
def W7 : List (Ref sig .tc) :=
  [main_v59, main_v60, main_v61, main_cst_7, main_v62, main_v63, main_v64, main_v65, main_v66]

theorem S7_writes : (S7 (F := F)).Forall fun op => op.writes ⊆ (W7.map (Proc.devRef (τ := τ) .tc)).toFinset := by
  rw [S7_eq]
  simp only [List.Forall]
  exact ⟨by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide),
    by simp only [StableHlo.nullary_writes, StableHlo.unary_writes, StableHlo.binary_writes, Finset.singleton_subset_iff, List.mem_toFinset]; exact List.mem_map_of_mem (by decide)⟩

/-- A buffer the stretch does not write keeps its contents. -/
theorem frame7 (T : Valuation τ sig (Elt F)) (r : Ref sig .tc) (h : r ∉ W7) :
    after (S7 (F := F)) T (Proc.devRef .tc r) = T (Proc.devRef .tc r) :=
  StableHlo.after_of_writes_sub (S7 (F := F)) T S7_writes h

end Cert.ReferenceIdeal.Stages

end
-- ==== Proof.RefStage8.lean ====
/-
  The reference's output projection, operations 79 to 82 of its list: the transpose of the projection matrix, the product of
  the new hidden state with it, the bias laid along the one row, and their sum, the logits. From any valuation that holds the
  new hidden state and the two arguments, the fold of the four operations leaves the logits buffer at the stage value of the
  logits; it changes no buffer but the four it writes.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The stretch, written out. -/
theorem S8_eq : S8 (F := F) =
    [ unary main_arg13 main_v67 ((transpose S2048x50257 [1, 0] · transposes_S50257x2048_S2048x50257_1_0) : (⟨S50257x2048, .f32⟩ : BufTy).Contents (Elt F) → (⟨S2048x50257, .f32⟩ : BufTy).Contents (Elt F)),
      binary main_v66 main_v67 main_v68 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
      unary main_arg14 main_v69 (broadcastInDim S1x50257 ![1] bcast_S50257_S1x50257_1 : (⟨S50257, .f32⟩ : BufTy).Contents (Elt F) → (⟨S1x50257, .f32⟩ : BufTy).Contents (Elt F)),
      binary main_v68 main_v69 main_v70 (addf : (⟨S1x50257, .f32⟩ : BufTy).Contents (Elt F) → (⟨S1x50257, .f32⟩ : BufTy).Contents (Elt F) → (⟨S1x50257, .f32⟩ : BufTy).Contents (Elt F)) ] := rfl

/-- The fold of the stretch at the logits buffer: the sum of the product and the broadcast bias, each operand read where the
    stretch found it. -/
theorem step8 (T : Valuation τ sig (Elt F))
    (hv66 : T (Proc.devRef .tc main_v66) = val_main_v66 (F := F) x0 x1 x3 x4 x5 x6 x7 x8 x9 x10 x11 x12)
    (ha13 : T (Proc.devRef .tc main_arg13) = x13) (ha14 : T (Proc.devRef .tc main_arg14) = x14) :
    after (S8 (F := F)) T (Proc.devRef .tc main_v70) = val_main_v70 (F := F) x0 x1 x3 x4 x5 x6 x7 x8 x9 x10 x11 x12 x13 x14 := by
  rw [S8_eq]
  after_results
  rw [hv66, ha13, ha14]
  unfold val_main_v70 val_main_v68 val_main_v69 val_main_v67
  rfl

/-- The references the stretch writes, in order. -/
def W8 : List (Ref sig .tc) := [main_v67, main_v68, main_v69, main_v70]

theorem writes8 : (S8 (F := F)).Forall fun op => op.writes ⊆ (W8.map (Proc.devRef (τ := τ) .tc)).toFinset := by
  rw [S8_eq]
  simp only [List.Forall]
  exact ⟨by simp only [StableHlo.unary_writes, StableHlo.binary_writes, Finset.singleton_subset_iff, List.mem_toFinset]; exact List.mem_map_of_mem (by decide),
    by simp only [StableHlo.unary_writes, StableHlo.binary_writes, Finset.singleton_subset_iff, List.mem_toFinset]; exact List.mem_map_of_mem (by decide),
    by simp only [StableHlo.unary_writes, StableHlo.binary_writes, Finset.singleton_subset_iff, List.mem_toFinset]; exact List.mem_map_of_mem (by decide),
    by simp only [StableHlo.unary_writes, StableHlo.binary_writes, Finset.singleton_subset_iff, List.mem_toFinset]; exact List.mem_map_of_mem (by decide)⟩

/-- Every other buffer is as the stretch found it. -/
theorem frame8 (T : Valuation τ sig (Elt F)) (r : Ref sig .tc) (h : r ∉ W8) :
    after (S8 (F := F)) T (Proc.devRef .tc r) = T (Proc.devRef .tc r) :=
  StableHlo.after_of_writes_sub _ T writes8 h

end Cert.ReferenceIdeal.Stages

end
-- ==== Proof.RefStage9.lean ====
/-
  The reference's log-softmax of the logits row, its operations 83 … 97: the row's maximum taken from −∞ up, broadcast
  back along the row and subtracted; the exponentials of the shifted row summed from 0 up; the logarithm of that sum
  broadcast back and subtracted from the shifted row. Each of the fifteen operations writes one buffer, read at most
  twice later in the stretch; the fold of the stretch at the result's buffer is the stages' composed term of the logits
  buffer as the stretch finds it.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)} {x13 : (⟨S50257x2048, .f32⟩ : BufTy).Contents (Elt F)} {x14 : (⟨S50257, .f32⟩ : BufTy).Contents (Elt F)}

/-- The stretch, operation by operation. -/
theorem S9_eq : S9 (F := F) =
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨Cert.ReferenceIdeal.S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨Cert.ReferenceIdeal.S1, .f32⟩) main_call1_v1) (broadcastInDim Cert.ReferenceIdeal.S1 ![] bcast_S_S1),
    TRef.binary (TRef.of (T := ⟨Cert.ReferenceIdeal.S1, .f32⟩) main_call1_v1) (TRef.of (T := ⟨Cert.ReferenceIdeal.S1, .f32⟩) main_call1_v0) (TRef.of (T := ⟨Cert.ReferenceIdeal.S1, .f32⟩) main_call1_v2) maximumf,
    TRef.unary (TRef.of (T := ⟨Cert.ReferenceIdeal.S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨Cert.ReferenceIdeal.S1, .f32⟩) main_call1_v7) (fun x v => Host.reduceAdd x v reducesTo_S1x50257_S1_d1 h_S_),
    TRef.unary (TRef.of (T := ⟨Cert.ReferenceIdeal.S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf ] := rfl

/-- Contents carried to a typed reference's buffer and back are the contents. -/
theorem ofBuf_toBuf9 {T : BufTy} (x : StableHlo.TRef sig T) (v : T.Contents (Elt F)) :
    x.ofBuf (Val := Elt F) (x.toBuf v) = v := by
  obtain ⟨r, h, h1, h2⟩ := x
  subst h
  rfl

/-- THE STRETCH AT ITS RESULT: entered with the logits buffer at the logits stage, it leaves the result's buffer at the
    log-softmax stage. -/
theorem step9 (T : Valuation τ sig (Elt F)) (hv70 : T (Proc.devRef .tc main_v70) = val_main_v70 (F := F) x0 x1 x3 x4 x5 x6 x7 x8 x9 x10 x11 x12 x13 x14) :
    after (S9 (F := F)) T (Proc.devRef .tc main_v71) = val_main_v71 (F := F) x0 x1 x3 x4 x5 x6 x7 x8 x9 x10 x11 x12 x13 x14 := by
  rw [S9_eq]
  after_results
  simp only [ofBuf_toBuf9]
  rw [hv70]
  unfold val_main_v71 val_main_call1_v10 val_main_call1_v9 val_main_call1_v8 val_main_call1_v7 val_main_call1_v6
    val_main_call1_v5 val_main_call1_v4 val_main_call1_v3 val_main_call1_v2 val_main_call1_v1 val_main_call1_v0
    val_main_call1_cst_1 val_main_call1_cst_0 val_main_call1_cst
  generalize val_main_v70 (F := F) x0 x1 x3 x4 x5 x6 x7 x8 x9 x10 x11 x12 x13 x14 = y
  rfl

/-- The buffers the stretch writes, in order. -/
def W9 : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v71]

theorem S9_writes : (S9 (F := F)).Forall fun op => op.writes ⊆ (W9.map (Proc.devRef (τ := τ) .tc)).toFinset := by
  rw [S9_eq]
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- THE STRETCH ELSEWHERE: a buffer none of its operations writes keeps its contents. -/
theorem frame9 (T : Valuation τ sig (Elt F)) (r : Ref sig .tc) (h : r ∉ W9) :
    after (S9 (F := F)) T (Proc.devRef .tc r) = T (Proc.devRef .tc r) :=
  StableHlo.after_of_writes_sub (S9 (F := F)) T S9_writes h

end Cert.ReferenceIdeal.Stages

end
-- ==== Proof.RefStage10.lean ====
/-
  The reference's last operation, number 98 of its list: the new hidden state laid out at rank three, the second value the
  program returns. From any valuation that holds the new hidden state, the one operation leaves the returned buffer at the
  stage value; it changes no other buffer.
-/
import proofs.«420902_j59081570124588_3_alg».proof.Proof.RefSplit
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable {x0 : (⟨Cert.ReferenceIdeal.S1, .i32⟩ : BufTy).Contents (Elt F)} {x1 : (⟨S1x1x2048, .f32⟩ : BufTy).Contents (Elt F)} {x3 : (⟨S25x2048, .f32⟩ : BufTy).Contents (Elt F)} {x4 : (⟨S50257x2048, .f32⟩ : BufTy).Contents (Elt F)} {x5 : (⟨S25x4096, .f32⟩ : BufTy).Contents (Elt F)} {x6 : (⟨S25, .f32⟩ : BufTy).Contents (Elt F)} {x7 : (⟨S2048x4096, .f32⟩ : BufTy).Contents (Elt F)} {x8 : (⟨S2048, .f32⟩ : BufTy).Contents (Elt F)} {x9 : (⟨S6144x2048, .f32⟩ : BufTy).Contents (Elt F)} {x10 : (⟨S6144x2048, .f32⟩ : BufTy).Contents (Elt F)} {x11 : (⟨S6144, .f32⟩ : BufTy).Contents (Elt F)} {x12 : (⟨S6144, .f32⟩ : BufTy).Contents (Elt F)}

/-- The stretch, written out. -/
theorem S10_eq : S10 (F := F) =
    [ unary main_v66 main_v72 (broadcastInDim S1x1x2048 ![1, 2] bcast_S1x2048_S1x1x2048_1_2 : (⟨S1x2048, .f32⟩ : BufTy).Contents (Elt F) → (⟨S1x1x2048, .f32⟩ : BufTy).Contents (Elt F)) ] := rfl

/-- The fold of the stretch at the returned hidden state: the broadcast of the new hidden state as the stretch found it. -/
theorem step10 (T : Valuation τ sig (Elt F))
    (hv66 : T (Proc.devRef .tc main_v66) = val_main_v66 (F := F) x0 x1 x3 x4 x5 x6 x7 x8 x9 x10 x11 x12) :
    after (S10 (F := F)) T (Proc.devRef .tc main_v72) = val_main_v72 (F := F) x0 x1 x3 x4 x5 x6 x7 x8 x9 x10 x11 x12 := by
  rw [S10_eq]
  after_results
  rw [hv66]
  unfold val_main_v72
  rfl

/-- The reference the stretch writes. -/
def W10 : List (Ref sig .tc) := [main_v72]

theorem writes10 : (S10 (F := F)).Forall fun op => op.writes ⊆ (W10.map (Proc.devRef (τ := τ) .tc)).toFinset := by
  rw [S10_eq]
  simp only [List.Forall]
  exact (by simp only [StableHlo.unary_writes, Finset.singleton_subset_iff, List.mem_toFinset]; exact List.mem_map_of_mem (by decide))

/-- Every other buffer is as the stretch found it. -/
theorem frame10 (T : Valuation τ sig (Elt F)) (r : Ref sig .tc) (h : r ∉ W10) :
    after (S10 (F := F)) T (Proc.devRef .tc r) = T (Proc.devRef .tc r) :=
  StableHlo.after_of_writes_sub _ T writes10 h

end Cert.ReferenceIdeal.Stages

end
-- ==== Proof.RefStages.lean ====
/-
  The reference's run, read stage by stage. Every weakly fair execution terminates with each buffer at the fold of the 99
  operations over the launch contents; that fold is ten folds composed, and at each boundary the values later stretches
  read are the stage functions of the arguments: the prefix gives the hidden state, the attention weights and the combine
  layer's input; then the combine layer, the gate projections, their slices, the two gates, the blended state, the output
  projection, its log-softmax, and the returned state. A value written in one stretch is not written again, so it is read
  unchanged through the stretches that follow.
-/
import proofs.«420902_j59081570124588_3_alg».proof.Proof.RefSplit
import proofs.«420902_j59081570124588_3_alg».proof.Proof.RefStage1
import proofs.«420902_j59081570124588_3_alg».proof.Proof.RefStage2
import proofs.«420902_j59081570124588_3_alg».proof.Proof.RefStage3
import proofs.«420902_j59081570124588_3_alg».proof.Proof.RefStage4
import proofs.«420902_j59081570124588_3_alg».proof.Proof.RefStage5
import proofs.«420902_j59081570124588_3_alg».proof.Proof.RefStage6
import proofs.«420902_j59081570124588_3_alg».proof.Proof.RefStage7
import proofs.«420902_j59081570124588_3_alg».proof.Proof.RefStage8
import proofs.«420902_j59081570124588_3_alg».proof.Proof.RefStage9
import proofs.«420902_j59081570124588_3_alg».proof.Proof.RefStage10

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The valuation after the first n stretches. -/
abbrev T0 : Valuation τ sig (Elt F) := launchContents m c
abbrev T1 : Valuation τ sig (Elt F) := after (S1 (F := F)) (T0 m c)
abbrev T2 : Valuation τ sig (Elt F) := after (S2 (F := F)) (T1 m c)
abbrev T3 : Valuation τ sig (Elt F) := after (S3 (F := F)) (T2 m c)
abbrev T4 : Valuation τ sig (Elt F) := after (S4 (F := F)) (T3 m c)
abbrev T5 : Valuation τ sig (Elt F) := after (S5 (F := F)) (T4 m c)
abbrev T6 : Valuation τ sig (Elt F) := after (S6 (F := F)) (T5 m c)
abbrev T7 : Valuation τ sig (Elt F) := after (S7 (F := F)) (T6 m c)
abbrev T8 : Valuation τ sig (Elt F) := after (S8 (F := F)) (T7 m c)
abbrev T9 : Valuation τ sig (Elt F) := after (S9 (F := F)) (T8 m c)
abbrev T10 : Valuation τ sig (Elt F) := after (S10 (F := F)) (T9 m c)

/-- A buffer no stretch up to the n-th writes is still at its launch contents. -/
theorem keep1 (r : Ref sig .tc) (h1 : r ∉ W1) :
    T1 m c (Proc.devRef .tc r) = T0 m c (Proc.devRef .tc r) :=
  frame1 _ r h1
theorem keep2 (r : Ref sig .tc) (h1 : r ∉ W1) (h2 : r ∉ W2) :
    T2 m c (Proc.devRef .tc r) = T0 m c (Proc.devRef .tc r) :=
  (frame2 _ r h2).trans (keep1 m c r h1)
theorem keep3 (r : Ref sig .tc) (h1 : r ∉ W1) (h2 : r ∉ W2) (h3 : r ∉ W3) :
    T3 m c (Proc.devRef .tc r) = T0 m c (Proc.devRef .tc r) :=
  (frame3 _ r h3).trans (keep2 m c r h1 h2)
theorem keep4 (r : Ref sig .tc) (h1 : r ∉ W1) (h2 : r ∉ W2) (h3 : r ∉ W3) (h4 : r ∉ W4) :
    T4 m c (Proc.devRef .tc r) = T0 m c (Proc.devRef .tc r) :=
  (frame4 _ r h4).trans (keep3 m c r h1 h2 h3)
theorem keep5 (r : Ref sig .tc) (h1 : r ∉ W1) (h2 : r ∉ W2) (h3 : r ∉ W3) (h4 : r ∉ W4) (h5 : r ∉ W5) :
    T5 m c (Proc.devRef .tc r) = T0 m c (Proc.devRef .tc r) :=
  (frame5 _ r h5).trans (keep4 m c r h1 h2 h3 h4)
theorem keep6 (r : Ref sig .tc) (h1 : r ∉ W1) (h2 : r ∉ W2) (h3 : r ∉ W3) (h4 : r ∉ W4) (h5 : r ∉ W5) (h6 : r ∉ W6) :
    T6 m c (Proc.devRef .tc r) = T0 m c (Proc.devRef .tc r) :=
  (frame6 _ r h6).trans (keep5 m c r h1 h2 h3 h4 h5)
theorem keep7 (r : Ref sig .tc) (h1 : r ∉ W1) (h2 : r ∉ W2) (h3 : r ∉ W3) (h4 : r ∉ W4) (h5 : r ∉ W5) (h6 : r ∉ W6) (h7 : r ∉ W7) :
    T7 m c (Proc.devRef .tc r) = T0 m c (Proc.devRef .tc r) :=
  (frame7 _ r h7).trans (keep6 m c r h1 h2 h3 h4 h5 h6)
theorem keep8 (r : Ref sig .tc) (h1 : r ∉ W1) (h2 : r ∉ W2) (h3 : r ∉ W3) (h4 : r ∉ W4) (h5 : r ∉ W5) (h6 : r ∉ W6) (h7 : r ∉ W7) (h8 : r ∉ W8) :
    T8 m c (Proc.devRef .tc r) = T0 m c (Proc.devRef .tc r) :=
  (frame8 _ r h8).trans (keep7 m c r h1 h2 h3 h4 h5 h6 h7)
theorem keep9 (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) :
    T9 m c (Proc.devRef .tc r) = T0 m c (Proc.devRef .tc r) :=
  (frame9 _ r h9).trans (keep8 m c r h1 h2 h3 h4 h5 h6 h7 h8)
theorem keep10 (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    T10 m c (Proc.devRef .tc r) = T0 m c (Proc.devRef .tc r) :=
  (frame10 _ r h10).trans (keep9 m c r h1 h2 h3 h4 h5 h6 h7 h8 h9)

/-- The launch contents at an argument. -/
theorem T0_arg (r : Ref sig .tc) : T0 m c (Proc.devRef .tc r) = m ((c.tc : Thread nD τ).loc r) := rfl

/-! ## The values at the boundaries -/

theorem at1 : T1 m c (Proc.devRef .tc main_v7) = val_main_v7 (F := F) (m ((c.tc : Thread nD τ).loc main_arg1))
    ∧ T1 m c (Proc.devRef .tc main_v23) = val_main_v23 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
    ∧ T1 m c (Proc.devRef .tc main_v25) = val_main_v25 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  step1 (T0 m c) rfl rfl rfl rfl rfl rfl

theorem at2 : T2 m c (Proc.devRef .tc main_v30) = val_main_v30 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  step2 (T1 m c) (at1 m c).2.2 (keep1 m c main_arg7 (by decide)) (keep1 m c main_arg8 (by decide))

theorem at3 : T3 m c (Proc.devRef .tc main_v34) = val_main_v34 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
    ∧ T3 m c (Proc.devRef .tc main_v38) = val_main_v38 (F := F) (m ((c.tc : Thread nD τ).loc main_arg1)) (m ((c.tc : Thread nD τ).loc main_arg10)) (m ((c.tc : Thread nD τ).loc main_arg12)) :=
  step3 (T2 m c) (at2 m c) ((frame2 _ main_v7 (by decide)).trans (at1 m c).1)
    (keep2 m c main_arg9 (by decide) (by decide)) (keep2 m c main_arg10 (by decide) (by decide))
    (keep2 m c main_arg11 (by decide) (by decide)) (keep2 m c main_arg12 (by decide) (by decide))

theorem at4 : T4 m c (Proc.devRef .tc main_v39) = val_main_v39 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
    ∧ T4 m c (Proc.devRef .tc main_v40) = val_main_v40 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
    ∧ T4 m c (Proc.devRef .tc main_v41) = val_main_v41 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
    ∧ T4 m c (Proc.devRef .tc main_v42) = val_main_v42 (F := F) (m ((c.tc : Thread nD τ).loc main_arg1)) (m ((c.tc : Thread nD τ).loc main_arg10)) (m ((c.tc : Thread nD τ).loc main_arg12))
    ∧ T4 m c (Proc.devRef .tc main_v43) = val_main_v43 (F := F) (m ((c.tc : Thread nD τ).loc main_arg1)) (m ((c.tc : Thread nD τ).loc main_arg10)) (m ((c.tc : Thread nD τ).loc main_arg12))
    ∧ T4 m c (Proc.devRef .tc main_v44) = val_main_v44 (F := F) (m ((c.tc : Thread nD τ).loc main_arg1)) (m ((c.tc : Thread nD τ).loc main_arg10)) (m ((c.tc : Thread nD τ).loc main_arg12)) :=
  step4 (T3 m c) (at3 m c).1 (at3 m c).2

theorem at5 : T5 m c (Proc.devRef .tc main_v51) = val_main_v51 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  step5 (T4 m c) (at4 m c).1 (at4 m c).2.2.2.1

theorem at6 : T6 m c (Proc.devRef .tc main_v58) = val_main_v58 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  step6 (T5 m c) ((frame5 _ main_v40 (by decide)).trans (at4 m c).2.1) ((frame5 _ main_v43 (by decide)).trans (at4 m c).2.2.2.2.1)

/-- The hidden state, read through stretches 2 to 6. -/
theorem v7_at6 : T6 m c (Proc.devRef .tc main_v7) = val_main_v7 (F := F) (m ((c.tc : Thread nD τ).loc main_arg1)) :=
  (frame6 _ main_v7 (by decide)).trans <| (frame5 _ main_v7 (by decide)).trans <| (frame4 _ main_v7 (by decide)).trans <|
    (frame3 _ main_v7 (by decide)).trans <| (frame2 _ main_v7 (by decide)).trans (at1 m c).1

theorem at7 : T7 m c (Proc.devRef .tc main_v66) = val_main_v66 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  step7 (T6 m c) ((frame6 _ main_v51 (by decide)).trans (at5 m c))
    ((frame6 _ main_v44 (by decide)).trans <| (frame5 _ main_v44 (by decide)).trans (at4 m c).2.2.2.2.2)
    ((frame6 _ main_v41 (by decide)).trans <| (frame5 _ main_v41 (by decide)).trans (at4 m c).2.2.1)
    (at6 m c) (v7_at6 m c)

theorem at8 : T8 m c (Proc.devRef .tc main_v70) = val_main_v70 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  step8 (T7 m c) (at7 m c)
    (keep7 m c main_arg13 (by decide) (by decide) (by decide) (by decide) (by decide) (by decide) (by decide))
    (keep7 m c main_arg14 (by decide) (by decide) (by decide) (by decide) (by decide) (by decide) (by decide))

theorem at9 : T9 m c (Proc.devRef .tc main_v71) = val_main_v71 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  step9 (T8 m c) (at8 m c)

theorem at10 : T10 m c (Proc.devRef .tc main_v72) = val_main_v72 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  step10 (T9 m c) ((frame9 _ main_v66 (by decide)).trans <| (frame8 _ main_v66 (by decide)).trans (at7 m c))

/-! ## The three results and the arguments at the end -/

theorem end_v71 : after (ops (F := F)) (launchContents m c) (Proc.devRef .tc main_v71) = val_main_v71 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [after_split]; exact (frame10 _ main_v71 (by decide)).trans (at9 m c)

theorem end_v72 : after (ops (F := F)) (launchContents m c) (Proc.devRef .tc main_v72) = val_main_v72 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_split]; exact at10 m c

theorem end_v23 : after (ops (F := F)) (launchContents m c) (Proc.devRef .tc main_v23) = val_main_v23 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  rw [after_split]
  exact (frame10 _ main_v23 (by decide)).trans <| (frame9 _ main_v23 (by decide)).trans <| (frame8 _ main_v23 (by decide)).trans <|
    (frame7 _ main_v23 (by decide)).trans <| (frame6 _ main_v23 (by decide)).trans <| (frame5 _ main_v23 (by decide)).trans <|
    (frame4 _ main_v23 (by decide)).trans <| (frame3 _ main_v23 (by decide)).trans <| (frame2 _ main_v23 (by decide)).trans (at1 m c).2.1

theorem end_arg (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    after (ops (F := F)) (launchContents m c) (Proc.devRef .tc r) = m ((c.tc : Thread nD τ).loc r) := by
  rw [after_split]; exact keep10 m c r h1 h2 h3 h4 h5 h6 h7 h8 h9 h10

/-- THE RUN over the stages: every weakly fair execution of the reference terminates with its three results at the stage
    functions of the arguments' launch contents, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v72) = val_main_v72 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v23) = val_main_v23 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c main_v71).trans (end_v71 m c), (h c main_v72).trans (end_v72 m c), (h c main_v23).trans (end_v23 m c),
      (h c main_arg0).trans (end_arg m c main_arg0 (by decide) (by decide) (by decide) (by decide) (by decide) (by decide) (by decide) (by decide) (by decide) (by decide)),
      (h c main_arg1).trans (end_arg m c main_arg1 (by decide) (by decide) (by decide) (by decide) (by decide) (by decide) (by decide) (by decide) (by decide) (by decide)),
      (h c main_arg2).trans (end_arg m c main_arg2 (by decide) (by decide) (by decide) (by decide) (by decide) (by decide) (by decide) (by decide) (by decide) (by decide)),
      (h c main_arg3).trans (end_arg m c main_arg3 (by decide) (by decide) (by decide) (by decide) (by decide) (by decide) (by decide) (by decide) (by decide) (by decide)),
      (h c main_arg4).trans (end_arg m c main_arg4 (by decide) (by decide) (by decide) (by decide) (by decide) (by decide) (by decide) (by decide) (by decide) (by decide)),
      (h c main_arg5).trans (end_arg m c main_arg5 (by decide) (by decide) (by decide) (by decide) (by decide) (by decide) (by decide) (by decide) (by decide) (by decide)),
      (h c main_arg6).trans (end_arg m c main_arg6 (by decide) (by decide) (by decide) (by decide) (by decide) (by decide) (by decide) (by decide) (by decide) (by decide)),
      (h c main_arg7).trans (end_arg m c main_arg7 (by decide) (by decide) (by decide) (by decide) (by decide) (by decide) (by decide) (by decide) (by decide) (by decide)),
      (h c main_arg8).trans (end_arg m c main_arg8 (by decide) (by decide) (by decide) (by decide) (by decide) (by decide) (by decide) (by decide) (by decide) (by decide)),
      (h c main_arg9).trans (end_arg m c main_arg9 (by decide) (by decide) (by decide) (by decide) (by decide) (by decide) (by decide) (by decide) (by decide) (by decide)),
      (h c main_arg10).trans (end_arg m c main_arg10 (by decide) (by decide) (by decide) (by decide) (by decide) (by decide) (by decide) (by decide) (by decide) (by decide)),
      (h c main_arg11).trans (end_arg m c main_arg11 (by decide) (by decide) (by decide) (by decide) (by decide) (by decide) (by decide) (by decide) (by decide) (by decide)),
      (h c main_arg12).trans (end_arg m c main_arg12 (by decide) (by decide) (by decide) (by decide) (by decide) (by decide) (by decide) (by decide) (by decide) (by decide)),
      (h c main_arg13).trans (end_arg m c main_arg13 (by decide) (by decide) (by decide) (by decide) (by decide) (by decide) (by decide) (by decide) (by decide) (by decide)),
      (h c main_arg14).trans (end_arg m c main_arg14 (by decide) (by decide) (by decide) (by decide) (by decide) (by decide) (by decide) (by decide) (by decide) (by decide))⟩)
    (run_all m ρ)

end Cert.ReferenceIdeal.Stages

end
-- ==== Proof.KernelIdeal.Val0Pay.lean ====
/-
  The first pallas_call's payload read at one column. The body narrows x and its 512 weight rows (the identity on the
  extended reals), transposes the rows to 4096 × 512, contracts x's axis 1 against the transposed rows' axis 0 into a
  zero accumulator, adds the bias block and takes the maximum with the splat of 0.0. Read at column q of the block this
  is max(Σₖ x[p,k]·W[q,k] + b[p,q], 0.0): stated over three arbitrary blocks of the literal block shapes.
-/
import proofs.«420902_j59081570124588_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx

/-! ## The contraction's operand indices, axis by axis -/

/-- The left operand's free axis carries the output's row. -/
theorem lhs_comb_0 (i : S1x512.Idx) (q : dot_S1x4096_S4096x512_S1x512_1_0_0_1_n_n.contr.Idx) :
    (dot_S1x4096_S4096x512_S1x512_1_0_0_1_n_n.lhsIdx i q 0).val = (i 0).val := by
  unfold DotDims.lhsIdx
  rw [dif_neg (show ¬(0 : Fin S1x4096.rank) ∈ dot_S1x4096_S4096x512_S1x512_1_0_0_1_n_n.lhsBatch by decide), dif_pos (show (0 : Fin S1x4096.rank) ∈ dot_S1x4096_S4096x512_S1x512_1_0_0_1_n_n.lhsNonContracting by decide)]
  rfl
/-- The left operand's contracted axis carries the contraction position. -/
theorem lhs_comb_1 (i : S1x512.Idx) (q : dot_S1x4096_S4096x512_S1x512_1_0_0_1_n_n.contr.Idx) :
    (dot_S1x4096_S4096x512_S1x512_1_0_0_1_n_n.lhsIdx i q 1).val = (q ⟨0, by decide⟩).val :=
  dot_S1x4096_S4096x512_S1x512_1_0_0_1_n_n.lhsIdx_val_of_single rfl i q
/-- The right operand's contracted axis carries the contraction position. -/
theorem rhs_comb_0 (i : S1x512.Idx) (q : dot_S1x4096_S4096x512_S1x512_1_0_0_1_n_n.contr.Idx) :
    (dot_S1x4096_S4096x512_S1x512_1_0_0_1_n_n.rhsIdx i q 0).val = (q ⟨0, by decide⟩).val :=
  dot_S1x4096_S4096x512_S1x512_1_0_0_1_n_n.rhsIdx_val_of_single rfl i q
/-- The right operand's free axis carries the output's column. -/
theorem rhs_comb_1 (i : S1x512.Idx) (q : dot_S1x4096_S4096x512_S1x512_1_0_0_1_n_n.contr.Idx) :
    (dot_S1x4096_S4096x512_S1x512_1_0_0_1_n_n.rhsIdx i q 1).val = (i 1).val := by
  unfold DotDims.rhsIdx
  rw [dif_neg (show ¬(1 : Fin S4096x512.rank) ∈ dot_S1x4096_S4096x512_S1x512_1_0_0_1_n_n.rhsBatch by decide), dif_pos (show (1 : Fin S4096x512.rank) ∈ dot_S1x4096_S4096x512_S1x512_1_0_0_1_n_n.rhsNonContracting by decide)]
  rfl

/-! ## The contraction into the zero accumulator, at an index -/

/-- The product of a 1 × 4096 row and a 4096 × 512 matrix into the zero splat, at (p, q): the sum over k of
    row[p,k] · matrix[k,q]. -/
theorem matmul_comb_apply (a : FVec Ideal S1x4096 .bf16) (b : FVec Ideal S4096x512 .bf16) (p : Fin 1) (q : Fin 512) :
    matmul dot_S1x4096_S4096x512_S1x512_1_0_0_1_n_n none a b (constant (F := Ideal) S1x512 .f32 0x00000000#32) (ix2 p q)
      = ∑ k : Fin 4096, a (ix2 p k) * b (ix2 k q) := by
  simp only [matmul]
  rw [Ideal.matmul_constant_zero_apply, ← Equiv.sum_comp (ValueIdx.contrEquiv1 dot_S1x4096_S4096x512_S1x512_1_0_0_1_n_n 4096 rfl rfl).symm]
  refine Finset.sum_congr rfl fun k _ => ?_
  have hk := ValueIdx.contrEquiv1_symm_val dot_S1x4096_S4096x512_S1x512_1_0_0_1_n_n 4096 rfl rfl k
  have el : dot_S1x4096_S4096x512_S1x512_1_0_0_1_n_n.lhsIdx (ix2 p q) ((ValueIdx.contrEquiv1 dot_S1x4096_S4096x512_S1x512_1_0_0_1_n_n 4096 rfl rfl).symm k) = ix2 p k := funext fun a => Fin.ext (by
    match a with
    | ⟨0, _⟩ => exact lhs_comb_0 _ _
    | ⟨1, _⟩ => exact (lhs_comb_1 _ _).trans hk)
  have er : dot_S1x4096_S4096x512_S1x512_1_0_0_1_n_n.rhsIdx (ix2 p q) ((ValueIdx.contrEquiv1 dot_S1x4096_S4096x512_S1x512_1_0_0_1_n_n 4096 rfl rfl).symm k) = ix2 k q := funext fun a => Fin.ext (by
    match a with
    | ⟨0, _⟩ => exact (rhs_comb_0 _ _).trans hk
    | ⟨1, _⟩ => exact rhs_comb_1 _ _)
  rw [el, er]

/-- The transposed weight rows at (k, q) are the rows at (q, k). -/
theorem transpose_comb_apply (w : FVec Ideal S512x4096 .bf16) (k : Fin 4096) (q : Fin 512) :
    transpose S4096x512 [1, 0] w transposes_S512x4096_p1_0_S4096x512 (ix2 k q) = w (ix2 q k) :=
  transpose_apply [1, 0] w transposes_S512x4096_p1_0_S4096x512 (ix2 k q) (ix2 q k) (fun b => match b with
    | ⟨0, _⟩ => rfl
    | ⟨1, _⟩ => rfl)

/-! ## The payload at a column -/

/-- Column q of the payload: the dot product of x's row with weight row q, plus the bias at q, clamped below at 0.0. -/
theorem pay0_apply (x0 : Vec Ideal S1x4096 .f32) (x1 : Vec Ideal S512x4096 .f32) (x2 : Vec Ideal S1x512 .f32) (p : Fin 1) (q : Fin 512) :
    k0_pay1 (F := Ideal) x0 x1 x2 (ix2 p q)
      = FloatOps.maximumf ((∑ k : Fin 4096, x0 (ix2 p k) * x1 (ix2 q k)) + x2 (ix2 p q)) (FloatOps.ofBits .f32 0x00000000#32) := by
  unfold k0_pay1
  simp only [shapeCast_self]
  rw [maximumf_apply, addf_apply, matmul_comb_apply]
  show max ((∑ k : Fin 4096, _) + _) _ = max ((∑ k : Fin 4096, _) + _) _
  refine congrArg₂ max (congrArg₂ (· + ·) (Finset.sum_congr rfl fun k _ => ?_) rfl) rfl
  rw [transpose_comb_apply]
  rfl

end Cert.KernelIdeal.Val

end
-- ==== Proof.Spec.lean ====
/-
  What the three tiled stages of the decoder step compute, as whole-array functions on the extended reals.
  * comb: the combine layer with its ReLU, out[j] = max(Σₖ x[k]·W[j,k] + b[j], 0).
  * gru: one GRU cell step. With the input projection rows r, z, n of W_ih at j, 2048+j, 4096+j (and likewise W_hh):
      r = σ(i_r + h_r),  z = σ(i_z + h_z),  n = tanh(i_n + r·h_n),  out[j] = (1 − z)·n + z·h[j].
  * logits: out[j] = Σₖ h[k]·W[j,k] + b[j] over the 50257 vocabulary rows.
  Each sum runs over the contraction index in one fixed order; no algebraic law is used between the two programs
  beyond reading each side at an index.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 words 0.0 and 1.0 as the ideal instance reads them. -/
abbrev zeroW : Ideal .f32 := FloatOps.ofBits .f32 0x00000000#32
abbrev oneW : Ideal .f32 := FloatOps.ofBits .f32 0x3F800000#32

/-- Row j of the first, second and third gate block of a 6144-row matrix. -/
abbrev gateRow (g : Fin 3) (j : Fin 2048) : Fin 6144 := ⟨g.val * 2048 + j.val, by have := g.isLt; have := j.isLt; omega⟩

/-- A (3, 2048, 2048) array read as the 6144-row matrix it is a reshape of: row g·2048 + r is plane g, row r. -/
def rows3 (w : FVec Ideal ⟨3, ![3, 2048, 2048]⟩ .f32) : FVec Ideal ⟨2, ![6144, 2048]⟩ .f32 :=
  fun i => w (ix3 (⟨(i 0).val / 2048, by have h : ((i 0 : Fin 6144) : Nat) < 6144 := (i 0).isLt; omega⟩ : Fin 3) (⟨(i 0).val % 2048, Nat.mod_lt _ (by decide)⟩ : Fin 2048) (i 1))

/-- A (3, 1, 2048) array read as the 6144-vector it is a reshape of. -/
def vec3 (b : FVec Ideal ⟨3, ![3, 1, 2048]⟩ .f32) : FVec Ideal ⟨1, ![6144]⟩ .f32 :=
  fun i => b (ix3 (⟨(i 0).val / 2048, by have h : ((i 0 : Fin 6144) : Nat) < 6144 := (i 0).isLt; omega⟩ : Fin 3) (0 : Fin 1) (⟨(i 0).val % 2048, Nat.mod_lt _ (by decide)⟩ : Fin 2048))

/-- A (1, n) row read as the n-vector it is a reshape of. -/
def row1 {n : Nat} (b : FVec Ideal ⟨2, ![1, n]⟩ .f32) : FVec Ideal ⟨1, ![n]⟩ .f32 :=
  fun i => b (ix2 (0 : Fin 1) (i 0))

/-- The combine layer followed by ReLU. -/
def comb (x : FVec Ideal ⟨2, ![1, 4096]⟩ .f32) (W : FVec Ideal ⟨2, ![2048, 4096]⟩ .f32) (b : FVec Ideal ⟨1, ![2048]⟩ .f32) :
    FVec Ideal ⟨2, ![1, 2048]⟩ .f32 :=
  fun i => FloatOps.maximumf ((∑ k : Fin 4096, x (ix2 (0 : Fin 1) k) * W (ix2 (i 1) k)) + b (ix1 (i 1))) zeroW

/-- One gate's pre-activation: a 2048-long dot product with row gateRow g j, plus that row's bias. -/
def proj (x : FVec Ideal ⟨2, ![1, 2048]⟩ .f32) (W : FVec Ideal ⟨2, ![6144, 2048]⟩ .f32) (b : FVec Ideal ⟨1, ![6144]⟩ .f32)
    (g : Fin 3) (j : Fin 2048) : Ideal .f32 :=
  (∑ k : Fin 2048, x (ix2 (0 : Fin 1) k) * W (ix2 (gateRow g j) k)) + b (ix1 (gateRow g j))

/-- The GRU cell. -/
def gru (x h : FVec Ideal ⟨2, ![1, 2048]⟩ .f32) (Wih Whh : FVec Ideal ⟨2, ![6144, 2048]⟩ .f32) (bih bhh : FVec Ideal ⟨1, ![6144]⟩ .f32) :
    FVec Ideal ⟨2, ![1, 2048]⟩ .f32 :=
  fun i =>
    let j : Fin 2048 := i 1
    let r := FloatOps.logistic (FloatOps.addf (proj x Wih bih 0 j) (proj h Whh bhh 0 j))
    let z := FloatOps.logistic (FloatOps.addf (proj x Wih bih 1 j) (proj h Whh bhh 1 j))
    let n := FloatOps.tanh (FloatOps.addf (proj x Wih bih 2 j) (FloatOps.mulf r (proj h Whh bhh 2 j)))
    FloatOps.addf (FloatOps.mulf (FloatOps.subf oneW z) n) (FloatOps.mulf z (h (ix2 (0 : Fin 1) j)))

/-- The output projection. -/
def logits (h : FVec Ideal ⟨2, ![1, 2048]⟩ .f32) (W : FVec Ideal ⟨2, ![50257, 2048]⟩ .f32) (b : FVec Ideal ⟨1, ![50257]⟩ .f32) :
    FVec Ideal ⟨2, ![1, 50257]⟩ .f32 :=
  fun i => (∑ k : Fin 2048, h (ix2 (0 : Fin 1) k) * W (ix2 (i 1) k)) + b (ix1 (i 1))

end Cert.Spec

end
-- ==== Proof.KernelIdeal.Val0.lean ====
/-
  The first pallas_call's output array after its four write-backs: column j of the 1 × 2048 result holds
  max(Σₖ x[0,k]·W[j,k] + b[0,j], 0.0). Point t writes columns 512·t … 512·t+511 from all of x, weight rows
  512·t … 512·t+511 and the same columns of the bias row; the four column blocks tile the array.
-/
import proofs.«420902_j59081570124588_3_alg».proof.Proof.KernelIdeal.Reg0
import proofs.«420902_j59081570124588_3_alg».proof.Proof.KernelIdeal.Val0Pay
import proofs.«420902_j59081570124588_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-! ## One column from three blocks -/

/-- Column q of the payload of three blocks is column i1 of the combine layer of three arrays, when the first block's
    row is the first array's, the second block's row q is the second array's row i1, and the third block's entry at q
    is the third array's at i1. -/
theorem comb_of_blocks (x : FVec Ideal ⟨2, ![1, 4096]⟩ .f32) (W : FVec Ideal ⟨2, ![2048, 4096]⟩ .f32) (b : FVec Ideal ⟨2, ![1, 2048]⟩ .f32)
    (x0 : Vec Ideal S1x4096 .f32) (x1 : Vec Ideal S512x4096 .f32) (x2 : Vec Ideal S1x512 .f32)
    (p : Fin 1) (q : Fin 512) (i0 : Fin 1) (i1 : Fin 2048)
    (h0 : ∀ k : Fin 4096, x0 (ix2 p k) = x (ix2 (0 : Fin 1) k))
    (h1 : ∀ k : Fin 4096, x1 (ix2 q k) = W (ix2 i1 k))
    (h2 : x2 (ix2 p q) = b (ix2 (0 : Fin 1) i1)) :
    k0_pay1 (F := Ideal) x0 x1 x2 (ix2 p q) = Cert.Spec.comb x W (Cert.Spec.row1 b) (ix2 i0 i1) := by
  rw [pay0_apply, h2]
  show _ = FloatOps.maximumf ((∑ k : Fin 4096, x (ix2 (0 : Fin 1) k) * W (ix2 i1 k)) + b (ix2 (0 : Fin 1) i1)) Cert.Spec.zeroW
  refine congrArg₂ FloatOps.maximumf (congrArg₂ (· + ·) (Finset.sum_congr rfl fun k _ => ?_) rfl) rfl
  rw [h0, h1]

/-! ## What each point writes back -/

/-- The combine layer of the arrays the region is entered with. -/
abbrev comb0 (c : Dev nD) : S1x2048.Idx → Elt Ideal .f32 :=
  Cert.Spec.comb (V c main_v25) (V c main_arg7) (Cert.Spec.row1 (V c main_v26))

/-- The block indices over the grid: x's window stays at block (0, 0); the weights' moves down the rows with the
    point; the bias's and the output's move along the columns with the point. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Point t writes back columns 512·t … 512·t+511 of the combine layer. -/
theorem flushed0_eq (c : Dev nD) (t : Fin cfg0.N) :
    (dat0 (F := Ideal) V c).flushed 3 t = ((cfg0.win 3).blk t).view.read (Elt Ideal) (comb0 V c) := by
  show (cfg0.win 3).cut (grid0.coords t) ((dat0 (F := Ideal) V c).after 3 t) = _
  rw [after0_3]
  unfold out0_3
  rw [View.canon_unit_zero zero_offsets]
  simp only [View.ld_unit_zero (S := S1x4096) zero_offsets, View.ld_unit_zero (S := S512x4096) zero_offsets, View.ld_unit_zero (S := S1x512) zero_offsets]
  obtain ⟨e00, e01, e10, e11, e20, e21, e30, e31⟩ := block_indices t
  have hN : cfg0.N = 4 := N_0
  have ht : t.val < 4 := hN ▸ t.isLt
  funext j
  have hj0 : (j 0).val < 1 := (j 0).isLt
  have hj1 : (j 1).val < 512 := (j 1).isLt
  -- the column inside the block, and the column of the array it lands on
  let p : Fin 1 := ⟨(j 0).val, hj0⟩
  let q : Fin 512 := ⟨(j 1).val, hj1⟩
  let i1 : Fin 2048 := ⟨512 * t.val + (j 1).val, by omega⟩
  have hx : (cfg0.win 3).xinj (grid0.coords t) j = (ix2 p q : S1x512.Idx) := funext fun a => by
    match a with
    | ⟨0, _⟩ => rfl
    | ⟨1, _⟩ => rfl
  have he : ((cfg0.win 3).blk t).view.emb j = (ix2 (0 : Fin 1) i1 : S1x2048.Idx) := by
    funext a; apply Fin.ext
    match a with
    | ⟨0, _⟩ => show win0_3.index t (0 : Fin 2) * 1 + 1 * (j 0).val = 0; omega
    | ⟨1, _⟩ => show win0_3.index t (1 : Fin 2) * 512 + 1 * (j 1).val = 512 * t.val + (j 1).val; omega
  show k0_pay1 (F := Ideal) (iblk0 V c 0 t) (iblk0 V c 1 t) (iblk0 V c 2 t) ((cfg0.win 3).xinj (grid0.coords t) j) = comb0 V c (((cfg0.win 3).blk t).view.emb j)
  refine (congrArg (k0_pay1 (F := Ideal) (iblk0 V c 0 t) (iblk0 V c 1 t) (iblk0 V c 2 t)) hx).trans ?_
  refine Eq.trans ?_ (congrArg (comb0 V c) he).symm
  refine comb_of_blocks (V c main_v25) (V c main_arg7) (V c main_v26) (iblk0 V c 0 t) (iblk0 V c 1 t) (iblk0 V c 2 t) p q 0 i1 (fun k => ?_) (fun k => ?_) ?_
  · -- x's block is the whole of x
    show V c main_v25 (((cfg0.win 0).blk t).view.emb (ix2 p k)) = V c main_v25 (ix2 (0 : Fin 1) k)
    refine congrArg (V c main_v25) (funext fun a => Fin.ext ?_)
    match a with
    | ⟨0, _⟩ => show win0_0.index t (0 : Fin 2) * 1 + 1 * (j 0).val = 0; omega
    | ⟨1, _⟩ => show win0_0.index t (1 : Fin 2) * 4096 + 1 * k.val = k.val; omega
  · -- row q of the weights' block is row 512·t + q of the weights
    show V c main_arg7 (((cfg0.win 1).blk t).view.emb (ix2 q k)) = V c main_arg7 (ix2 i1 k)
    refine congrArg (V c main_arg7) (funext fun a => Fin.ext ?_)
    match a with
    | ⟨0, _⟩ => show win0_1.index t (0 : Fin 2) * 512 + 1 * (j 1).val = 512 * t.val + (j 1).val; omega
    | ⟨1, _⟩ => show win0_1.index t (1 : Fin 2) * 4096 + 1 * k.val = k.val; omega
  · -- column q of the bias's block is column 512·t + q of the bias row
    show V c main_v26 (((cfg0.win 2).blk t).view.emb (ix2 p q)) = V c main_v26 (ix2 (0 : Fin 1) i1)
    refine congrArg (V c main_v26) (funext fun a => Fin.ext ?_)
    match a with
    | ⟨0, _⟩ => show win0_2.index t (0 : Fin 2) * 1 + 1 * (j 0).val = 0; omega
    | ⟨1, _⟩ => show win0_2.index t (1 : Fin 2) * 512 + 1 * (j 1).val = 512 * t.val + (j 1).val; omega

/-! ## The four column blocks tile the array -/

/-- An index of the output array is in point t's block iff each coordinate is in the block's range on its axis. -/
theorem mem_blk0 (t : Fin cfg0.N) (i : S1x2048.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v27).slice (win0_3.rect t)).set ↔ _
  rw [View.set_slice_whole, Rect.mem_set_unit]
  exact Iff.rfl

/-- Column j lies in the block of point j / 512, which writes back. -/
theorem covered0 (i : S1x2048.Idx) : ∃ t : Fin cfg0.N, (cfg0.win 3).flush t = true ∧ i ∈ ((cfg0.win 3).blk t).view.set := by
  have hi0 : (i 0).val < 1 := (i 0).isLt
  have hi1 : (i 1).val < 2048 := (i 1).isLt
  have hN : cfg0.N = 4 := N_0
  have ht : (i 1).val / 512 < cfg0.N := by rw [hN]; omega
  obtain ⟨-, -, -, -, -, -, e30, e31⟩ := block_indices ⟨(i 1).val / 512, ht⟩
  refine ⟨⟨(i 1).val / 512, ht⟩, flush0_3 _, ?_⟩
  rw [mem_blk0]
  intro a
  match a with
  | ⟨0, _⟩ => show win0_3.index ⟨(i 1).val / 512, ht⟩ (0 : Fin 2) * 1 ≤ (i 0).val ∧ (i 0).val < win0_3.index ⟨(i 1).val / 512, ht⟩ (0 : Fin 2) * 1 + 1; omega
  | ⟨1, _⟩ => show win0_3.index ⟨(i 1).val / 512, ht⟩ (1 : Fin 2) * 512 ≤ (i 1).val ∧ (i 1).val < win0_3.index ⟨(i 1).val / 512, ht⟩ (1 : Fin 2) * 512 + 512; rw [e31]; show (i 1).val / 512 * 512 ≤ (i 1).val ∧ (i 1).val < (i 1).val / 512 * 512 + 512; omega

/-! ## The array after the region -/

/-- After the four write-backs the output array is the combine layer of x, the weights and the bias row. -/
theorem final0 (c : Dev nD) :
    (dat0 (F := Ideal) V c).arrAt 3 cfg0.N = Cert.Spec.comb (V c main_v25) (V c main_arg7) (Cert.Spec.row1 (V c main_v26)) :=
  (dat0 (F := Ideal) V c).arrAt_eq_of_cover 3 (comb0 V c) (fun t _ => flushed0_eq V c t) covered0

end Cert.KernelIdeal.Val

end
-- ==== Proof.KernelIdeal.Val1Pay.lean ====
/-
  The fused GRU cell's arithmetic at one entry of a tile, on the extended reals. A tile holds 256 hidden units. For
  unit q of the tile and gate g the body forms a 2048-long dot product of a row vector with row q of plane g of a
  (3, 256, 2048) weight tile and adds entry (g, 0, q) of a (3, 1, 256) bias tile; the three input-side and three
  hidden-side pre-activations are then combined pointwise as r = σ(i_r + h_r), z = σ(i_z + h_z),
  n = tanh(i_n + r·h_n), out = (1 − z)·n + z·h. The roundings to bf16 in front of the products are the identity here.
-/
import proofs.«420902_j59081570124588_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-! ## The tile's dot product read as a sum over the 2048 contraction positions -/

theorem lhs_tile_0 (i : S1x256.Idx) (q : dot_S1x2048_S2048x256_S1x256_1_0_0_1_n_n.contr.Idx) :
    (dot_S1x2048_S2048x256_S1x256_1_0_0_1_n_n.lhsIdx i q 0).val = (i 0).val := by
  unfold DotDims.lhsIdx
  rw [dif_neg (show ¬(0 : Fin S1x2048.rank) ∈ dot_S1x2048_S2048x256_S1x256_1_0_0_1_n_n.lhsBatch by decide), dif_pos (show (0 : Fin S1x2048.rank) ∈ dot_S1x2048_S2048x256_S1x256_1_0_0_1_n_n.lhsNonContracting by decide)]
  rfl
theorem lhs_tile_1 (i : S1x256.Idx) (q : dot_S1x2048_S2048x256_S1x256_1_0_0_1_n_n.contr.Idx) :
    (dot_S1x2048_S2048x256_S1x256_1_0_0_1_n_n.lhsIdx i q 1).val = (q ⟨0, by decide⟩).val :=
  dot_S1x2048_S2048x256_S1x256_1_0_0_1_n_n.lhsIdx_val_of_single rfl i q
theorem rhs_tile_0 (i : S1x256.Idx) (q : dot_S1x2048_S2048x256_S1x256_1_0_0_1_n_n.contr.Idx) :
    (dot_S1x2048_S2048x256_S1x256_1_0_0_1_n_n.rhsIdx i q 0).val = (q ⟨0, by decide⟩).val :=
  dot_S1x2048_S2048x256_S1x256_1_0_0_1_n_n.rhsIdx_val_of_single rfl i q
theorem rhs_tile_1 (i : S1x256.Idx) (q : dot_S1x2048_S2048x256_S1x256_1_0_0_1_n_n.contr.Idx) :
    (dot_S1x2048_S2048x256_S1x256_1_0_0_1_n_n.rhsIdx i q 1).val = (i 1).val := by
  unfold DotDims.rhsIdx
  rw [dif_neg (show ¬(1 : Fin S2048x256.rank) ∈ dot_S1x2048_S2048x256_S1x256_1_0_0_1_n_n.rhsBatch by decide), dif_pos (show (1 : Fin S2048x256.rank) ∈ dot_S1x2048_S2048x256_S1x256_1_0_0_1_n_n.rhsNonContracting by decide)]
  rfl

/-- A (1, 2048) row against a (2048, 256) matrix, accumulated into zero: entry q is Σₖ x[0,k]·R[k,q]. -/
theorem dot_tile_apply (x : FVec Ideal S1x2048 .bf16) (R : FVec Ideal S2048x256 .bf16) (q : Fin 256) :
    matmul dot_S1x2048_S2048x256_S1x256_1_0_0_1_n_n none x R (constant (F := Ideal) S1x256 .f32 0x00000000#32) (ix2 (0 : Fin 1) q)
      = ∑ k : Fin 2048, x (ix2 (0 : Fin 1) k) * R (ix2 k q) := by
  simp only [matmul]
  rw [Ideal.matmul_constant_zero_apply, ← Equiv.sum_comp (ValueIdx.contrEquiv1 dot_S1x2048_S2048x256_S1x256_1_0_0_1_n_n 2048 rfl rfl).symm]
  refine Finset.sum_congr rfl fun k _ => ?_
  have hk := ValueIdx.contrEquiv1_symm_val dot_S1x2048_S2048x256_S1x256_1_0_0_1_n_n 2048 rfl rfl k
  have el : dot_S1x2048_S2048x256_S1x256_1_0_0_1_n_n.lhsIdx (ix2 (0 : Fin 1) q) ((ValueIdx.contrEquiv1 dot_S1x2048_S2048x256_S1x256_1_0_0_1_n_n 2048 rfl rfl).symm k) = ix2 (0 : Fin 1) k := funext fun a => Fin.ext (by
    match a with
    | ⟨0, _⟩ => exact lhs_tile_0 _ _
    | ⟨1, _⟩ => exact (lhs_tile_1 _ _).trans hk)
  have er : dot_S1x2048_S2048x256_S1x256_1_0_0_1_n_n.rhsIdx (ix2 (0 : Fin 1) q) ((ValueIdx.contrEquiv1 dot_S1x2048_S2048x256_S1x256_1_0_0_1_n_n 2048 rfl rfl).symm k) = ix2 k q := funext fun a => Fin.ext (by
    match a with
    | ⟨0, _⟩ => exact (rhs_tile_0 _ _).trans hk
    | ⟨1, _⟩ => exact rhs_tile_1 _ _)
  rw [el, er]

/-! ## Plane g of a weight tile, transposed, and row g of a bias tile -/

/-- Plane o of a (3, 256, 2048) tile with its unit axis dropped and then transposed reads, at (k, q), the tile at (o, q, k). -/
theorem plane_apply (o : Nat) (ho : o < 3) (h : S3x256x2048.Slices ![o, 0, 0] S1x256x2048) (W : FVec Ideal S3x256x2048 .bf16)
    (k : Fin 2048) (q : Fin 256) :
    transpose S2048x256 [1, 0] (shapeCast S256x2048 (extractStridedSlice S1x256x2048 ![o, 0, 0] W h) shapeCasts_S1x256x2048_S256x2048)
        transposes_S256x2048_p1_0_S2048x256 (ix2 k q) = W (ix3 (⟨o, ho⟩ : Fin 3) q k) := by
  rw [transpose_ix2_apply, shapeCast_1ab_ab_apply]
  refine extractStridedSlice_apply _ W h _ _ fun a => ?_
  match a with
  | ⟨0, _⟩ => rfl
  | ⟨1, _⟩ => exact (Nat.zero_add _).symm
  | ⟨2, _⟩ => exact (Nat.zero_add _).symm

/-- Row o of a (3, 1, 256) tile with its unit axis dropped reads, at (0, q), the tile at (o, 0, q). -/
theorem row_apply (o : Nat) (ho : o < 3) (h : S3x1x256.Slices ![o, 0, 0] S1x1x256) (b : FVec Ideal S3x1x256 .f32) (q : Fin 256) :
    shapeCast S1x256 (extractStridedSlice S1x1x256 ![o, 0, 0] b h) shapeCasts_S1x1x256_S1x256 (ix2 (0 : Fin 1) q)
      = b (ix3 (⟨o, ho⟩ : Fin 3) (0 : Fin 1) q) := by
  rw [shapeCast_1ab_ab_apply]
  refine extractStridedSlice_apply _ b h _ _ fun a => ?_
  match a with
  | ⟨0, _⟩ => rfl
  | ⟨1, _⟩ => rfl
  | ⟨2, _⟩ => exact (Nat.zero_add _).symm

/-! ## The pre-activations and the gate arithmetic at one entry -/

/-- Gate g's pre-activation at unit q of a tile: the dot product with row q of plane g, plus the bias entry (g, 0, q). -/
def tileProj (x : FVec Ideal S1x2048 .f32) (W : FVec Ideal S3x256x2048 .f32) (b : FVec Ideal S3x1x256 .f32) (g : Fin 3) (q : Fin 256) :
    Ideal .f32 :=
  (∑ k : Fin 2048, x (ix2 (0 : Fin 1) k) * W (ix3 g q k)) + b (ix3 g (0 : Fin 1) q)

/-- The GRU cell's pointwise part, from the six pre-activations and the old hidden value. -/
def gate (ir iz inn hr hz hn h : Ideal .f32) : Ideal .f32 :=
  let r := FloatOps.logistic (FloatOps.addf ir hr)
  let z := FloatOps.logistic (FloatOps.addf iz hz)
  let n := FloatOps.tanh (FloatOps.addf inn (FloatOps.mulf r hn))
  FloatOps.addf (FloatOps.mulf (FloatOps.subf (FloatOps.ofBits .f32 0x3F800000#32) z) n) (FloatOps.mulf z h)

/-- The input side's reset pre-activation. -/
theorem pay9_apply (x0 : FVec Ideal S1x2048 .f32) (x3 : FVec Ideal S3x256x2048 .f32) (x5 : FVec Ideal S3x1x256 .f32) (q : Fin 256) :
    k1_pay9 (F := Ideal) x0 x3 x5 (ix2 (0 : Fin 1) q) = tileProj x0 x3 x5 0 q := by
  unfold k1_pay9 k1_pay2 k1_pay4 k1_pay6 tileProj
  simp only [shapeCast_self]
  rw [addf_apply, dot_tile_apply, row_apply 0 (by decide)]
  simp only [plane_apply 0 (by decide), truncf_apply]
  rfl

/-- The input side's update pre-activation. -/
theorem pay10_apply (x0 : FVec Ideal S1x2048 .f32) (x3 : FVec Ideal S3x256x2048 .f32) (x5 : FVec Ideal S3x1x256 .f32) (q : Fin 256) :
    k1_pay10 (F := Ideal) x0 x3 x5 (ix2 (0 : Fin 1) q) = tileProj x0 x3 x5 1 q := by
  unfold k1_pay10 k1_pay2 k1_pay4 k1_pay6 tileProj
  simp only [shapeCast_self]
  rw [addf_apply, dot_tile_apply, row_apply 1 (by decide)]
  simp only [plane_apply 1 (by decide), truncf_apply]
  rfl

/-- The input side's candidate dot product and its bias entry, kept apart by the body and added later. -/
theorem pay11_apply (x0 : FVec Ideal S1x2048 .f32) (x3 : FVec Ideal S3x256x2048 .f32) (q : Fin 256) :
    k1_pay11 (F := Ideal) x0 x3 (ix2 (0 : Fin 1) q) = ∑ k : Fin 2048, x0 (ix2 (0 : Fin 1) k) * x3 (ix3 (2 : Fin 3) q k) := by
  unfold k1_pay11 k1_pay2 k1_pay4
  simp only [shapeCast_self]
  rw [dot_tile_apply]
  simp only [plane_apply 2 (by decide), truncf_apply]
  rfl
theorem pay12_apply (x5 : FVec Ideal S3x1x256 .f32) (q : Fin 256) :
    k1_pay12 (F := Ideal) x5 (ix2 (0 : Fin 1) q) = x5 (ix3 (2 : Fin 3) (0 : Fin 1) q) := by
  unfold k1_pay12 k1_pay6
  simp only [shapeCast_self]
  rw [row_apply 2 (by decide)]
  rfl

/-- The values the body carries unchanged to its last stage: the hidden row and tile, the hidden-side weights and biases. -/
theorem pay3_apply (x1 : FVec Ideal S1x2048 .f32) (i : S1x2048.Idx) : k1_pay3 (F := Ideal) x1 i = x1 i := by
  unfold k1_pay3; simp only [shapeCast_self]; rfl
theorem pay5_apply (x4 : FVec Ideal S3x256x2048 .f32) (i : S3x256x2048.Idx) : k1_pay5 (F := Ideal) x4 i = x4 i := by
  unfold k1_pay5; simp only [shapeCast_self]; rfl
theorem pay7_eq (x6 : FVec Ideal S3x1x256 .f32) : k1_pay7 (F := Ideal) x6 = x6 := by
  unfold k1_pay7; simp only [shapeCast_self]
theorem pay8_eq (x2 : FVec Ideal S1x256 .f32) : k1_pay8 (F := Ideal) x2 = x2 := by
  unfold k1_pay8; simp only [shapeCast_self]

theorem logistic_apply {s : Shape} {φ : FTy} (a : FVec Ideal s φ) (i : s.Idx) : logistic a i = FloatOps.logistic (a i) := rfl
theorem tanh_apply {s : Shape} {φ : FTy} (a : FVec Ideal s φ) (i : s.Idx) : tanh a i = FloatOps.tanh (a i) := rfl

/-- The body's last stage at unit q: the three hidden-side pre-activations formed from the carried row, weight tile and
    bias tile, then the gate arithmetic with the input-side values handed over (the candidate's dot product and bias
    arrive apart and are added first). -/
theorem pay1_apply (v5 : FVec Ideal S1x2048 .bf16) (v11 : FVec Ideal S3x256x2048 .bf16) (v15 : FVec Ideal S3x1x256 .f32)
    (v17 v24 v31 v35 v37 : FVec Ideal S1x256 .f32) (q : Fin 256) :
    k1_pay1 (F := Ideal) v5 v11 v15 v17 v24 v31 v35 v37 (ix2 (0 : Fin 1) q)
      = gate (v24 (ix2 (0 : Fin 1) q)) (v31 (ix2 (0 : Fin 1) q)) (v35 (ix2 (0 : Fin 1) q) + v37 (ix2 (0 : Fin 1) q))
          ((∑ k : Fin 2048, v5 (ix2 (0 : Fin 1) k) * v11 (ix3 (0 : Fin 3) q k)) + v15 (ix3 (0 : Fin 3) (0 : Fin 1) q))
          ((∑ k : Fin 2048, v5 (ix2 (0 : Fin 1) k) * v11 (ix3 (1 : Fin 3) q k)) + v15 (ix3 (1 : Fin 3) (0 : Fin 1) q))
          ((∑ k : Fin 2048, v5 (ix2 (0 : Fin 1) k) * v11 (ix3 (2 : Fin 3) q k)) + v15 (ix3 (2 : Fin 3) (0 : Fin 1) q))
          (v17 (ix2 (0 : Fin 1) q)) := by
  unfold k1_pay1 gate
  simp only [addf_apply, mulf_apply, subf_apply, logistic_apply, tanh_apply, broadcast_apply, dot_tile_apply,
    row_apply 0 (by decide), row_apply 1 (by decide), row_apply 2 (by decide),
    plane_apply 0 (by decide), plane_apply 1 (by decide), plane_apply 2 (by decide)]
  rfl

/-- The body's store at unit q of a tile, from the seven loaded blocks. -/
theorem cell_apply (x0 x1 : FVec Ideal S1x2048 .f32) (x2 : FVec Ideal S1x256 .f32) (x3 x4 : FVec Ideal S3x256x2048 .f32)
    (x5 x6 : FVec Ideal S3x1x256 .f32) (q : Fin 256) :
    k1_pay1 (F := Ideal) (k1_pay3 x1) (k1_pay5 x4) (k1_pay7 x6) (k1_pay8 x2) (k1_pay9 x0 x3 x5) (k1_pay10 x0 x3 x5) (k1_pay11 x0 x3) (k1_pay12 x5)
        (ix2 (0 : Fin 1) q)
      = gate (tileProj x0 x3 x5 0 q) (tileProj x0 x3 x5 1 q) (tileProj x0 x3 x5 2 q)
          (tileProj x1 x4 x6 0 q) (tileProj x1 x4 x6 1 q) (tileProj x1 x4 x6 2 q) (x2 (ix2 (0 : Fin 1) q)) := by
  rw [pay1_apply, pay9_apply, pay10_apply, pay11_apply, pay12_apply, pay7_eq, pay8_eq]
  simp only [pay3_apply, pay5_apply]
  rfl

end Cert.KernelIdeal.Val

end
-- ==== Proof.KernelIdeal.Val1.lean ====
/-
  The second pallas_call's output array after its eight grid points, on the extended reals: the GRU cell of the whole
  arrays. Point t stores units 256·t … 256·t+255. Its input blocks are restrictions of the arrays — x and h whole,
  h's tile the same 256 columns of h, rows 256·t … of every gate plane of the two weight arrays, the same columns of
  the two bias arrays — so the body's value at unit q of the tile is the cell at unit 256·t + q, and the eight tiles
  cover the 2048 units.
-/
import proofs.«420902_j59081570124588_3_alg».proof.Proof.KernelIdeal.Reg1Defs
import proofs.«420902_j59081570124588_3_alg».proof.Proof.KernelIdeal.Val1Pay
import proofs.«420902_j59081570124588_3_alg».proof.Proof.Spec
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's store at a unit of the tile -/

theorem out1_7_apply (x0 x1 : Vec Ideal S1x2048 .f32) (x2 : Vec Ideal S1x256 .f32) (x3 x4 : Vec Ideal S3x256x2048 .f32)
    (x5 x6 : Vec Ideal S3x1x256 .f32) (q : Fin 256) :
    out1_7 x0 x1 x2 x3 x4 x5 x6 (ix2 (0 : Fin 1) q)
      = gate (tileProj x0 x3 x5 0 q) (tileProj x0 x3 x5 1 q) (tileProj x0 x3 x5 2 q)
          (tileProj x1 x4 x6 0 q) (tileProj x1 x4 x6 1 q) (tileProj x1 x4 x6 2 q) (x2 (ix2 (0 : Fin 1) q)) := by
  unfold out1_7
  rw [View.canon_unit_zero hz2]
  simp only [View.ld_unit_zero (S := S1x2048) hz2, View.ld_unit_zero (S := S1x256) hz2,
    View.ld_unit_zero (S := S3x256x2048) hz3, View.ld_unit_zero (S := S3x1x256) hz3]
  exact cell_apply x0 x1 x2 x3 x4 x5 x6 q

/-! ## Rows of the reshaped weight and bias arrays -/

theorem rows3_gateRow (W : FVec Ideal ⟨3, ![3, 2048, 2048]⟩ .f32) (g : Fin 3) (j k : Fin 2048) :
    Spec.rows3 W (ix2 (Spec.gateRow g j) k) = W (ix3 g j k) := by
  have hg := g.isLt
  have hj := j.isLt
  unfold Spec.rows3
  refine congrArg W (funext fun a => Fin.ext ?_)
  match a with
  | ⟨0, _⟩ => show (g.val * 2048 + j.val) / 2048 = g.val; omega
  | ⟨1, _⟩ => show (g.val * 2048 + j.val) % 2048 = j.val; omega
  | ⟨2, _⟩ => rfl

theorem vec3_gateRow (b : FVec Ideal ⟨3, ![3, 1, 2048]⟩ .f32) (g : Fin 3) (j : Fin 2048) :
    Spec.vec3 b (ix1 (Spec.gateRow g j)) = b (ix3 g (0 : Fin 1) j) := by
  have hg := g.isLt
  have hj := j.isLt
  unfold Spec.vec3
  refine congrArg b (funext fun a => Fin.ext ?_)
  match a with
  | ⟨0, _⟩ => show (g.val * 2048 + j.val) / 2048 = g.val; omega
  | ⟨1, _⟩ => rfl
  | ⟨2, _⟩ => show (g.val * 2048 + j.val) % 2048 = j.val; omega

/-- A tile's pre-activation at unit q is the whole arrays' at unit j, when the tile's row, weight rows and bias entries
    are the arrays' at j. -/
theorem tileProj_eq (X : FVec Ideal ⟨2, ![1, 2048]⟩ .f32) (Wf : FVec Ideal ⟨3, ![3, 2048, 2048]⟩ .f32) (bf : FVec Ideal ⟨3, ![3, 1, 2048]⟩ .f32)
    (x : FVec Ideal S1x2048 .f32) (W : FVec Ideal S3x256x2048 .f32) (b : FVec Ideal S3x1x256 .f32) (q : Fin 256) (j : Fin 2048)
    (hx : ∀ k : Fin 2048, x (ix2 (0 : Fin 1) k) = X (ix2 (0 : Fin 1) k))
    (hW : ∀ (g : Fin 3) (k : Fin 2048), W (ix3 g q k) = Wf (ix3 g j k))
    (hb : ∀ g : Fin 3, b (ix3 g (0 : Fin 1) q) = bf (ix3 g (0 : Fin 1) j)) (g : Fin 3) :
    tileProj x W b g q = Spec.proj X (Spec.rows3 Wf) (Spec.vec3 bf) g j := by
  unfold tileProj Spec.proj
  rw [hb g, vec3_gateRow]
  refine congrArg (· + bf (ix3 g (0 : Fin 1) j)) (Finset.sum_congr rfl fun k _ => ?_)
  rw [hx k, hW g k, rows3_gateRow]

/-- The gate arithmetic of a tile's blocks at unit q is the cell of the whole arrays at unit j. -/
theorem gate_eq (X H : FVec Ideal ⟨2, ![1, 2048]⟩ .f32) (Wi Wh : FVec Ideal ⟨3, ![3, 2048, 2048]⟩ .f32) (bi bh : FVec Ideal ⟨3, ![3, 1, 2048]⟩ .f32)
    (x0 x1 : FVec Ideal S1x2048 .f32) (x2 : FVec Ideal S1x256 .f32) (x3 x4 : FVec Ideal S3x256x2048 .f32) (x5 x6 : FVec Ideal S3x1x256 .f32)
    (q : Fin 256) (j : Fin 2048)
    (h0 : ∀ k : Fin 2048, x0 (ix2 (0 : Fin 1) k) = X (ix2 (0 : Fin 1) k))
    (h1 : ∀ k : Fin 2048, x1 (ix2 (0 : Fin 1) k) = H (ix2 (0 : Fin 1) k))
    (h2 : x2 (ix2 (0 : Fin 1) q) = H (ix2 (0 : Fin 1) j))
    (h3 : ∀ (g : Fin 3) (k : Fin 2048), x3 (ix3 g q k) = Wi (ix3 g j k))
    (h4 : ∀ (g : Fin 3) (k : Fin 2048), x4 (ix3 g q k) = Wh (ix3 g j k))
    (h5 : ∀ g : Fin 3, x5 (ix3 g (0 : Fin 1) q) = bi (ix3 g (0 : Fin 1) j))
    (h6 : ∀ g : Fin 3, x6 (ix3 g (0 : Fin 1) q) = bh (ix3 g (0 : Fin 1) j)) :
    gate (tileProj x0 x3 x5 0 q) (tileProj x0 x3 x5 1 q) (tileProj x0 x3 x5 2 q)
        (tileProj x1 x4 x6 0 q) (tileProj x1 x4 x6 1 q) (tileProj x1 x4 x6 2 q) (x2 (ix2 (0 : Fin 1) q))
      = Spec.gru X H (Spec.rows3 Wi) (Spec.rows3 Wh) (Spec.vec3 bi) (Spec.vec3 bh) (ix2 (0 : Fin 1) j) := by
  rw [tileProj_eq X Wi bi x0 x3 x5 q j h0 h3 h5 0, tileProj_eq X Wi bi x0 x3 x5 q j h0 h3 h5 1, tileProj_eq X Wi bi x0 x3 x5 q j h0 h3 h5 2,
    tileProj_eq H Wh bh x1 x4 x6 q j h1 h4 h6 0, tileProj_eq H Wh bh x1 x4 x6 q j h1 h4 h6 1, tileProj_eq H Wh bh x1 x4 x6 q j h1 h4 h6 2, h2]
  rfl

/-! ## The blocks as restrictions of the arrays -/

/-- The printed index maps over the grid: x and h are fetched whole; h's tile, the weight rows and the bias columns move
    with the output's tile, block t at point t. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0
    ∧ win1_5.index t (0 : Fin 3) = 0 ∧ win1_5.index t (1 : Fin 3) = 0 ∧ win1_5.index t (2 : Fin 3) = t.val
    ∧ win1_6.index t (0 : Fin 3) = 0 ∧ win1_6.index t (1 : Fin 3) = 0 ∧ win1_6.index t (2 : Fin 3) = t.val
    ∧ win1_7.index t (0 : Fin 2) = 0 ∧ win1_7.index t (1 : Fin 2) = t.val :=
  (by decide +kernel : ∀ t : Fin grid1.N, _)

/-- x, fetched whole. -/
theorem iblk1_0_apply (c : Dev nD) (t : Fin cfg1.N) (k : Fin 2048) :
    (iblk1 V c 0 t : Vec Ideal S1x2048 .f32) (ix2 (0 : Fin 1) k) = (V c main_v27 : S1x2048.Idx → Ideal .f32) (ix2 (0 : Fin 1) k) := by
  obtain ⟨e00, e01, -⟩ := idx_facts1 t
  unfold iblk1
  rw [View.read_apply]
  show V c main_v27 _ = V c main_v27 _
  congr 1
  funext a
  apply Fin.ext
  match a with
  | ⟨0, _⟩ => show win1_0.index t (0 : Fin 2) * 1 + 1 * 0 = 0; omega
  | ⟨1, _⟩ => show win1_0.index t (1 : Fin 2) * 2048 + 1 * k.val = k.val; omega

/-- h, fetched whole. -/
theorem iblk1_1_apply (c : Dev nD) (t : Fin cfg1.N) (k : Fin 2048) :
    (iblk1 V c 1 t : Vec Ideal S1x2048 .f32) (ix2 (0 : Fin 1) k) = (V c main_v7 : S1x2048.Idx → Ideal .f32) (ix2 (0 : Fin 1) k) := by
  obtain ⟨-, -, e10, e11, -⟩ := idx_facts1 t
  unfold iblk1
  rw [View.read_apply]
  show V c main_v7 _ = V c main_v7 _
  congr 1
  funext a
  apply Fin.ext
  match a with
  | ⟨0, _⟩ => show win1_1.index t (0 : Fin 2) * 1 + 1 * 0 = 0; omega
  | ⟨1, _⟩ => show win1_1.index t (1 : Fin 2) * 2048 + 1 * k.val = k.val; omega

/-- h's tile at point t: columns 256·t … of h. -/
theorem iblk1_2_apply (c : Dev nD) (t : Fin cfg1.N) (q : Fin 256) (j : Fin 2048) (hj : j.val = 256 * t.val + q.val) :
    (iblk1 V c 2 t : Vec Ideal S1x256 .f32) (ix2 (0 : Fin 1) q) = (V c main_v7 : S1x2048.Idx → Ideal .f32) (ix2 (0 : Fin 1) j) := by
  obtain ⟨-, -, -, -, e20, e21, -⟩ := idx_facts1 t
  unfold iblk1
  rw [View.read_apply]
  show V c main_v7 _ = V c main_v7 _
  congr 1
  funext a
  apply Fin.ext
  match a with
  | ⟨0, _⟩ => show win1_2.index t (0 : Fin 2) * 1 + 1 * 0 = 0; omega
  | ⟨1, _⟩ => show win1_2.index t (1 : Fin 2) * 256 + 1 * q.val = j.val; omega

/-- The input weights' tile at point t: rows 256·t … of every gate plane. -/
theorem iblk1_3_apply (c : Dev nD) (t : Fin cfg1.N) (q : Fin 256) (j : Fin 2048) (hj : j.val = 256 * t.val + q.val) (g : Fin 3) (k : Fin 2048) :
    (iblk1 V c 3 t : Vec Ideal S3x256x2048 .f32) (ix3 g q k) = (V c main_v28 : S3x2048x2048.Idx → Ideal .f32) (ix3 g j k) := by
  obtain ⟨-, -, -, -, -, -, e30, e31, e32, -⟩ := idx_facts1 t
  unfold iblk1
  rw [View.read_apply]
  show V c main_v28 _ = V c main_v28 _
  congr 1
  funext a
  apply Fin.ext
  match a with
  | ⟨0, _⟩ => show win1_3.index t (0 : Fin 3) * 3 + 1 * g.val = g.val; omega
  | ⟨1, _⟩ => show win1_3.index t (1 : Fin 3) * 256 + 1 * q.val = j.val; omega
  | ⟨2, _⟩ => show win1_3.index t (2 : Fin 3) * 2048 + 1 * k.val = k.val; omega

/-- The hidden weights' tile at point t. -/
theorem iblk1_4_apply (c : Dev nD) (t : Fin cfg1.N) (q : Fin 256) (j : Fin 2048) (hj : j.val = 256 * t.val + q.val) (g : Fin 3) (k : Fin 2048) :
    (iblk1 V c 4 t : Vec Ideal S3x256x2048 .f32) (ix3 g q k) = (V c main_v29 : S3x2048x2048.Idx → Ideal .f32) (ix3 g j k) := by
  obtain ⟨-, -, -, -, -, -, -, -, -, e40, e41, e42, -⟩ := idx_facts1 t
  unfold iblk1
  rw [View.read_apply]
  show V c main_v29 _ = V c main_v29 _
  congr 1
  funext a
  apply Fin.ext
  match a with
  | ⟨0, _⟩ => show win1_4.index t (0 : Fin 3) * 3 + 1 * g.val = g.val; omega
  | ⟨1, _⟩ => show win1_4.index t (1 : Fin 3) * 256 + 1 * q.val = j.val; omega
  | ⟨2, _⟩ => show win1_4.index t (2 : Fin 3) * 2048 + 1 * k.val = k.val; omega

/-- The input biases' tile at point t: columns 256·t … of every gate row. -/
theorem iblk1_5_apply (c : Dev nD) (t : Fin cfg1.N) (q : Fin 256) (j : Fin 2048) (hj : j.val = 256 * t.val + q.val) (g : Fin 3) :
    (iblk1 V c 5 t : Vec Ideal S3x1x256 .f32) (ix3 g (0 : Fin 1) q) = (V c main_v30 : S3x1x2048.Idx → Ideal .f32) (ix3 g (0 : Fin 1) j) := by
  obtain ⟨-, -, -, -, -, -, -, -, -, -, -, -, e50, e51, e52, -⟩ := idx_facts1 t
  unfold iblk1
  rw [View.read_apply]
  show V c main_v30 _ = V c main_v30 _
  congr 1
  funext a
  apply Fin.ext
  match a with
  | ⟨0, _⟩ => show win1_5.index t (0 : Fin 3) * 3 + 1 * g.val = g.val; omega
  | ⟨1, _⟩ => show win1_5.index t (1 : Fin 3) * 1 + 1 * 0 = 0; omega
  | ⟨2, _⟩ => show win1_5.index t (2 : Fin 3) * 256 + 1 * q.val = j.val; omega

/-- The hidden biases' tile at point t. -/
theorem iblk1_6_apply (c : Dev nD) (t : Fin cfg1.N) (q : Fin 256) (j : Fin 2048) (hj : j.val = 256 * t.val + q.val) (g : Fin 3) :
    (iblk1 V c 6 t : Vec Ideal S3x1x256 .f32) (ix3 g (0 : Fin 1) q) = (V c main_v31 : S3x1x2048.Idx → Ideal .f32) (ix3 g (0 : Fin 1) j) := by
  obtain ⟨-, -, -, -, -, -, -, -, -, -, -, -, -, -, -, e60, e61, e62, -⟩ := idx_facts1 t
  unfold iblk1
  rw [View.read_apply]
  show V c main_v31 _ = V c main_v31 _
  congr 1
  funext a
  apply Fin.ext
  match a with
  | ⟨0, _⟩ => show win1_6.index t (0 : Fin 3) * 3 + 1 * g.val = g.val; omega
  | ⟨1, _⟩ => show win1_6.index t (1 : Fin 3) * 1 + 1 * 0 = 0; omega
  | ⟨2, _⟩ => show win1_6.index t (2 : Fin 3) * 256 + 1 * q.val = j.val; omega

/-! ## What a point writes back, the cover, the array -/

/-- The GRU cell of the arrays as the region finds them. -/
abbrev cell1 (c : Dev nD) : FVec Ideal ⟨2, ![1, 2048]⟩ .f32 :=
  Spec.gru (V c main_v27) (V c main_v7) (Spec.rows3 (V c main_v28)) (Spec.rows3 (V c main_v29))
    (Spec.vec3 (V c main_v30)) (Spec.vec3 (V c main_v31))

theorem after1_7 (c : Dev nD) (t : Fin cfg1.N) :
    (dat1 (F := Ideal) V c).after 7 t
      = out1_7 (iblk1 V c 0 t) (iblk1 V c 1 t) (iblk1 V c 2 t) (iblk1 V c 3 t) (iblk1 V c 4 t) (iblk1 V c 5 t) (iblk1 V c 6 t) := by
  dsimp only [dat1]

/-- Point t writes back block t of the cell of the arrays. -/
theorem flushed1_eq (c : Dev nD) (t : Fin cfg1.N) :
    (dat1 (F := Ideal) V c).flushed 7 t = ((cfg1.win 7).blk t).view.read (Elt Ideal) (cell1 V c) := by
  obtain ⟨-, -, -, -, -, -, -, -, -, -, -, -, -, -, -, -, -, -, e70, e71⟩ := idx_facts1 t
  have hN : cfg1.N = 8 := N_1
  have ht : t.val < 8 := hN ▸ t.isLt
  show (cfg1.win 7).cut (grid1.coords t) ((dat1 (F := Ideal) V c).after 7 t) = _
  rw [after1_7]
  funext y
  have hy0 : (y 0).val < 1 := (y 0).isLt
  have hy1 : (y 1).val < 256 := (y 1).isLt
  obtain ⟨q, hq⟩ : ∃ q : Fin 256, q.val = (y 1).val := ⟨⟨(y 1).val, hy1⟩, rfl⟩
  obtain ⟨j, hj⟩ : ∃ j : Fin 2048, j.val = 256 * t.val + q.val := ⟨⟨256 * t.val + q.val, by omega⟩, rfl⟩
  have hx : (cfg1.win 7).xinj (grid1.coords t) y = ix2 (0 : Fin 1) q := funext fun a => Fin.ext (by
    match a with
    | ⟨0, _⟩ => show (y 0).val = 0; omega
    | ⟨1, _⟩ => show (y 1).val = q.val; omega)
  have he : ((cfg1.win 7).blk t).view.emb y = ix2 (0 : Fin 1) j := funext fun a => Fin.ext (by
    match a with
    | ⟨0, _⟩ => show win1_7.index t (0 : Fin 2) * 1 + 1 * (y 0).val = 0; omega
    | ⟨1, _⟩ => show win1_7.index t (1 : Fin 2) * 256 + 1 * (y 1).val = j.val; omega)
  rw [View.read_apply]
  show out1_7 (iblk1 V c 0 t) (iblk1 V c 1 t) (iblk1 V c 2 t) (iblk1 V c 3 t) (iblk1 V c 4 t) (iblk1 V c 5 t) (iblk1 V c 6 t)
      ((cfg1.win 7).xinj (grid1.coords t) y) = cell1 V c (((cfg1.win 7).blk t).view.emb y)
  rw [hx, he, out1_7_apply]
  exact gate_eq (V c main_v27) (V c main_v7) (V c main_v28) (V c main_v29) (V c main_v30) (V c main_v31) _ _ _ _ _ _ _ q j
    (iblk1_0_apply V c t) (iblk1_1_apply V c t) (iblk1_2_apply V c t q j hj) (iblk1_3_apply V c t q j hj) (iblk1_4_apply V c t q j hj)
    (iblk1_5_apply V c t q j hj) (iblk1_6_apply V c t q j hj)

/-- An index of the output array is in point t's block iff each coordinate is in the block's range on its axis. -/
theorem mem_blk1 (t : Fin cfg1.N) (i : S1x2048.Idx) :
    i ∈ ((cfg1.win 7).blk t).view.set ↔ ∀ a : Fin 2, win1_7.index t a * S1x256.size a ≤ (i a).val ∧ (i a).val < win1_7.index t a * S1x256.size a + S1x256.size a := by
  show i ∈ ((View.whole main_v32).slice (win1_7.rect t)).set ↔ _
  rw [View.set_slice_whole, Rect.mem_set_unit]
  exact Iff.rfl

/-- Unit j lies in the block of point j / 256. -/
theorem cover1 (i : S1x2048.Idx) : ∃ t : Fin cfg1.N, (cfg1.win 7).flush t = true ∧ i ∈ ((cfg1.win 7).blk t).view.set := by
  have hi0 : (i 0).val < 1 := (i 0).isLt
  have hi1 : (i 1).val < 2048 := (i 1).isLt
  have hN : cfg1.N = 8 := N_1
  obtain ⟨t, ht⟩ : ∃ t : Fin cfg1.N, t.val = (i 1).val / 256 := ⟨⟨(i 1).val / 256, by rw [hN]; omega⟩, rfl⟩
  obtain ⟨-, -, -, -, -, -, -, -, -, -, -, -, -, -, -, -, -, -, e70, e71⟩ := idx_facts1 t
  refine ⟨t, flush1_7 t, ?_⟩
  rw [mem_blk1]
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 256 ≤ (i 1).val ∧ (i 1).val < win1_7.index t (1 : Fin 2) * 256 + 256; omega

/-- The output array after the eight points: the GRU cell of x, h and the reshaped weights and biases. -/
theorem final1 (c : Dev nD) :
    (dat1 (F := Ideal) V c).arrAt 7 cfg1.N
      = Cert.Spec.gru (V c main_v27) (V c main_v7) (Cert.Spec.rows3 (V c main_v28)) (Cert.Spec.rows3 (V c main_v29))
          (Cert.Spec.vec3 (V c main_v30)) (Cert.Spec.vec3 (V c main_v31)) :=
  (dat1 (F := Ideal) V c).arrAt_eq_of_cover 7 (cell1 V c) (fun t _ => flushed1_eq V c t) cover1

end Cert.KernelIdeal.Val

end
-- ==== Proof.KernelIdeal.Val2Pay.lean ====
/-
  The output projection's arithmetic read at one lane. The body takes the hidden row x (1 × 2048), a block w of 2048
  weight rows (2048 × 2048) and the matching 2048 bias entries b, and forms x · wᵗ + b: lane j of the result is
  Σₖ x[0,k] · w[j,k] + b[0,j]. At the extended reals the narrowing of both operands is the identity, the casts are
  between equal shapes, the transposition swaps the two coordinates of the weight block, and the product accumulated
  into the zero splat is the plain sum over the one contracted axis.
-/
import proofs.«420902_j59081570124588_3_alg».proof.Proof.KernelIdeal.Reg2Defs
import proofs.«420902_j59081570124588_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx

/-! ## The contraction's index maps: the left operand is read at (row of the result, k), the right at (k, lane) -/

theorem lhs_proj_0 (i : S1x2048.Idx) (q : dot_S1x2048_S2048x2048_S1x2048_1_0_0_1_n_n.contr.Idx) :
    (dot_S1x2048_S2048x2048_S1x2048_1_0_0_1_n_n.lhsIdx i q 0).val = (i 0).val := by
  unfold DotDims.lhsIdx
  rw [dif_neg (show ¬(0 : Fin S1x2048.rank) ∈ dot_S1x2048_S2048x2048_S1x2048_1_0_0_1_n_n.lhsBatch by decide), dif_pos (show (0 : Fin S1x2048.rank) ∈ dot_S1x2048_S2048x2048_S1x2048_1_0_0_1_n_n.lhsNonContracting by decide)]
  rfl
theorem lhs_proj_1 (i : S1x2048.Idx) (q : dot_S1x2048_S2048x2048_S1x2048_1_0_0_1_n_n.contr.Idx) :
    (dot_S1x2048_S2048x2048_S1x2048_1_0_0_1_n_n.lhsIdx i q 1).val = (q ⟨0, by decide⟩).val :=
  dot_S1x2048_S2048x2048_S1x2048_1_0_0_1_n_n.lhsIdx_val_of_single rfl i q
theorem rhs_proj_0 (i : S1x2048.Idx) (q : dot_S1x2048_S2048x2048_S1x2048_1_0_0_1_n_n.contr.Idx) :
    (dot_S1x2048_S2048x2048_S1x2048_1_0_0_1_n_n.rhsIdx i q 0).val = (q ⟨0, by decide⟩).val :=
  dot_S1x2048_S2048x2048_S1x2048_1_0_0_1_n_n.rhsIdx_val_of_single rfl i q
theorem rhs_proj_1 (i : S1x2048.Idx) (q : dot_S1x2048_S2048x2048_S1x2048_1_0_0_1_n_n.contr.Idx) :
    (dot_S1x2048_S2048x2048_S1x2048_1_0_0_1_n_n.rhsIdx i q 1).val = (i 1).val := by
  unfold DotDims.rhsIdx
  rw [dif_neg (show ¬(1 : Fin S2048x2048.rank) ∈ dot_S1x2048_S2048x2048_S1x2048_1_0_0_1_n_n.rhsBatch by decide), dif_pos (show (1 : Fin S2048x2048.rank) ∈ dot_S1x2048_S2048x2048_S1x2048_1_0_0_1_n_n.rhsNonContracting by decide)]
  rfl

/-- The product into the zero splat, at lane j: the sum over k of the left operand at (0, k) times the right at (k, j). -/
theorem matmul_proj_apply (l : FVec Ideal S1x2048 .bf16) (r : FVec Ideal S2048x2048 .bf16) (j : Fin 2048) :
    matmul dot_S1x2048_S2048x2048_S1x2048_1_0_0_1_n_n none l r (constant (F := Ideal) S1x2048 .f32 0x00000000#32) (ix2 (0 : Fin 1) j)
      = ∑ k : Fin 2048, l (ix2 (0 : Fin 1) k) * r (ix2 k j) := by
  show FloatOps.matmul dot_S1x2048_S2048x2048_S1x2048_1_0_0_1_n_n none l r (constant (F := Ideal) S1x2048 .f32 0x00000000#32) (ix2 (0 : Fin 1) j) = _
  rw [Ideal.matmul_constant_zero_apply, ← Equiv.sum_comp (contrEquiv1 dot_S1x2048_S2048x2048_S1x2048_1_0_0_1_n_n 2048 rfl rfl).symm]
  refine Finset.sum_congr rfl fun k _ => ?_
  have hk := contrEquiv1_symm_val dot_S1x2048_S2048x2048_S1x2048_1_0_0_1_n_n 2048 rfl rfl k
  have el : dot_S1x2048_S2048x2048_S1x2048_1_0_0_1_n_n.lhsIdx (ix2 (0 : Fin 1) j) ((contrEquiv1 dot_S1x2048_S2048x2048_S1x2048_1_0_0_1_n_n 2048 rfl rfl).symm k) = ix2 (0 : Fin 1) k := funext fun a => Fin.ext (by
    match a with
    | ⟨0, _⟩ => exact lhs_proj_0 _ _
    | ⟨1, _⟩ => exact (lhs_proj_1 _ _).trans hk)
  have er : dot_S1x2048_S2048x2048_S1x2048_1_0_0_1_n_n.rhsIdx (ix2 (0 : Fin 1) j) ((contrEquiv1 dot_S1x2048_S2048x2048_S1x2048_1_0_0_1_n_n 2048 rfl rfl).symm k) = ix2 k j := funext fun a => Fin.ext (by
    match a with
    | ⟨0, _⟩ => exact (rhs_proj_0 _ _).trans hk
    | ⟨1, _⟩ => exact rhs_proj_1 _ _)
  rw [el, er]

/-- The transposed weight block at (k, j) is the block at (j, k). -/
theorem transpose_proj_apply {α : Type} (w : S2048x2048.Idx → α) (k j : Fin 2048) :
    transpose S2048x2048 [1, 0] w transposes_S2048x2048_p1_0_S2048x2048 (ix2 k j) = w (ix2 j k) :=
  transpose_apply [1, 0] w transposes_S2048x2048_p1_0_S2048x2048 (ix2 k j) (ix2 j k) (fun b => match b with
    | ⟨0, _⟩ => rfl
    | ⟨1, _⟩ => rfl)

/-- THE PAYLOAD AT LANE j: Σₖ x[0,k] · w[j,k] + b[0,j]. -/
theorem pay2_apply (x : Vec Ideal S1x2048 .f32) (w : Vec Ideal S2048x2048 .f32) (b : Vec Ideal S1x2048 .f32) (j : Fin 2048) :
    k2_pay1 x w b (ix2 (0 : Fin 1) j) = (∑ k : Fin 2048, x (ix2 (0 : Fin 1) k) * w (ix2 j k)) + b (ix2 (0 : Fin 1) j) := by
  unfold k2_pay1
  refine (addf_apply _ _ _).trans ?_
  rw [shapeCast_self, shapeCast_self]
  refine congrArg₂ (· + ·) ?_ rfl
  refine (matmul_proj_apply _ _ j).trans ?_
  refine Finset.sum_congr rfl fun k _ => ?_
  rw [transpose_proj_apply]
  rfl

/-- So when the three operands agree, where lane j reads them, with a hidden row h, weight row r of a 50257-row matrix
    and entry r of a bias row, lane j of the payload is entry r of the output projection of those. -/
theorem pay2_eq_logits (x : Vec Ideal S1x2048 .f32) (w : Vec Ideal S2048x2048 .f32) (b : Vec Ideal S1x2048 .f32)
    (h : FVec Ideal ⟨2, ![1, 2048]⟩ .f32) (W : FVec Ideal ⟨2, ![50257, 2048]⟩ .f32) (B : FVec Ideal ⟨2, ![1, 50257]⟩ .f32)
    (j : Fin 2048) (r : Fin 50257)
    (hx : ∀ k : Fin 2048, x (ix2 (0 : Fin 1) k) = h (ix2 (0 : Fin 1) k))
    (hw : ∀ k : Fin 2048, w (ix2 j k) = W (ix2 r k))
    (hb : b (ix2 (0 : Fin 1) j) = B (ix2 (0 : Fin 1) r)) :
    k2_pay1 x w b (ix2 (0 : Fin 1) j) = Cert.Spec.logits h W (Cert.Spec.row1 B) (ix2 (0 : Fin 1) r) := by
  refine (pay2_apply x w b j).trans ?_
  show _ = (∑ k : Fin 2048, h (ix2 (0 : Fin 1) k) * W (ix2 r k)) + B (ix2 (0 : Fin 1) r)
  rw [hb]
  refine congrArg₂ (· + ·) (Finset.sum_congr rfl fun k _ => ?_) rfl
  rw [hx k, hw k]

end Cert.KernelIdeal.Val

end
-- ==== Proof.KernelIdeal.Val2.lean ====
/-
  The output projection, from blocks to the whole array. Grid point t stores lanes 0 … of its 2048-lane result block onto
  columns 2048·t … of the 1 × 50257 result, cut at the array's end (50257 = 24·2048 + 1105: the last point moves 1105
  lanes). Lane j of point t, for 2048·t + j < 50257, reads weight row 2048·t + j and bias entry 2048·t + j, both inside
  their arrays, where the zero-filled block is the array; the hidden row is read whole. So every point writes its block of
  ONE function of the arrays, entry r = Σₖ h[0,k] · W[r,k] + b[0,r], and the blocks cover the result: column r is in the
  block of point r / 2048.
-/
import proofs.«420902_j59081570124588_3_alg».proof.Proof.KernelIdeal.Val2Pay
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## What the body leaves in the result's buffer -/

theorem zero_off2 : (![0, 0] : Fin 2 → Nat) = fun _ => 0 := funext fun a => by fin_cases a <;> rfl

theorem after2_3 (c : Dev nD) (t : Fin cfg2.N) :
    (dat2 (F := Ideal) V c).after 3 t = out2_3 (zblk2_0 V c t) (zblk2_1 V c t) (zblk2_2 V c t) := by dsimp only [dat2]

/-- The one whole store of the payload of three whole loads is the payload of the buffers' contents. -/
theorem out2_3_eq (x0 : Vec Ideal S1x2048 .f32) (x1 : Vec Ideal S2048x2048 .f32) (x2 : Vec Ideal S1x2048 .f32) :
    out2_3 x0 x1 x2 = k2_pay1 x0 x1 x2 := by
  unfold out2_3
  rw [View.canon_unit_zero zero_off2]
  simp only [View.ld_unit_zero (S := S1x2048) zero_off2, View.ld_unit_zero (S := S2048x2048) zero_off2]

/-! ## The printed index maps and cuts, decided over the 25 points -/

/-- The hidden row's block index is (0, 0); the weights' is (t, 0); the bias's and the result's are (0, t). -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The transfers' sizes: the weights' rows, the bias's lanes and the result's lanes are cut to what is left of the 50257. -/
theorem cut_facts2 : ∀ t : Fin cfg2.N,
    win2_1.xsize (grid2.coords t) (0 : Fin 2) = min 2048 (50257 - 2048 * t.val) ∧ win2_1.xsize (grid2.coords t) (1 : Fin 2) = 2048
    ∧ win2_2.xsize (grid2.coords t) (0 : Fin 2) = 1 ∧ win2_2.xsize (grid2.coords t) (1 : Fin 2) = min 2048 (50257 - 2048 * t.val)
    ∧ win2_3.xsize (grid2.coords t) (0 : Fin 2) = 1 ∧ win2_3.xsize (grid2.coords t) (1 : Fin 2) = min 2048 (50257 - 2048 * t.val) :=
  (by decide +kernel : ∀ t : Fin grid2.N, _)

/-! ## A zero-filled block read inside the array's part -/

/-- A filled block at an index of the part the transfer moves is the moved part there. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The hidden row's block is the whole row. -/
theorem zblk2_0_apply (c : Dev nD) (t : Fin cfg2.N) (k : Fin 2048) :
    zblk2_0 V c t (ix2 (0 : Fin 1) k) = V c main_v32 (ix2 (0 : Fin 1) k) := by
  obtain ⟨e0, e1, -⟩ := idx_facts2 t
  unfold zblk2_0
  rw [fill_apply_of_lt win2_0 (grid2.coords t) _ _ (ix2 (0 : Fin 1) k) (fun a => (ix2 (0 : Fin 1) k a).isLt)]
  show V c main_v32 (((cfg2.win 0).blk t).view.emb _) = V c main_v32 _
  refine congrArg (V c main_v32) (funext fun a => Fin.ext ?_)
  match a with
  | ⟨0, _⟩ => show win2_0.index t (0 : Fin 2) * 1 + 1 * 0 = 0; omega
  | ⟨1, _⟩ => show win2_0.index t (1 : Fin 2) * 2048 + 1 * k.val = k.val; omega

/-- Row j of the weights' block at point t, for 2048·t + j inside the 50257 rows, is row 2048·t + j of the weights. -/
theorem zblk2_1_apply (c : Dev nD) (t : Fin cfg2.N) (j k : Fin 2048) (r : Fin 50257) (hr : r.val = 2048 * t.val + j.val) :
    zblk2_1 V c t (ix2 j k) = V c main_arg13 (ix2 r k) := by
  obtain ⟨-, -, e0, e1, -⟩ := idx_facts2 t
  obtain ⟨c0, c1, -⟩ := cut_facts2 t
  have hlt : ∀ a, (ix2 j k a).val < win2_1.xsize (grid2.coords t) a := fun a => by
    match a with
    | ⟨0, _⟩ => show j.val < win2_1.xsize (grid2.coords t) (0 : Fin 2); have := r.isLt; omega
    | ⟨1, _⟩ => show k.val < win2_1.xsize (grid2.coords t) (1 : Fin 2); have := k.isLt; omega
  unfold zblk2_1
  rw [fill_apply_of_lt win2_1 (grid2.coords t) _ _ (ix2 j k) hlt]
  show V c main_arg13 (((cfg2.win 1).blk t).view.emb _) = V c main_arg13 _
  refine congrArg (V c main_arg13) (funext fun a => Fin.ext ?_)
  match a with
  | ⟨0, _⟩ => show win2_1.index t (0 : Fin 2) * 2048 + 1 * j.val = r.val; omega
  | ⟨1, _⟩ => show win2_1.index t (1 : Fin 2) * 2048 + 1 * k.val = k.val; omega

/-- Lane j of the bias's block at point t, for 2048·t + j inside the 50257 entries, is entry 2048·t + j of the bias row. -/
theorem zblk2_2_apply (c : Dev nD) (t : Fin cfg2.N) (j : Fin 2048) (r : Fin 50257) (hr : r.val = 2048 * t.val + j.val) :
    zblk2_2 V c t (ix2 (0 : Fin 1) j) = V c main_v33 (ix2 (0 : Fin 1) r) := by
  obtain ⟨-, -, -, -, e0, e1, -⟩ := idx_facts2 t
  obtain ⟨-, -, c0, c1, -⟩ := cut_facts2 t
  have hlt : ∀ a, (ix2 (0 : Fin 1) j a).val < win2_2.xsize (grid2.coords t) a := fun a => by
    match a with
    | ⟨0, _⟩ => show 0 < win2_2.xsize (grid2.coords t) (0 : Fin 2); omega
    | ⟨1, _⟩ => show j.val < win2_2.xsize (grid2.coords t) (1 : Fin 2); have := r.isLt; omega
  unfold zblk2_2
  rw [fill_apply_of_lt win2_2 (grid2.coords t) _ _ (ix2 (0 : Fin 1) j) hlt]
  show V c main_v33 (((cfg2.win 2).blk t).view.emb _) = V c main_v33 _
  refine congrArg (V c main_v33) (funext fun a => Fin.ext ?_)
  match a with
  | ⟨0, _⟩ => show win2_2.index t (0 : Fin 2) * 1 + 1 * 0 = 0; omega
  | ⟨1, _⟩ => show win2_2.index t (1 : Fin 2) * 2048 + 1 * j.val = r.val; omega

/-! ## What a point writes back -/

/-- The result array's contents after the run: the output projection of the hidden row, the weights and the bias row. -/
abbrev proj2 (c : Dev nD) : S1x50257.Idx → Elt Ideal .f32 :=
  Cert.Spec.logits (V c main_v32) (V c main_arg13) (Cert.Spec.row1 (V c main_v33))

/-- WHAT POINT t WRITES BACK — the lanes of its buffer inside the array — is its block of the output projection. -/
theorem flushed2_eq (c : Dev nD) (t : Fin cfg2.N) :
    (dat2 (F := Ideal) V c).flushed 3 t = ((cfg2.win 3).blk t).view.read (Elt Ideal) (proj2 V c) := by
  show (cfg2.win 3).cut (grid2.coords t) ((dat2 (F := Ideal) V c).after 3 t) = _
  rw [after2_3, out2_3_eq]
  obtain ⟨-, -, -, -, -, -, e0, e1⟩ := idx_facts2 t
  obtain ⟨-, -, -, -, c0, c1⟩ := cut_facts2 t
  funext y
  have hy0 : (y 0).val < win2_3.xsize (grid2.coords t) (0 : Fin 2) := (y 0).isLt
  have hy1 : (y 1).val < win2_3.xsize (grid2.coords t) (1 : Fin 2) := (y 1).isLt
  have ht : t.val < 25 := t.isLt
  have ex : win2_3.xinj (grid2.coords t) y = ix2 (0 : Fin 1) (⟨(y 1).val, by omega⟩ : Fin 2048) := funext fun a => Fin.ext (by
    match a with
    | ⟨0, _⟩ => show (y 0).val = 0; omega
    | ⟨1, _⟩ => rfl)
  have ee : ((cfg2.win 3).blk t).view.emb y = ix2 (0 : Fin 1) (⟨2048 * t.val + (y 1).val, by omega⟩ : Fin 50257) := funext fun a => Fin.ext (by
    match a with
    | ⟨0, _⟩ => show win2_3.index t (0 : Fin 2) * 1 + 1 * (y 0).val = 0; omega
    | ⟨1, _⟩ => show win2_3.index t (1 : Fin 2) * 2048 + 1 * (y 1).val = 2048 * t.val + (y 1).val; omega)
  show k2_pay1 (zblk2_0 V c t) (zblk2_1 V c t) (zblk2_2 V c t) (win2_3.xinj (grid2.coords t) y) = proj2 V c (((cfg2.win 3).blk t).view.emb y)
  refine (congrArg (k2_pay1 (zblk2_0 V c t) (zblk2_1 V c t) (zblk2_2 V c t)) ex).trans ?_
  refine Eq.trans ?_ (congrArg (proj2 V c) ee).symm
  exact pay2_eq_logits (zblk2_0 V c t) (zblk2_1 V c t) (zblk2_2 V c t) (V c main_v32) (V c main_arg13) (V c main_v33) _ _
    (fun k => zblk2_0_apply V c t k) (fun k => zblk2_1_apply V c t _ k _ rfl) (zblk2_2_apply V c t _ _ rfl)

/-! ## The blocks cover the result -/

/-- A column is in point t's block iff it is among the block's lanes inside the array. -/
theorem mem_blk2 (t : Fin cfg2.N) (i : S1x50257.Idx) :
    i ∈ ((cfg2.win 3).blk t).view.set ↔ ∀ a : Fin 2, win2_3.index t a * S1x2048.size a ≤ (i a).val ∧ (i a).val < win2_3.index t a * S1x2048.size a + win2_3.xsize (grid2.coords t) a := by
  show i ∈ ((View.whole main_v34).slice (win2_3.rect t)).set ↔ _
  rw [View.set_slice_whole, Rect.mem_set_unit]
  exact Iff.rfl

/-- Column r is in the block of point r / 2048, and every point writes back. -/
theorem cover2 (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  refine ⟨⟨(i 1).val / 2048, by show (i 1).val / 2048 < 25; omega⟩, flush2_3 _, ?_⟩
  rw [mem_blk2]
  obtain ⟨-, -, -, -, -, -, e0, e1⟩ := idx_facts2 ⟨(i 1).val / 2048, by show (i 1).val / 2048 < 25; omega⟩
  obtain ⟨-, -, -, -, c0, c1⟩ := cut_facts2 ⟨(i 1).val / 2048, by show (i 1).val / 2048 < 25; omega⟩
  intro a
  match a with
  | ⟨0, _⟩ =>
    show win2_3.index _ (0 : Fin 2) * 1 ≤ (i 0).val ∧ (i 0).val < win2_3.index _ (0 : Fin 2) * 1 + win2_3.xsize _ (0 : Fin 2)
    rw [e0, c0]; omega
  | ⟨1, _⟩ =>
    show win2_3.index _ (1 : Fin 2) * 2048 ≤ (i 1).val ∧ (i 1).val < win2_3.index _ (1 : Fin 2) * 2048 + win2_3.xsize _ (1 : Fin 2)
    rw [e1, c1]; show (i 1).val / 2048 * 2048 ≤ (i 1).val ∧ (i 1).val < (i 1).val / 2048 * 2048 + min 2048 (50257 - 2048 * ((i 1).val / 2048)); omega

/-! ## The result array after the run -/

/-- THE RESULT ARRAY after the third pallas_call is the output projection of the hidden row, the weights and the bias row
    as the region finds them. -/
theorem final2 (c : Dev nD) : (dat2 (F := Ideal) V c).arrAt 3 cfg2.N
    = Cert.Spec.logits (V c main_v32) (V c main_arg13) (Cert.Spec.row1 (V c main_v33)) :=
  (dat2 (F := Ideal) V c).arrAt_eq_of_cover 3 (proj2 V c) (fun t _ => flushed2_eq V c t) cover2

end Cert.KernelIdeal.Val

end
-- ==== Proof.RefIs.lean ====
/-
  The reference decoder step read as three whole-array functions on the extended reals.
  * combine: relu(x · W₇ᵗ + b₈) is Spec.comb of the concatenated input row x.
  * cell: with the two 6144-wide projections W₉ · y + b₁₁ and W₁₀ · h + b₁₂ cut into three gate blocks of 2048, the
    reference forms r = 1/(1 + exp(−(i_r + h_r))), z likewise, n = tanh(i_n + r·h_n) and (1 − z)·n + z·h. The quotient
    1/(1 + exp(−t)) is the logistic function by definition once the word 0x3F800000 is read as 1, so this is Spec.gru.
  * logits: h' · W₁₃ᵗ + b₁₄ is Spec.logits of the new hidden state h'.
  Each equation is read at one index: a contraction against a transposed matrix reads row c of the matrix, a broadcast
  bias reads entry c, a slice at offset g·2048 reads gate block g. No law of arithmetic is used beyond 0x3F800000 = 1.
-/
import proofs.«420902_j59081570124588_3_alg».proof.Proof.RefGen
import proofs.«420902_j59081570124588_3_alg».proof.Proof.Spec

set_option maxRecDepth 16384

noncomputable section

namespace Cert.RefIs

open Cert.ReferenceIdeal Cert.ReferenceIdeal.Read
open Idealize.ShloMosaic Idealize.ShloMosaic.ValueIdx

/-! ## The words 0.0 and 1.0, and the sigmoid spelled as a quotient -/

/-- The f32 word 0x3F800000 is the real number one. -/
theorem one_word : Ideal.ofBits .f32 0x3F800000#32 = 1 := by
  simp [Ideal.ofBits, Ideal.ieee, -EReal.coe_mul]; norm_num

/-- 1 / (1 + exp (−x)), written with the word 1.0 and the host's negation, exponential and division, is the logistic function of x. -/
theorem sigmoid_eq (x : Ideal .f32) :
    FloatOps.hostDivf (FloatOps.ofBits .f32 0x3F800000#32 : Ideal .f32)
        (FloatOps.addf (FloatOps.ofBits .f32 0x3F800000#32) (FloatOps.hostUnary .exp (FloatOps.hostNegf x)))
      = FloatOps.logistic x := by
  rw [Ideal.ofBits_def, one_word]; rfl

/-! ## Where each contraction and each layout operation reads, in coordinates

  A product x · Wᵗ is written as dot_general(x, transpose W): term k of entry (0, c) reads x at (0, k) and, through the
  transpose, W at (c, k). A bias is broadcast along the row: entry (0, c) reads b at c. A slice of a 6144-wide row at
  offset g·2048 reads column g·2048 + q, which is row q of gate block g. -/

-- the combine layer: 4096 terms, 2048 entries
theorem lhs27 (p : Fin 1) (q : Fin 2048) (k : Fin 4096) : lidx_main_v27 (ix2 p q) k = ix2 (0 : Fin 1) k :=
  funext fun a => Fin.ext (by match a with | ⟨0, _⟩ => exact congrArg Fin.val (Subsingleton.elim p 0) | ⟨1, _⟩ => rfl)
theorem rhs27 (p : Fin 1) (q : Fin 2048) (k : Fin 4096) : idx_main_v26 (ridx_main_v27 (ix2 p q) k) = ix2 q k :=
  funext fun a => Fin.ext (by match a with | ⟨0, _⟩ => rfl | ⟨1, _⟩ => rfl)
theorem bias28 (p : Fin 1) (q : Fin 2048) : idx_main_v28 (ix2 p q) = ix1 q :=
  funext fun a => Fin.ext (by match a with | ⟨0, _⟩ => rfl)

-- the input projection of the cell: 2048 terms, 6144 entries
theorem lhs32 (p : Fin 1) (c : Fin 6144) (k : Fin 2048) : lidx_main_v32 (ix2 p c) k = ix2 (0 : Fin 1) k :=
  funext fun a => Fin.ext (by match a with | ⟨0, _⟩ => exact congrArg Fin.val (Subsingleton.elim p 0) | ⟨1, _⟩ => rfl)
theorem rhs32 (p : Fin 1) (c : Fin 6144) (k : Fin 2048) : idx_main_v31 (ridx_main_v32 (ix2 p c) k) = ix2 c k :=
  funext fun a => Fin.ext (by match a with | ⟨0, _⟩ => rfl | ⟨1, _⟩ => rfl)
theorem bias33 (p : Fin 1) (c : Fin 6144) : idx_main_v33 (ix2 p c) = ix1 c :=
  funext fun a => Fin.ext (by match a with | ⟨0, _⟩ => rfl)

-- the hidden projection of the cell: 2048 terms, 6144 entries
theorem lhs36 (p : Fin 1) (c : Fin 6144) (k : Fin 2048) : lidx_main_v36 (ix2 p c) k = ix2 (0 : Fin 1) k :=
  funext fun a => Fin.ext (by match a with | ⟨0, _⟩ => exact congrArg Fin.val (Subsingleton.elim p 0) | ⟨1, _⟩ => rfl)
theorem rhs36 (p : Fin 1) (c : Fin 6144) (k : Fin 2048) : idx_main_v35 (ridx_main_v36 (ix2 p c) k) = ix2 c k :=
  funext fun a => Fin.ext (by match a with | ⟨0, _⟩ => rfl | ⟨1, _⟩ => rfl)
theorem bias37 (p : Fin 1) (c : Fin 6144) : idx_main_v37 (ix2 p c) = ix1 c :=
  funext fun a => Fin.ext (by match a with | ⟨0, _⟩ => rfl)

-- the six gate slices: columns q, 2048 + q, 4096 + q of the two projections
theorem slice39 (p : Fin 1) (q : Fin 2048) : idx_main_v39 (ix2 p q) = ix2 (0 : Fin 1) (Cert.Spec.gateRow 0 q) :=
  funext fun a => Fin.ext (by match a with | ⟨0, _⟩ => exact congrArg Fin.val (Subsingleton.elim p 0) | ⟨1, _⟩ => show q.val = 0 * 2048 + q.val; omega)
theorem slice40 (p : Fin 1) (q : Fin 2048) : idx_main_v40 (ix2 p q) = ix2 (0 : Fin 1) (Cert.Spec.gateRow 1 q) :=
  funext fun a => Fin.ext (by match a with | ⟨0, _⟩ => exact congrArg Fin.val (Subsingleton.elim p 0) | ⟨1, _⟩ => show 2048 + q.val = 1 * 2048 + q.val; omega)
theorem slice41 (p : Fin 1) (q : Fin 2048) : idx_main_v41 (ix2 p q) = ix2 (0 : Fin 1) (Cert.Spec.gateRow 2 q) :=
  funext fun a => Fin.ext (by match a with | ⟨0, _⟩ => exact congrArg Fin.val (Subsingleton.elim p 0) | ⟨1, _⟩ => show 4096 + q.val = 2 * 2048 + q.val; omega)
theorem slice42 (p : Fin 1) (q : Fin 2048) : idx_main_v42 (ix2 p q) = ix2 (0 : Fin 1) (Cert.Spec.gateRow 0 q) :=
  funext fun a => Fin.ext (by match a with | ⟨0, _⟩ => exact congrArg Fin.val (Subsingleton.elim p 0) | ⟨1, _⟩ => show q.val = 0 * 2048 + q.val; omega)
theorem slice43 (p : Fin 1) (q : Fin 2048) : idx_main_v43 (ix2 p q) = ix2 (0 : Fin 1) (Cert.Spec.gateRow 1 q) :=
  funext fun a => Fin.ext (by match a with | ⟨0, _⟩ => exact congrArg Fin.val (Subsingleton.elim p 0) | ⟨1, _⟩ => show 2048 + q.val = 1 * 2048 + q.val; omega)
theorem slice44 (p : Fin 1) (q : Fin 2048) : idx_main_v44 (ix2 p q) = ix2 (0 : Fin 1) (Cert.Spec.gateRow 2 q) :=
  funext fun a => Fin.ext (by match a with | ⟨0, _⟩ => exact congrArg Fin.val (Subsingleton.elim p 0) | ⟨1, _⟩ => show 4096 + q.val = 2 * 2048 + q.val; omega)

-- the output projection: 2048 terms, 50257 entries
theorem lhs68 (p : Fin 1) (c : Fin 50257) (k : Fin 2048) : lidx_main_v68 (ix2 p c) k = ix2 (0 : Fin 1) k :=
  funext fun a => Fin.ext (by match a with | ⟨0, _⟩ => exact congrArg Fin.val (Subsingleton.elim p 0) | ⟨1, _⟩ => rfl)
theorem rhs68 (p : Fin 1) (c : Fin 50257) (k : Fin 2048) : idx_main_v67 (ridx_main_v68 (ix2 p c) k) = ix2 c k :=
  funext fun a => Fin.ext (by match a with | ⟨0, _⟩ => rfl | ⟨1, _⟩ => rfl)
theorem bias69 (p : Fin 1) (c : Fin 50257) : idx_main_v69 (ix2 p c) = ix1 c :=
  funext fun a => Fin.ext (by match a with | ⟨0, _⟩ => rfl)

/-! ## The three stages -/

variable (x0 : (⟨S1, .i32⟩ : BufTy).Contents (Elt Ideal)) (x1 : (⟨S1x1x2048, .f32⟩ : BufTy).Contents (Elt Ideal))
  (x3 : (⟨S25x2048, .f32⟩ : BufTy).Contents (Elt Ideal)) (x4 : (⟨S50257x2048, .f32⟩ : BufTy).Contents (Elt Ideal))
  (x5 : (⟨S25x4096, .f32⟩ : BufTy).Contents (Elt Ideal)) (x6 : (⟨S25, .f32⟩ : BufTy).Contents (Elt Ideal))
  (x7 : (⟨S2048x4096, .f32⟩ : BufTy).Contents (Elt Ideal)) (x8 : (⟨S2048, .f32⟩ : BufTy).Contents (Elt Ideal))
  (x9 x10 : (⟨S6144x2048, .f32⟩ : BufTy).Contents (Elt Ideal)) (x11 x12 : (⟨S6144, .f32⟩ : BufTy).Contents (Elt Ideal))
  (x13 : (⟨S50257x2048, .f32⟩ : BufTy).Contents (Elt Ideal)) (x14 : (⟨S50257, .f32⟩ : BufTy).Contents (Elt Ideal))

/-- The combine layer: entry (0, q) of relu(x · W₇ᵗ + b₈) is max(Σₖ x[k]·W₇[q,k] + b₈[q], 0), for x the concatenated
    embedding and attention row, which stays a single unopened term. -/
theorem comb_eq :
    val_main_v30 (F := Ideal) x0 x1 x3 x4 x5 x6 x7 x8 = Cert.Spec.comb (val_main_v25 (F := Ideal) x0 x1 x3 x4 x5 x6) x7 x8 := by
  funext i
  obtain ⟨p, q, rfl⟩ : ∃ (p : Fin 1) (q : Fin 2048), i = ix2 p q := ⟨i 0, i 1, eq_ix2 i⟩
  rw [val_main_v30_apply, val_main_v29_apply, val_main_v27_apply, val_main_v28_apply, val_main_call0_v0_apply,
    val_main_call0_cst_apply]
  generalize val_main_v25 (F := Ideal) x0 x1 x3 x4 x5 x6 = y
  simp only [val_main_v26_apply, lhs27, rhs27, bias28]
  rfl

/-- Entry (0, c) of the cell's input projection: row c of W₉ against the combine layer's output, plus b₁₁[c]. -/
theorem ih_at (p : Fin 1) (c : Fin 6144) :
    val_main_v34 (F := Ideal) x0 x1 x3 x4 x5 x6 x7 x8 x9 x11 (ix2 p c)
      = (∑ k : Fin 2048, (val_main_v30 (F := Ideal) x0 x1 x3 x4 x5 x6 x7 x8) (ix2 (0 : Fin 1) k) * x9 (ix2 c k)) + x11 (ix1 c) := by
  rw [val_main_v34_apply, val_main_v32_apply, val_main_v33_apply]
  generalize val_main_v30 (F := Ideal) x0 x1 x3 x4 x5 x6 x7 x8 = y
  simp only [val_main_v31_apply, lhs32, rhs32, bias33]
  rfl

/-- Entry (0, c) of the cell's hidden projection: row c of W₁₀ against the previous hidden state, plus b₁₂[c]. -/
theorem hh_at (p : Fin 1) (c : Fin 6144) :
    val_main_v38 (F := Ideal) x1 x10 x12 (ix2 p c)
      = (∑ k : Fin 2048, (val_main_v7 (F := Ideal) x1) (ix2 (0 : Fin 1) k) * x10 (ix2 c k)) + x12 (ix1 c) := by
  rw [val_main_v38_apply, val_main_v36_apply, val_main_v37_apply]
  generalize val_main_v7 (F := Ideal) x1 = y
  simp only [val_main_v35_apply, lhs36, rhs36, bias37]
  rfl

/-- At a gate row the input projection is that gate's pre-activation. -/
theorem gate_ih (p : Fin 1) (g : Fin 3) (q : Fin 2048) :
    val_main_v34 (F := Ideal) x0 x1 x3 x4 x5 x6 x7 x8 x9 x11 (ix2 p (Cert.Spec.gateRow g q))
      = Cert.Spec.proj (val_main_v30 (F := Ideal) x0 x1 x3 x4 x5 x6 x7 x8) x9 x11 g q :=
  ih_at x0 x1 x3 x4 x5 x6 x7 x8 x9 x11 p (Cert.Spec.gateRow g q)

/-- At a gate row the hidden projection is that gate's pre-activation. -/
theorem gate_hh (p : Fin 1) (g : Fin 3) (q : Fin 2048) :
    val_main_v38 (F := Ideal) x1 x10 x12 (ix2 p (Cert.Spec.gateRow g q))
      = Cert.Spec.proj (val_main_v7 (F := Ideal) x1) x10 x12 g q :=
  hh_at x1 x10 x12 p (Cert.Spec.gateRow g q)

/-- The reset gate: the logistic function of the sum of the two first-block pre-activations. -/
theorem reset_at (p : Fin 1) (q : Fin 2048) :
    val_main_v51 (F := Ideal) x0 x1 x3 x4 x5 x6 x7 x8 x9 x10 x11 x12 (ix2 p q)
      = FloatOps.logistic (FloatOps.addf (Cert.Spec.proj (val_main_v30 (F := Ideal) x0 x1 x3 x4 x5 x6 x7 x8) x9 x11 0 q)
          (Cert.Spec.proj (val_main_v7 (F := Ideal) x1) x10 x12 0 q)) := by
  rw [val_main_v51_apply, val_main_v50_apply, val_main_cst_4_apply, val_main_v49_apply, val_main_v48_apply,
    val_main_cst_3_apply, val_main_v47_apply, val_main_v46_apply, val_main_v45_apply, val_main_v39_apply,
    val_main_v42_apply, slice39, slice42, gate_ih, gate_hh]
  exact sigmoid_eq _

/-- The update gate: the logistic function of the sum of the two second-block pre-activations. -/
theorem update_at (p : Fin 1) (q : Fin 2048) :
    val_main_v58 (F := Ideal) x0 x1 x3 x4 x5 x6 x7 x8 x9 x10 x11 x12 (ix2 p q)
      = FloatOps.logistic (FloatOps.addf (Cert.Spec.proj (val_main_v30 (F := Ideal) x0 x1 x3 x4 x5 x6 x7 x8) x9 x11 1 q)
          (Cert.Spec.proj (val_main_v7 (F := Ideal) x1) x10 x12 1 q)) := by
  rw [val_main_v58_apply, val_main_v57_apply, val_main_cst_6_apply, val_main_v56_apply, val_main_v55_apply,
    val_main_cst_5_apply, val_main_v54_apply, val_main_v53_apply, val_main_v52_apply, val_main_v40_apply,
    val_main_v43_apply, slice40, slice43, gate_ih, gate_hh]
  exact sigmoid_eq _

/-- The cell: out[q] = (1 − z)·n + z·h[q] with r, z, n as above; the combine layer's output and the previous hidden
    state stay single unopened terms. -/
theorem gru_eq :
    val_main_v66 (F := Ideal) x0 x1 x3 x4 x5 x6 x7 x8 x9 x10 x11 x12
      = Cert.Spec.gru (val_main_v30 (F := Ideal) x0 x1 x3 x4 x5 x6 x7 x8) (val_main_v7 (F := Ideal) x1) x9 x10 x11 x12 := by
  funext i
  obtain ⟨p, q, rfl⟩ : ∃ (p : Fin 1) (q : Fin 2048), i = ix2 p q := ⟨i 0, i 1, eq_ix2 i⟩
  obtain rfl : p = 0 := Subsingleton.elim p 0
  rw [val_main_v66_apply, val_main_v64_apply, val_main_v65_apply, val_main_v63_apply, val_main_v62_apply,
    val_main_cst_7_apply, val_main_v61_apply, val_main_v60_apply, val_main_v59_apply, val_main_v41_apply,
    val_main_v44_apply, slice41, slice44, gate_ih, gate_hh, reset_at, update_at]
  rfl

/-- The output projection: entry (0, c) is Σₖ h'[k]·W₁₃[c,k] + b₁₄[c], for h' the new hidden state, a single unopened term. -/
theorem logits_eq :
    val_main_v70 (F := Ideal) x0 x1 x3 x4 x5 x6 x7 x8 x9 x10 x11 x12 x13 x14
      = Cert.Spec.logits (val_main_v66 (F := Ideal) x0 x1 x3 x4 x5 x6 x7 x8 x9 x10 x11 x12) x13 x14 := by
  funext i
  obtain ⟨p, c, rfl⟩ : ∃ (p : Fin 1) (c : Fin 50257), i = ix2 p c := ⟨i 0, i 1, eq_ix2 i⟩
  rw [val_main_v70_apply, val_main_v68_apply, val_main_v69_apply]
  generalize val_main_v66 (F := Ideal) x0 x1 x3 x4 x5 x6 x7 x8 x9 x10 x11 x12 = y
  simp only [val_main_v67_apply, lhs68, rhs68, bias69]
  rfl

end Cert.RefIs

end
-- ==== Proof.HostVals.lean ====
/-
  The host operations around the three tiled stages of the decoder step, read off the valuations between the stages.
  * What each host stretch leaves in a buffer, from ANY contents W it is entered with: the reshapes of the weight and
    bias arguments (a shape cast of the argument), the final log-softmax LS of the logits buffer, the broadcast of the
    new hidden state to rank 3.
  * Each reshape undone: re-indexing a (3, 2048, 2048) cast of a 6144-row matrix by rows g·2048 + r gives the matrix
    back, likewise a (3, 1, 2048) cast of a 6144-vector and a (1, n) cast of an n-vector.
  * What the tiled stages find: each stage's output buffer holds what the stage before left there, every argument its
    launch contents.
  * The shared prefix (token normalisation, the embedding row, the attention softmax and the two concatenations) and the
    shared tail (log-softmax, the broadcast) are the reference's own operations: the values agree term by term.
-/
import proofs.«420902_j59081570124588_3_alg».proof.Proof.Gen.KernelIdeal.Regions
import proofs.«420902_j59081570124588_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.HostVals

open Cert.KernelIdeal Cert.KernelIdeal.Gen
open Idealize.ShloMosaic Idealize.ShloMosaic.TcCoe Idealize.SL.Sem Idealize.ShloMosaic.StableHlo Idealize.ShloMosaic.ValueIdx

/-! ## The reshapes undone -/

/-- Row g·2048 + r of a 6144-row matrix is plane g, row r of its (3, 2048, 2048) cast: both sit at row-major
    position (g·2048 + r)·2048 + k. -/
theorem rows3_cast (x : S6144x2048.Idx → Elt Ideal .f32) :
    Cert.Spec.rows3 (shapeCast S3x2048x2048 x shapeCasts_S6144x2048_S3x2048x2048) = x := by
  funext i
  unfold Cert.Spec.rows3
  refine shapeCast_apply x _ _ i ?_
  rw [Shape.rowMajor_val_two, Shape.rowMajor_val_three]
  show (i 0).val * 2048 + (i 1).val = ((i 0).val / 2048 * 2048 + (i 0).val % 2048) * 2048 + (i 1).val
  omega

/-- Entry g·2048 + r of a 6144-vector is entry (g, 0, r) of its (3, 1, 2048) cast. -/
theorem vec3_cast (x : S6144.Idx → Elt Ideal .f32) :
    Cert.Spec.vec3 (shapeCast S3x1x2048 x shapeCasts_S6144_S3x1x2048) = x := by
  funext i
  unfold Cert.Spec.vec3
  refine shapeCast_apply x _ _ i ?_
  rw [Shape.rowMajor_val_one, Shape.rowMajor_val_three]
  show (i 0).val = ((i 0).val / 2048 * 1 + 0) * 2048 + (i 0).val % 2048
  omega

/-- Entry k of an n-vector is entry (0, k) of its (1, n) cast. -/
theorem row1_cast {n : Nat} (x : (⟨1, ![n]⟩ : Shape).Idx → Elt Ideal .f32) (h : (⟨1, ![n]⟩ : Shape).ShapeCasts ⟨2, ![1, n]⟩) :
    Cert.Spec.row1 (shapeCast ⟨2, ![1, n]⟩ x h) = x := by
  funext i
  exact (shapeCast_a_1a_apply x h 0 (i 0)).trans (congrArg x (eq_ix1 i).symm)

/-! ## What each host stretch writes, from any contents -/

section Stretches

variable (W : Valuation τ sig (Elt Ideal))

/-- The first stretch ends by reshaping argument 8 to a row. -/
theorem after0_v26 : (StableHlo.after (Gen.hostOps0 (F := Ideal)) W (Proc.devRef .tc main_v26) : S1x2048.Idx → Elt Ideal .f32) =
    shapeCast S1x2048 (W (Proc.devRef .tc main_arg8) : S2048.Idx → Elt Ideal .f32) shapeCasts_S2048_S1x2048 := by
  dsimp only [Gen.hostOps0]; after_results; rfl

/-- The second stretch: four reshapes, of arguments 9 to 12. -/
theorem after1_v28 : (StableHlo.after (Gen.hostOps1 (F := Ideal)) W (Proc.devRef .tc main_v28) : S3x2048x2048.Idx → Elt Ideal .f32) =
    shapeCast S3x2048x2048 (W (Proc.devRef .tc main_arg9) : S6144x2048.Idx → Elt Ideal .f32) shapeCasts_S6144x2048_S3x2048x2048 := by
  dsimp only [Gen.hostOps1]; after_results; rfl
theorem after1_v29 : (StableHlo.after (Gen.hostOps1 (F := Ideal)) W (Proc.devRef .tc main_v29) : S3x2048x2048.Idx → Elt Ideal .f32) =
    shapeCast S3x2048x2048 (W (Proc.devRef .tc main_arg10) : S6144x2048.Idx → Elt Ideal .f32) shapeCasts_S6144x2048_S3x2048x2048 := by
  dsimp only [Gen.hostOps1]; after_results; rfl
theorem after1_v30 : (StableHlo.after (Gen.hostOps1 (F := Ideal)) W (Proc.devRef .tc main_v30) : S3x1x2048.Idx → Elt Ideal .f32) =
    shapeCast S3x1x2048 (W (Proc.devRef .tc main_arg11) : S6144.Idx → Elt Ideal .f32) shapeCasts_S6144_S3x1x2048 := by
  dsimp only [Gen.hostOps1]; after_results; rfl
theorem after1_v31 : (StableHlo.after (Gen.hostOps1 (F := Ideal)) W (Proc.devRef .tc main_v31) : S3x1x2048.Idx → Elt Ideal .f32) =
    shapeCast S3x1x2048 (W (Proc.devRef .tc main_arg12) : S6144.Idx → Elt Ideal .f32) shapeCasts_S6144_S3x1x2048 := by
  dsimp only [Gen.hostOps1]; after_results; rfl

/-- The third stretch reshapes argument 14 to a row. -/
theorem after2_v33 : (StableHlo.after (Gen.hostOps2 (F := Ideal)) W (Proc.devRef .tc main_v33) : S1x50257.Idx → Elt Ideal .f32) =
    shapeCast S1x50257 (W (Proc.devRef .tc main_arg14) : S50257.Idx → Elt Ideal .f32) shapeCasts_S50257_S1x50257 := by
  dsimp only [Gen.hostOps2]; after_results; rfl

/-- A row of logits with its maximum (taken from −∞ up) subtracted from every entry. -/
def LSshift (x : FVec Ideal S1x50257 .f32) : FVec Ideal S1x50257 .f32 :=
  subf x (broadcastInDim S1x50257 ![0, 1] bcast_S1x1_S1x50257_0_1 (broadcastInDim S1x1 ![0] bcast_S1_S1x1_0
    (maximumf (broadcastInDim S1 ![] bcast_S_S1 (constant (F := Ideal) S_ .f32 0xFF800000#32))
      (Host.reduce FloatOps.maximumf x (constant (F := Ideal) S_ .f32 0xFF800000#32) reducesTo_S1x50257_S1_d1 h_S_))))

/-- log-softmax of a row: the shifted row minus the logarithm of the sum of its exponentials (the sum taken from 0 up). -/
def LS (x : FVec Ideal S1x50257 .f32) : FVec Ideal S1x50257 .f32 :=
  subf (LSshift x) (broadcastInDim S1x50257 ![0, 1] bcast_S1x1_S1x50257_0_1 (Host.log (broadcastInDim S1x1 ![0] bcast_S1_S1x1_0
    (Host.reduceAdd (Host.exp (LSshift x)) (constant (F := Ideal) S_ .f32 0x00000000#32) reducesTo_S1x50257_S1_d1 h_S_))))

/-- Contents carried to a typed reference's buffer and back are the contents. -/
theorem ofBuf_toBuf {T : BufTy} (x : StableHlo.TRef sig T) (v : T.Contents (Elt Ideal)) :
    x.ofBuf (Val := Elt Ideal) (x.toBuf v) = v := by
  obtain ⟨r, h, h1, h2⟩ := x
  subst h
  rfl

/-- The logits buffer and the log-softmax's result buffer as typed references. -/
abbrev r34 : StableHlo.TRef sig ⟨S1x50257, .f32⟩ := .of main_v34
abbrev r35 : StableHlo.TRef sig ⟨S1x50257, .f32⟩ := .of main_v35

set_option maxRecDepth 16384 in
/-- The fourth stretch is log-softmax of the logits buffer: its fifteen operations composed, every intermediate
    buffer's transport cancelling. -/
theorem after3_v35_typed : r35.ofBuf (StableHlo.after (Gen.hostOps3 (F := Ideal)) W (Proc.devRef .tc main_v35)) =
    LS (r34.ofBuf (W (Proc.devRef .tc main_v34))) := by
  dsimp only [Gen.hostOps3]; after_results
  simp only [ofBuf_toBuf]
  unfold LS LSshift
  rfl

/-- The same with the two outer transports, which are the identity at these literal buffers, dropped. -/
theorem after3_v35 : (StableHlo.after (Gen.hostOps3 (F := Ideal)) W (Proc.devRef .tc main_v35) : S1x50257.Idx → Elt Ideal .f32) =
    LS (W (Proc.devRef .tc main_v34)) :=
  after3_v35_typed W

/-- The last stretch broadcasts the new hidden state to rank 3. -/
theorem after31_v36 : (StableHlo.after (Gen.hostOps3_1 (F := Ideal)) W (Proc.devRef .tc main_v36) : S1x1x2048.Idx → Elt Ideal .f32) =
    broadcastInDim S1x1x2048 ![1, 2] bcast_S1x2048_S1x1x2048_1_2 (W (Proc.devRef .tc main_v32) : S1x2048.Idx → Elt Ideal .f32) := by
  dsimp only [Gen.hostOps3_1]; after_results

end Stretches

/-! ## The valuations between the stages -/

variable (m : (ℓ : Loc nD τ sig) → Buf (Elt Ideal) ℓ) (outs : Gen.Outs (F := Ideal)) (c : Dev nD)

/-- A buffer neither the first stretch nor the first stage writes still holds its launch contents when the second
    stretch starts. -/
theorem V2_launch (r : Ref sig .tc) (h1 : r ∉ ([main_v27] : List (Ref sig .tc))) (h0 : r ∉ hostOps0_W) :
    Gen.V2 m outs c r = m (c, Proc.devRef .tc r) :=
  (Gen.V2_of m outs c r h1).trans (Gen.V1_of m c r h0)

/-- Likewise up to the third stretch. -/
theorem V4_launch (r : Ref sig .tc) (h3 : r ∉ ([main_v32] : List (Ref sig .tc))) (h2 : r ∉ hostOps1_W)
    (h1 : r ∉ ([main_v27] : List (Ref sig .tc))) (h0 : r ∉ hostOps0_W) :
    Gen.V4 m outs c r = m (c, Proc.devRef .tc r) :=
  (Gen.V4_of m outs c r h3).trans ((Gen.V3_of m outs c r h2).trans (V2_launch m outs c r h1 h0))

/-! ### What the tiled stages find -/

theorem V1_arg7 : Gen.V1 m c main_arg7 = m ((c : Thread nD τ).loc main_arg7) :=
  Gen.V1_of m c main_arg7 (by decide)

theorem V3_v27 : Gen.V3 m outs c main_v27 = outs 2 main_v27 c :=
  (Gen.V3_of m outs c main_v27 (by decide)).trans (Function.update_self _ _ _)

theorem V3_v7 : Gen.V3 m outs c main_v7 = Gen.V1 m c main_v7 :=
  (Gen.V3_of m outs c main_v7 (by decide)).trans (Gen.V2_of m outs c main_v7 (by decide))

theorem V5_v32 : Gen.V5 m outs c main_v32 = outs 4 main_v32 c :=
  (Gen.V5_of m outs c main_v32 (by decide)).trans (Function.update_self _ _ _)

theorem V5_arg13 : Gen.V5 m outs c main_arg13 = m ((c : Thread nD τ).loc main_arg13) :=
  (Gen.V5_of m outs c main_arg13 (by decide)).trans (V4_launch m outs c main_arg13 (by decide) (by decide) (by decide) (by decide))

/-! ### The reshaped weights and biases, re-indexed, are the arguments -/

theorem row1_v26 : Cert.Spec.row1 (Gen.V1 m c main_v26) = m ((c : Thread nD τ).loc main_arg8) :=
  (congrArg (Cert.Spec.row1 (n := 2048)) (after0_v26 (Gen.V0 m c))).trans (row1_cast _ _)

theorem rows3_v28 : Cert.Spec.rows3 (Gen.V3 m outs c main_v28) = m ((c : Thread nD τ).loc main_arg9) :=
  (congrArg Cert.Spec.rows3 ((after1_v28 (Gen.V2 m outs c)).trans
    (congrArg (fun x : S6144x2048.Idx → Elt Ideal .f32 => shapeCast S3x2048x2048 x shapeCasts_S6144x2048_S3x2048x2048)
      (V2_launch m outs c main_arg9 (by decide) (by decide))))).trans (rows3_cast _)

theorem rows3_v29 : Cert.Spec.rows3 (Gen.V3 m outs c main_v29) = m ((c : Thread nD τ).loc main_arg10) :=
  (congrArg Cert.Spec.rows3 ((after1_v29 (Gen.V2 m outs c)).trans
    (congrArg (fun x : S6144x2048.Idx → Elt Ideal .f32 => shapeCast S3x2048x2048 x shapeCasts_S6144x2048_S3x2048x2048)
      (V2_launch m outs c main_arg10 (by decide) (by decide))))).trans (rows3_cast _)

theorem vec3_v30 : Cert.Spec.vec3 (Gen.V3 m outs c main_v30) = m ((c : Thread nD τ).loc main_arg11) :=
  (congrArg Cert.Spec.vec3 ((after1_v30 (Gen.V2 m outs c)).trans
    (congrArg (fun x : S6144.Idx → Elt Ideal .f32 => shapeCast S3x1x2048 x shapeCasts_S6144_S3x1x2048)
      (V2_launch m outs c main_arg11 (by decide) (by decide))))).trans (vec3_cast _)

theorem vec3_v31 : Cert.Spec.vec3 (Gen.V3 m outs c main_v31) = m ((c : Thread nD τ).loc main_arg12) :=
  (congrArg Cert.Spec.vec3 ((after1_v31 (Gen.V2 m outs c)).trans
    (congrArg (fun x : S6144.Idx → Elt Ideal .f32 => shapeCast S3x1x2048 x shapeCasts_S6144_S3x1x2048)
      (V2_launch m outs c main_arg12 (by decide) (by decide))))).trans (vec3_cast _)

theorem row1_v33 : Cert.Spec.row1 (Gen.V5 m outs c main_v33) = m ((c : Thread nD τ).loc main_arg14) :=
  (congrArg (Cert.Spec.row1 (n := 50257)) ((after2_v33 (Gen.V4 m outs c)).trans
    (congrArg (fun x : S50257.Idx → Elt Ideal .f32 => shapeCast S1x50257 x shapeCasts_S50257_S1x50257)
      (V4_launch m outs c main_arg14 (by decide) (by decide) (by decide) (by decide))))).trans (row1_cast _ _)

/-! ### The three results -/

/-- The first result: log-softmax of what the third stage leaves in the logits buffer. -/
theorem V8_v35 : Gen.V8 m outs c main_v35 = LS (outs 6 main_v34 c) :=
  (Gen.V8_of m outs c main_v35 (by decide)).trans
    ((after3_v35 (Gen.V6 m outs c)).trans (congrArg LS (Function.update_self _ _ _)))

/-- The second result: what the second stage leaves in the hidden-state buffer, broadcast to rank 3. -/
theorem V8_v36 : Gen.V8 m outs c main_v36 =
    broadcastInDim S1x1x2048 ![1, 2] bcast_S1x2048_S1x1x2048_1_2 (outs 4 main_v32 c : S1x2048.Idx → Elt Ideal .f32) :=
  (after31_v36 (Gen.V7 m outs c)).trans
    (congrArg (fun x : S1x2048.Idx → Elt Ideal .f32 => broadcastInDim S1x1x2048 ![1, 2] bcast_S1x2048_S1x1x2048_1_2 x)
      ((Gen.V7_of m outs c main_v32 (by decide)).trans ((Gen.V6_of m outs c main_v32 (by decide)).trans (V5_v32 m outs c))))

/-- The third result, the attention weights, is untouched after the first stretch. -/
theorem V8_v23 : Gen.V8 m outs c main_v23 = Gen.V1 m c main_v23 :=
  (Gen.V8_of m outs c main_v23 (by decide)).trans <| (Gen.V7_of m outs c main_v23 (by decide)).trans <|
  (Gen.V6_of m outs c main_v23 (by decide)).trans <| (Gen.V5_of m outs c main_v23 (by decide)).trans <|
  (Gen.V4_of m outs c main_v23 (by decide)).trans <| (Gen.V3_of m outs c main_v23 (by decide)).trans <|
  Gen.V2_of m outs c main_v23 (by decide)

end Cert.HostVals

end
-- ==== Proof.HostRef.lean ====
/-
  The host operations the decoder step shares with its reference, identified stage by stage.
  * The first host stretch, cut in three: up to the first joined row (embedding row ‖ hidden state), from there to the
    attention weights, and the last three operations. Each cut's result is a named function of what the cut is entered
    with: att (the softmax of the joined row's scores against the 25 encoder positions) and joined (the embedding row
    ‖ the attention-weighted sum of the encoder rows).
  * The reference computes the same named functions of the same operands, so the first stretch leaves the reference's
    own values in main_v7 (the hidden state as a row), main_v23 (the attention weights) and main_v25 (the second joined
    row, the first tiled stage's input).
  * The reference's two other results are the log-softmax LS of its logits and the rank-3 broadcast of its new hidden
    state: the same two functions the last host stretches apply to the tiled stages' outputs.
-/
import proofs.«420902_j59081570124588_3_alg».proof.Proof.HostVals
import proofs.«420902_j59081570124588_3_alg».proof.Proof.RefGen

noncomputable section

namespace Cert.HostVals

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

/-! ## The attention softmax and the joined row, written once -/

/-- The attention scores: the joined row against the transposed score matrix, plus the score bias. -/
def scores (y : FVec Ideal S1x4096 .f32) (x5 : FVec Ideal S25x4096 .f32) (x6 : FVec Ideal S25 .f32) : FVec Ideal S1x25 .f32 :=
  addf (Host.dotGeneral dot_S1x4096_S4096x25_S1x25_1_0_0_1_n_n none y (transpose S4096x25 [1, 0] x5 transposes_S25x4096_S4096x25_1_0))
    (broadcastInDim S1x25 ![1] bcast_S25_S1x25_1 x6)

/-- The exponentials of a 25-entry row shifted by its maximum (taken from −∞ up). -/
def expShift25 (z : FVec Ideal S1x25 .f32) : FVec Ideal S1x25 .f32 :=
  Host.exp (subf z (broadcastInDim S1x25 ![0, 1] bcast_S1x1_S1x25_0_1 (broadcastInDim S1x1 ![0] bcast_S1_S1x1_0
    (maximumf (broadcastInDim S1 ![] bcast_S_S1 (constant (F := Ideal) S_ .f32 0xFF800000#32))
      (Host.reduce FloatOps.maximumf z (constant (F := Ideal) S_ .f32 0xFF800000#32) reducesTo_S1x25_S1_d1 h_S_)))))

/-- softmax of a 25-entry row: the shifted exponentials over their sum (taken from 0 up). -/
def softmax25 (z : FVec Ideal S1x25 .f32) : FVec Ideal S1x25 .f32 :=
  Host.divf (expShift25 z) (broadcastInDim S1x25 ![0, 1] bcast_S1x1_S1x25_0_1 (broadcastInDim S1x1 ![0] bcast_S1_S1x1_0
    (Host.reduceAdd (expShift25 z) (constant (F := Ideal) S_ .f32 0x00000000#32) reducesTo_S1x25_S1_d1 h_S_)))

/-- The attention weights from the row of embedding and hidden state. -/
def att (y : FVec Ideal S1x4096 .f32) (x5 : FVec Ideal S25x4096 .f32) (x6 : FVec Ideal S25 .f32) : FVec Ideal S1x25 .f32 :=
  softmax25 (scores y x5 x6)

/-- The embedding row joined with the attention-weighted sum of the encoder rows. -/
def joined (e : FVec Ideal S1x2048 .f32) (a : FVec Ideal S1x25 .f32) (x3 : FVec Ideal S25x2048 .f32) : FVec Ideal S1x4096 .f32 :=
  concatenate S1x4096 1 [⟨S1x2048, e⟩, ⟨S1x2048, Host.dotGeneral dot_S1x25_S25x2048_S1x2048_1_0_0_1_n_n none a x3⟩]
    concatenates_S1x2048_S1x2048_S1x4096_d1

/-! ## The first stretch in three cuts -/

section Prefix
variable (W : Valuation τ sig (Elt Ideal))

/-- The first stretch cut after the first concatenation main_v8 (eleven operations), after the attention weights
    main_v23 (eighteen more), and its last three operations. -/
abbrev pre0 : List (HloOp τ sig (Elt Ideal)) := (Gen.hostOps0 (F := Ideal)).take 11
abbrev rest0 : List (HloOp τ sig (Elt Ideal)) := (Gen.hostOps0 (F := Ideal)).drop 11
abbrev mid0 : List (HloOp τ sig (Elt Ideal)) := (rest0).take 18
abbrev post0 : List (HloOp τ sig (Elt Ideal)) := (rest0).drop 18

theorem after0_split : StableHlo.after (Gen.hostOps0 (F := Ideal)) W =
    StableHlo.after post0 (StableHlo.after mid0 (StableHlo.after pre0 W)) := by
  rw [← StableHlo.after_append, ← StableHlo.after_append, List.take_append_drop, List.take_append_drop]

/-! ### The first cut -/

set_option maxRecDepth 16384 in
theorem pre0_v8 : (StableHlo.after pre0 W (Proc.devRef .tc main_v8) : S1x4096.Idx → Elt Ideal .f32) =
    val_main_v8 (F := Ideal) (W (Proc.devRef .tc main_arg0)) (W (Proc.devRef .tc main_arg1)) (W (Proc.devRef .tc main_arg4)) := by
  dsimp only [pre0, Gen.hostOps0, List.take]
  after_results
  unfold val_main_v8 val_main_v7 val_main_v6 val_main_v5 val_main_v4 val_main_v3 val_main_v2 val_main_c_0 val_main_v1 val_main_v0 val_main_c
  rfl

set_option maxRecDepth 16384 in
theorem pre0_v6 : (StableHlo.after pre0 W (Proc.devRef .tc main_v6) : S1x2048.Idx → Elt Ideal .f32) =
    val_main_v6 (F := Ideal) (W (Proc.devRef .tc main_arg0)) (W (Proc.devRef .tc main_arg4)) := by
  dsimp only [pre0, Gen.hostOps0, List.take]
  after_results
  unfold val_main_v6 val_main_v5 val_main_v4 val_main_v3 val_main_v2 val_main_c_0 val_main_v1 val_main_v0 val_main_c
  rfl

set_option maxRecDepth 16384 in
theorem pre0_v7 : (StableHlo.after pre0 W (Proc.devRef .tc main_v7) : S1x2048.Idx → Elt Ideal .f32) =
    val_main_v7 (F := Ideal) (W (Proc.devRef .tc main_arg1)) := by
  dsimp only [pre0, Gen.hostOps0, List.take]
  after_results
  unfold val_main_v7
  rfl

theorem pre0_arg3 : StableHlo.after pre0 W (Proc.devRef .tc main_arg3) = W (Proc.devRef .tc main_arg3) := by
  dsimp only [pre0, Gen.hostOps0, List.take]; after_results
theorem pre0_arg5 : StableHlo.after pre0 W (Proc.devRef .tc main_arg5) = W (Proc.devRef .tc main_arg5) := by
  dsimp only [pre0, Gen.hostOps0, List.take]; after_results
theorem pre0_arg6 : StableHlo.after pre0 W (Proc.devRef .tc main_arg6) = W (Proc.devRef .tc main_arg6) := by
  dsimp only [pre0, Gen.hostOps0, List.take]; after_results

/-! ### The second cut -/

set_option maxRecDepth 16384 in
theorem mid0_v23 : (StableHlo.after mid0 W (Proc.devRef .tc main_v23) : S1x25.Idx → Elt Ideal .f32) =
    att (W (Proc.devRef .tc main_v8)) (W (Proc.devRef .tc main_arg5)) (W (Proc.devRef .tc main_arg6)) := by
  dsimp only [mid0, rest0, Gen.hostOps0, List.take, List.drop]
  after_results_simp
  unfold att softmax25 expShift25 scores
  rfl

theorem mid0_v6 : StableHlo.after mid0 W (Proc.devRef .tc main_v6) = W (Proc.devRef .tc main_v6) := by
  dsimp only [mid0, rest0, Gen.hostOps0, List.take, List.drop]; after_results
theorem mid0_v7 : StableHlo.after mid0 W (Proc.devRef .tc main_v7) = W (Proc.devRef .tc main_v7) := by
  dsimp only [mid0, rest0, Gen.hostOps0, List.take, List.drop]; after_results
theorem mid0_arg3 : StableHlo.after mid0 W (Proc.devRef .tc main_arg3) = W (Proc.devRef .tc main_arg3) := by
  dsimp only [mid0, rest0, Gen.hostOps0, List.take, List.drop]; after_results

/-! ### The third cut -/

set_option maxRecDepth 16384 in
theorem post0_v25 : (StableHlo.after post0 W (Proc.devRef .tc main_v25) : S1x4096.Idx → Elt Ideal .f32) =
    joined (W (Proc.devRef .tc main_v6)) (W (Proc.devRef .tc main_v23)) (W (Proc.devRef .tc main_arg3)) := by
  dsimp only [post0, rest0, Gen.hostOps0, List.take, List.drop]
  after_results
  rfl

theorem post0_v23 : StableHlo.after post0 W (Proc.devRef .tc main_v23) = W (Proc.devRef .tc main_v23) := by
  dsimp only [post0, rest0, Gen.hostOps0, List.take, List.drop]; after_results
theorem post0_v7 : StableHlo.after post0 W (Proc.devRef .tc main_v7) = W (Proc.devRef .tc main_v7) := by
  dsimp only [post0, rest0, Gen.hostOps0, List.take, List.drop]; after_results

end Prefix

/-! ## The reference's stages are the same functions -/

section Ref

variable (x0 : (⟨Cert.ReferenceIdeal.S1, .i32⟩ : BufTy).Contents (Elt Ideal))
  (x1 : (⟨Cert.ReferenceIdeal.S1x1x2048, .f32⟩ : BufTy).Contents (Elt Ideal))
  (x3 : (⟨Cert.ReferenceIdeal.S25x2048, .f32⟩ : BufTy).Contents (Elt Ideal))
  (x4 : (⟨Cert.ReferenceIdeal.S50257x2048, .f32⟩ : BufTy).Contents (Elt Ideal))
  (x5 : (⟨Cert.ReferenceIdeal.S25x4096, .f32⟩ : BufTy).Contents (Elt Ideal))
  (x6 : (⟨Cert.ReferenceIdeal.S25, .f32⟩ : BufTy).Contents (Elt Ideal))
  (x7 : (⟨Cert.ReferenceIdeal.S2048x4096, .f32⟩ : BufTy).Contents (Elt Ideal))
  (x8 : (⟨Cert.ReferenceIdeal.S2048, .f32⟩ : BufTy).Contents (Elt Ideal))
  (x9 x10 : (⟨Cert.ReferenceIdeal.S6144x2048, .f32⟩ : BufTy).Contents (Elt Ideal))
  (x11 x12 : (⟨Cert.ReferenceIdeal.S6144, .f32⟩ : BufTy).Contents (Elt Ideal))
  (x13 : (⟨Cert.ReferenceIdeal.S50257x2048, .f32⟩ : BufTy).Contents (Elt Ideal))
  (x14 : (⟨Cert.ReferenceIdeal.S50257, .f32⟩ : BufTy).Contents (Elt Ideal))

/-- The reference's attention weights are att of its first joined row. -/
theorem ref_v23 : val_main_v23 (F := Ideal) x0 x1 x4 x5 x6 = att (val_main_v8 (F := Ideal) x0 x1 x4) x5 x6 := by
  unfold val_main_v23 val_main_v22 val_main_v21 val_main_v20 val_main_cst_2 val_main_v19 val_main_v18 val_main_v17 val_main_v16
    val_main_v15 val_main_v14 val_main_cst_1 val_main_v13 val_main_cst val_main_v12 val_main_v11 val_main_v10 val_main_v9
  generalize val_main_v8 (F := Ideal) x0 x1 x4 = y
  unfold att softmax25 expShift25 scores
  rfl

/-- The reference's second joined row. -/
theorem ref_v25 : val_main_v25 (F := Ideal) x0 x1 x3 x4 x5 x6 =
    joined (val_main_v6 (F := Ideal) x0 x4) (val_main_v23 (F := Ideal) x0 x1 x4 x5 x6) x3 := by
  unfold val_main_v25 val_main_v24
  generalize val_main_v6 (F := Ideal) x0 x4 = e
  generalize val_main_v23 (F := Ideal) x0 x1 x4 x5 x6 = a
  rfl

/-- The reference's first result is LS of its logits. -/
theorem ref_v71 : val_main_v71 (F := Ideal) x0 x1 x3 x4 x5 x6 x7 x8 x9 x10 x11 x12 x13 x14 =
    LS (val_main_v70 (F := Ideal) x0 x1 x3 x4 x5 x6 x7 x8 x9 x10 x11 x12 x13 x14) := by
  unfold val_main_v71 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst
  generalize val_main_v70 (F := Ideal) x0 x1 x3 x4 x5 x6 x7 x8 x9 x10 x11 x12 x13 x14 = y
  unfold LS LSshift
  rfl

/-- The reference's second result is the same broadcast of its new hidden state. -/
theorem ref_v72 : val_main_v72 (F := Ideal) x0 x1 x3 x4 x5 x6 x7 x8 x9 x10 x11 x12 =
    broadcastInDim S1x1x2048 ![1, 2] bcast_S1x2048_S1x1x2048_1_2 (val_main_v66 (F := Ideal) x0 x1 x3 x4 x5 x6 x7 x8 x9 x10 x11 x12) := by
  unfold val_main_v72
  generalize val_main_v66 (F := Ideal) x0 x1 x3 x4 x5 x6 x7 x8 x9 x10 x11 x12 = y
  rfl

end Ref

/-! ## The first stretch's values are the reference's -/

variable (m : (ℓ : Loc nD τ sig) → Buf (Elt Ideal) ℓ) (c : Dev nD)

theorem V1_v7 : Gen.V1 m c main_v7 = val_main_v7 (F := Ideal) (m ((c : Thread nD τ).loc main_arg1)) := by
  show StableHlo.after (Gen.hostOps0 (F := Ideal)) (Gen.V0 m c) (Proc.devRef .tc main_v7) = _
  rw [after0_split, post0_v7, mid0_v7, pre0_v7]

theorem V1_v23 : Gen.V1 m c main_v23 = val_main_v23 (F := Ideal) (m ((c : Thread nD τ).loc main_arg0)) (m ((c : Thread nD τ).loc main_arg1))
    (m ((c : Thread nD τ).loc main_arg4)) (m ((c : Thread nD τ).loc main_arg5)) (m ((c : Thread nD τ).loc main_arg6)) := by
  show StableHlo.after (Gen.hostOps0 (F := Ideal)) (Gen.V0 m c) (Proc.devRef .tc main_v23) = _
  rw [after0_split, post0_v23, mid0_v23, pre0_v8, pre0_arg5, pre0_arg6, ref_v23]

theorem V1_v25 : Gen.V1 m c main_v25 = val_main_v25 (F := Ideal) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) := by
  show StableHlo.after (Gen.hostOps0 (F := Ideal)) (Gen.V0 m c) (Proc.devRef .tc main_v25) = _
  rw [after0_split, post0_v25, mid0_v6, mid0_v23, mid0_arg3, pre0_v6, pre0_v8, pre0_arg3, pre0_arg5, pre0_arg6, ref_v25, ref_v23]

end Cert.HostVals

end
-- ==== Proof.Bridge.lean ====
/-
  The kernel's three results against the reference's. Each pallas_call's output array is a whole-array function of the
  arrays it is entered from (the combine layer, the GRU cell, the output projection); the host stretches between them only
  reshape arguments, so those arrays are the launch arguments, the previous stage's output, and two rows the first host
  stretch computes on both sides alike. The reference's three stages are the same three functions of the same arrays. So
  result 0 is the log-softmax of the same logits, result 1 the same broadcast of the same new hidden state, and result 2
  the attention weights the first host stretch leaves untouched to the end.
-/
import proofs.«420902_j59081570124588_3_alg».proof.Proof.KernelIdeal.Run
import proofs.«420902_j59081570124588_3_alg».proof.Proof.KernelIdeal.Val0
import proofs.«420902_j59081570124588_3_alg».proof.Proof.KernelIdeal.Val1
import proofs.«420902_j59081570124588_3_alg».proof.Proof.KernelIdeal.Val2
import proofs.«420902_j59081570124588_3_alg».proof.Proof.RefIs
import proofs.«420902_j59081570124588_3_alg».proof.Proof.HostVals
import proofs.«420902_j59081570124588_3_alg».proof.Proof.HostRef
import proofs.«420902_j59081570124588_3_alg».proof.Proof.RefGen

set_option maxRecDepth 16384

noncomputable section

namespace Cert.Bridge

open Cert.KernelIdeal
open Cert.ReferenceIdeal.Read (val_main_v7 val_main_v23 val_main_v25 val_main_v30 val_main_v66 val_main_v70 val_main_v71 val_main_v72)
open Idealize.ShloMosaic Idealize.ShloMosaic.TcCoe Idealize.SL.Sem

-- the launch memory, and a core
variable (m : (ℓ : Loc nD τ sig) → Buf (Elt Ideal) ℓ) (c : Dev nD)

-- the argument arrays on that core at launch
set_option quotPrecheck false
local notation "a0" => m ((c : Thread nD τ).loc main_arg0)
local notation "a1" => m ((c : Thread nD τ).loc main_arg1)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
set_option quotPrecheck true

/-! ## The three tiled stages, each read off the arrays it is entered from -/

/-- The combine layer's array: the reference's relu(x · W₇ᵗ + b₈) of the same concatenated row x. -/
theorem comb_stage : Reg.o0 m c = val_main_v30 (F := Ideal) a0 a1 a3 a4 a5 a6 a7 a8 := by
  refine (Val.final0 (Reg.U1 m) c).trans ?_
  show Cert.Spec.comb (Gen.V1 m c main_v25) (Gen.V1 m c main_arg7) (Cert.Spec.row1 (Gen.V1 m c main_v26)) = _
  rw [HostVals.V1_v25 m c, HostVals.V1_arg7 m c, HostVals.row1_v26 m c]
  exact (RefIs.comb_eq _ _ _ _ _ _ _ _).symm

/-- The cell's array: the reference's GRU step from the combine layer's output and the previous hidden state. The
    second pallas_call is entered from the fold's valuation before it. -/
theorem cell_stage : Reg.o1 m c = val_main_v66 (F := Ideal) a0 a1 a3 a4 a5 a6 a7 a8 a9 a10 a11 a12 := by
  refine Eq.trans (congrArg (fun U => (Reg.dat1 U c).arrAt 7 cfg1.N) (Reg.U3_eq m).symm) ?_
  refine (Val.final1 (fun c b => Gen.V3 m (Reg.outs m) c b) c).trans ?_
  show Cert.Spec.gru (Gen.V3 m (Reg.outs m) c main_v27) (Gen.V3 m (Reg.outs m) c main_v7)
    (Cert.Spec.rows3 (Gen.V3 m (Reg.outs m) c main_v28)) (Cert.Spec.rows3 (Gen.V3 m (Reg.outs m) c main_v29))
    (Cert.Spec.vec3 (Gen.V3 m (Reg.outs m) c main_v30)) (Cert.Spec.vec3 (Gen.V3 m (Reg.outs m) c main_v31)) = _
  rw [HostVals.V3_v27 m (Reg.outs m) c, HostVals.V3_v7 m (Reg.outs m) c, HostVals.rows3_v28 m (Reg.outs m) c,
    HostVals.rows3_v29 m (Reg.outs m) c, HostVals.vec3_v30 m (Reg.outs m) c, HostVals.vec3_v31 m (Reg.outs m) c,
    Reg.outs_v27 m 2 c, HostVals.V1_v7 m c, comb_stage m c]
  exact (RefIs.gru_eq _ _ _ _ _ _ _ _ _ _ _ _).symm

/-- The output projection's array: the reference's logits of the new hidden state. The third pallas_call is entered
    from the fold's valuation before it. -/
theorem proj_stage : Reg.o2 m c = val_main_v70 (F := Ideal) a0 a1 a3 a4 a5 a6 a7 a8 a9 a10 a11 a12 a13 a14 := by
  refine Eq.trans (congrArg (fun U => (Reg.dat2 U c).arrAt 3 cfg2.N) (Reg.U5_eq m).symm) ?_
  refine (Val.final2 (fun c b => Gen.V5 m (Reg.outs m) c b) c).trans ?_
  show Cert.Spec.logits (Gen.V5 m (Reg.outs m) c main_v32) (Gen.V5 m (Reg.outs m) c main_arg13)
    (Cert.Spec.row1 (Gen.V5 m (Reg.outs m) c main_v33)) = _
  rw [HostVals.V5_v32 m (Reg.outs m) c, HostVals.V5_arg13 m (Reg.outs m) c, HostVals.row1_v33 m (Reg.outs m) c,
    Reg.outs_v32 m 4 c, cell_stage m c]
  exact (RefIs.logits_eq _ _ _ _ _ _ _ _ _ _ _ _ _ _).symm

/-! ## The three results -/

/-- Result 0, the log-probabilities: the host's log-softmax of the projection's array on both sides. -/
theorem result0 : Gen.V8 m (Reg.outs m) c main_v35
    = val_main_v71 (F := Ideal) a0 a1 a3 a4 a5 a6 a7 a8 a9 a10 a11 a12 a13 a14 := by
  rw [HostVals.V8_v35 m (Reg.outs m) c, Reg.outs_v34 m 6 c, proj_stage m c]
  exact (HostVals.ref_v71 _ _ _ _ _ _ _ _ _ _ _ _ _ _).symm

/-- Result 1, the new hidden state with its unit axis: the same broadcast of the cell's array on both sides. -/
theorem result1 : Gen.V8 m (Reg.outs m) c main_v36
    = val_main_v72 (F := Ideal) a0 a1 a3 a4 a5 a6 a7 a8 a9 a10 a11 a12 := by
  rw [HostVals.V8_v36 m (Reg.outs m) c, Reg.outs_v32 m 4 c, cell_stage m c]
  exact (HostVals.ref_v72 _ _ _ _ _ _ _ _ _ _ _ _).symm

/-- Result 2, the attention weights: computed by the first host stretch on both sides, and no later item writes them. -/
theorem result2 : Gen.V8 m (Reg.outs m) c main_v23 = val_main_v23 (F := Ideal) a0 a1 a4 a5 a6 :=
  (HostVals.V8_v23 m (Reg.outs m) c).trans (HostVals.V1_v23 m c)

end Cert.Bridge

end
-- ==== Proof.lean ====
/-
  One decoder step of an attention GRU: a gathered embedding row and the hidden state give attention weights over 25
  encoder positions (a softmax), the attended context is combined with the embedding by a 2048 × 4096 matrix and a ReLU,
  one GRU cell updates the hidden state, and a 50257 × 2048 matrix with a log-softmax gives the token scores. The kernel
  computes the three matrix-vector stages in three tiled pallas_calls (4, 8 and 25 grid points) and leaves the rest to
  host operations; the reference does everything in host operations.

  Over the extended reals the two programs are one function with no precondition: every tile of a matrix-vector
  product is the same dot products over the same contraction index, a change of float format is the identity, the
  kernel's logistic is by definition 1 / (1 + exp(−x)) as the reference spells it, and the host operations before,
  between and after the three stages are the same in both programs.

  frame_Kernel: the word-level program runs through the relational several-region rule, the last region's output
  forgotten (its last block is cut at the array's end and the word-level matrix product is not lane-local in the model).
  frame_KernelIdeal and the kernel half of the value claim: the exact several-region rule, every unscoped buffer read off
  the last valuation. frame_ReferenceIdeal and the reference half: the reference's run read back stage by stage.
  preserves: the ideal pass rewrote nothing.
-/
import proofs.«420902_j59081570124588_3_alg».proof.Defs
import proofs.«420902_j59081570124588_3_alg».proof.Proof.Gen.Kernel
import proofs.«420902_j59081570124588_3_alg».proof.Proof.Gen.KernelIdeal
import proofs.«420902_j59081570124588_3_alg».proof.Proof.Gen.ReferenceIdeal
import proofs.«420902_j59081570124588_3_alg».proof.Proof.Gen.Pre_finite_inputs
import proofs.«420902_j59081570124588_3_alg».proof.Proof.Kernel.FrameR
import proofs.«420902_j59081570124588_3_alg».proof.Proof.KernelIdeal.RunIdeal
import proofs.«420902_j59081570124588_3_alg».proof.Proof.RefStages
import proofs.«420902_j59081570124588_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- An unscoped TensorCore buffer of the idealized kernel is among those its run reads back. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The word-level kernel runs and leaves its arguments as they were. -/
theorem frame_k : Cert.frame_Kernel := fun m ρ _ => Cert.Kernel.Reg.frameR (F := Bits) m ρ

/-- The idealized kernel runs and leaves its arguments as they were: each argument read off the last valuation. -/
theorem frame_ki : Cert.frame_KernelIdeal := fun m ρ _ =>
  (θ_run Cert.KernelIdeal.defs _ _).mono (fun r h c => ⟨(h c (Proc.devRef .tc Cert.KernelIdeal.main_arg0) (mem_uc Cert.KernelIdeal.main_arg0 (by decide))).trans (Cert.KernelIdeal.Gen.V8_main_arg0 m (Cert.KernelIdeal.Reg.outs m) c),
    (h c (Proc.devRef .tc Cert.KernelIdeal.main_arg1) (mem_uc Cert.KernelIdeal.main_arg1 (by decide))).trans (Cert.KernelIdeal.Gen.V8_main_arg1 m (Cert.KernelIdeal.Reg.outs m) c),
    (h c (Proc.devRef .tc Cert.KernelIdeal.main_arg2) (mem_uc Cert.KernelIdeal.main_arg2 (by decide))).trans (Cert.KernelIdeal.Gen.V8_main_arg2 m (Cert.KernelIdeal.Reg.outs m) c),
    (h c (Proc.devRef .tc Cert.KernelIdeal.main_arg3) (mem_uc Cert.KernelIdeal.main_arg3 (by decide))).trans (Cert.KernelIdeal.Gen.V8_main_arg3 m (Cert.KernelIdeal.Reg.outs m) c),
    (h c (Proc.devRef .tc Cert.KernelIdeal.main_arg4) (mem_uc Cert.KernelIdeal.main_arg4 (by decide))).trans (Cert.KernelIdeal.Gen.V8_main_arg4 m (Cert.KernelIdeal.Reg.outs m) c),
    (h c (Proc.devRef .tc Cert.KernelIdeal.main_arg5) (mem_uc Cert.KernelIdeal.main_arg5 (by decide))).trans (Cert.KernelIdeal.Gen.V8_main_arg5 m (Cert.KernelIdeal.Reg.outs m) c),
    (h c (Proc.devRef .tc Cert.KernelIdeal.main_arg6) (mem_uc Cert.KernelIdeal.main_arg6 (by decide))).trans (Cert.KernelIdeal.Gen.V8_main_arg6 m (Cert.KernelIdeal.Reg.outs m) c),
    (h c (Proc.devRef .tc Cert.KernelIdeal.main_arg7) (mem_uc Cert.KernelIdeal.main_arg7 (by decide))).trans (Cert.KernelIdeal.Gen.V8_main_arg7 m (Cert.KernelIdeal.Reg.outs m) c),
    (h c (Proc.devRef .tc Cert.KernelIdeal.main_arg8) (mem_uc Cert.KernelIdeal.main_arg8 (by decide))).trans (Cert.KernelIdeal.Gen.V8_main_arg8 m (Cert.KernelIdeal.Reg.outs m) c),
    (h c (Proc.devRef .tc Cert.KernelIdeal.main_arg9) (mem_uc Cert.KernelIdeal.main_arg9 (by decide))).trans (Cert.KernelIdeal.Gen.V8_main_arg9 m (Cert.KernelIdeal.Reg.outs m) c),
    (h c (Proc.devRef .tc Cert.KernelIdeal.main_arg10) (mem_uc Cert.KernelIdeal.main_arg10 (by decide))).trans (Cert.KernelIdeal.Gen.V8_main_arg10 m (Cert.KernelIdeal.Reg.outs m) c),
    (h c (Proc.devRef .tc Cert.KernelIdeal.main_arg11) (mem_uc Cert.KernelIdeal.main_arg11 (by decide))).trans (Cert.KernelIdeal.Gen.V8_main_arg11 m (Cert.KernelIdeal.Reg.outs m) c),
    (h c (Proc.devRef .tc Cert.KernelIdeal.main_arg12) (mem_uc Cert.KernelIdeal.main_arg12 (by decide))).trans (Cert.KernelIdeal.Gen.V8_main_arg12 m (Cert.KernelIdeal.Reg.outs m) c),
    (h c (Proc.devRef .tc Cert.KernelIdeal.main_arg13) (mem_uc Cert.KernelIdeal.main_arg13 (by decide))).trans (Cert.KernelIdeal.Gen.V8_main_arg13 m (Cert.KernelIdeal.Reg.outs m) c),
    (h c (Proc.devRef .tc Cert.KernelIdeal.main_arg14) (mem_uc Cert.KernelIdeal.main_arg14 (by decide))).trans (Cert.KernelIdeal.Gen.V8_main_arg14 m (Cert.KernelIdeal.Reg.outs m) c)⟩)
    (Cert.KernelIdeal.Reg.run_vals_ideal m ρ)

/-- The reference runs and leaves its arguments as they were: its run with the results dropped. -/
theorem frame_ri : Cert.frame_ReferenceIdeal := fun m ρ _ =>
  (θ_run Cert.ReferenceIdeal.defs _ _).mono (fun _ h c => (h c).2.2.2) (Cert.ReferenceIdeal.Stages.run (F := Ideal) m ρ)

/-- From memories agreeing on the arguments both programs end with the same three results: the kernel's are its last
    valuation at the three result buffers, and the reference's stages at the same arguments are those (the bridge). -/
theorem algebraic : Cert.algebraic_KernelIdeal_ReferenceIdeal := by
  intro m ρ m' ρ' _ hagree
  refine ⟨fun c => Cert.KernelIdeal.Gen.V8 m (Cert.KernelIdeal.Reg.outs m) c Cert.KernelIdeal.main_v35,
    fun c => Cert.KernelIdeal.Gen.V8 m (Cert.KernelIdeal.Reg.outs m) c Cert.KernelIdeal.main_v36,
    fun c => Cert.KernelIdeal.Gen.V8 m (Cert.KernelIdeal.Reg.outs m) c Cert.KernelIdeal.main_v23, ?_, ?_⟩
  · exact (θ_run Cert.KernelIdeal.defs _ _).mono (fun r h c => ⟨
      h c (Proc.devRef .tc Cert.KernelIdeal.main_v35) (mem_uc Cert.KernelIdeal.main_v35 (by decide)),
      h c (Proc.devRef .tc Cert.KernelIdeal.main_v36) (mem_uc Cert.KernelIdeal.main_v36 (by decide)),
      h c (Proc.devRef .tc Cert.KernelIdeal.main_v23) (mem_uc Cert.KernelIdeal.main_v23 (by decide)),
      (h c (Proc.devRef .tc Cert.KernelIdeal.main_arg0) (mem_uc Cert.KernelIdeal.main_arg0 (by decide))).trans (Cert.KernelIdeal.Gen.V8_main_arg0 m (Cert.KernelIdeal.Reg.outs m) c),
      (h c (Proc.devRef .tc Cert.KernelIdeal.main_arg1) (mem_uc Cert.KernelIdeal.main_arg1 (by decide))).trans (Cert.KernelIdeal.Gen.V8_main_arg1 m (Cert.KernelIdeal.Reg.outs m) c),
      (h c (Proc.devRef .tc Cert.KernelIdeal.main_arg2) (mem_uc Cert.KernelIdeal.main_arg2 (by decide))).trans (Cert.KernelIdeal.Gen.V8_main_arg2 m (Cert.KernelIdeal.Reg.outs m) c),
      (h c (Proc.devRef .tc Cert.KernelIdeal.main_arg3) (mem_uc Cert.KernelIdeal.main_arg3 (by decide))).trans (Cert.KernelIdeal.Gen.V8_main_arg3 m (Cert.KernelIdeal.Reg.outs m) c),
      (h c (Proc.devRef .tc Cert.KernelIdeal.main_arg4) (mem_uc Cert.KernelIdeal.main_arg4 (by decide))).trans (Cert.KernelIdeal.Gen.V8_main_arg4 m (Cert.KernelIdeal.Reg.outs m) c),
      (h c (Proc.devRef .tc Cert.KernelIdeal.main_arg5) (mem_uc Cert.KernelIdeal.main_arg5 (by decide))).trans (Cert.KernelIdeal.Gen.V8_main_arg5 m (Cert.KernelIdeal.Reg.outs m) c),
      (h c (Proc.devRef .tc Cert.KernelIdeal.main_arg6) (mem_uc Cert.KernelIdeal.main_arg6 (by decide))).trans (Cert.KernelIdeal.Gen.V8_main_arg6 m (Cert.KernelIdeal.Reg.outs m) c),
      (h c (Proc.devRef .tc Cert.KernelIdeal.main_arg7) (mem_uc Cert.KernelIdeal.main_arg7 (by decide))).trans (Cert.KernelIdeal.Gen.V8_main_arg7 m (Cert.KernelIdeal.Reg.outs m) c),
      (h c (Proc.devRef .tc Cert.KernelIdeal.main_arg8) (mem_uc Cert.KernelIdeal.main_arg8 (by decide))).trans (Cert.KernelIdeal.Gen.V8_main_arg8 m (Cert.KernelIdeal.Reg.outs m) c),
      (h c (Proc.devRef .tc Cert.KernelIdeal.main_arg9) (mem_uc Cert.KernelIdeal.main_arg9 (by decide))).trans (Cert.KernelIdeal.Gen.V8_main_arg9 m (Cert.KernelIdeal.Reg.outs m) c),
      (h c (Proc.devRef .tc Cert.KernelIdeal.main_arg10) (mem_uc Cert.KernelIdeal.main_arg10 (by decide))).trans (Cert.KernelIdeal.Gen.V8_main_arg10 m (Cert.KernelIdeal.Reg.outs m) c),
      (h c (Proc.devRef .tc Cert.KernelIdeal.main_arg11) (mem_uc Cert.KernelIdeal.main_arg11 (by decide))).trans (Cert.KernelIdeal.Gen.V8_main_arg11 m (Cert.KernelIdeal.Reg.outs m) c),
      (h c (Proc.devRef .tc Cert.KernelIdeal.main_arg12) (mem_uc Cert.KernelIdeal.main_arg12 (by decide))).trans (Cert.KernelIdeal.Gen.V8_main_arg12 m (Cert.KernelIdeal.Reg.outs m) c),
      (h c (Proc.devRef .tc Cert.KernelIdeal.main_arg13) (mem_uc Cert.KernelIdeal.main_arg13 (by decide))).trans (Cert.KernelIdeal.Gen.V8_main_arg13 m (Cert.KernelIdeal.Reg.outs m) c),
      (h c (Proc.devRef .tc Cert.KernelIdeal.main_arg14) (mem_uc Cert.KernelIdeal.main_arg14 (by decide))).trans (Cert.KernelIdeal.Gen.V8_main_arg14 m (Cert.KernelIdeal.Reg.outs m) c)⟩)
      (Cert.KernelIdeal.Reg.run_vals_ideal m ρ)
  · refine (θ_run Cert.ReferenceIdeal.defs _ _).mono (fun r h c => ⟨(h c).1.trans ?_, (h c).2.1.trans ?_, (h c).2.2.1.trans ?_, (h c).2.2.2⟩)
      (Cert.ReferenceIdeal.Stages.run (F := Ideal) m' ρ')
    · obtain ⟨h0, h1, h2, h3, h4, h5, h6, h7, h8, h9, h10, h11, h12, h13, h14⟩ := hagree c
      rw [h0, h1, h3, h4, h5, h6, h7, h8, h9, h10, h11, h12, h13, h14]
      exact (Cert.Bridge.result0 m c).symm
    · obtain ⟨h0, h1, h2, h3, h4, h5, h6, h7, h8, h9, h10, h11, h12, h13, h14⟩ := hagree c
      rw [h0, h1, h3, h4, h5, h6, h7, h8, h9, h10, h11, h12]
      exact (Cert.Bridge.result1 m c).symm
    · obtain ⟨h0, h1, h2, h3, h4, h5, h6, h7, h8, h9, h10, h11, h12, h13, h14⟩ := hagree c
      rw [h0, h1, h4, h5, h6]
      exact (Cert.Bridge.result2 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
